-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1200000 : Shape := ⟨1, ![1200000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1200000 : S_.BroadcastsInDim S1200000 (![] : Fin 0 → Fin S1200000.rank)
  reducesTo_S1200000_S_d0 : S1200000.ReducesTo [0] S_

variable [Facts]

def fn {F : FTy → Type} [FloatOps F] (main_arg0 : FVec F S100000x64 .f32) (main_arg1 : IVec S1200000 32) (main_arg2 : IVec S1200000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_c_0 : IVec S_ 32 := constantI S_ 32 0#32
  let main_v4 : IVec S1200000 32 := broadcastInDim S1200000 ![] bcast_S_S1200000 main_c_0
  let main_v5 : IVec S1200000 1 := cmpi .sge main_arg1 main_v4
  let main_c_1 : IVec S_ 1 := constantI S_ 1 1#1
  let main_v6 : IVec S_ 1 := (fun x v => Host.reduce IntOp.andi x v reducesTo_S1200000_S_d0 h_S_) main_v5 main_c_1
  let main_v7 : IVec S_ 1 := andi main_v3 main_v6
  let main_c_2 : IVec S_ 32 := constantI S_ 32 100000#32
  let main_v8 : IVec S1200000 32 := broadcastInDim S1200000 ![] bcast_S_S1200000 main_c_2
  let main_v9 : IVec S1200000 1 := cmpi .slt main_arg1 main_v8
  let main_c_3 : IVec S_ 1 := constantI S_ 1 1#1
  let main_v10 : IVec S_ 1 := (fun x v => Host.reduce IntOp.andi x v reducesTo_S1200000_S_d0 h_S_) main_v9 main_c_3
  let main_v11 : IVec S_ 1 := andi main_v7 main_v10
  main_v11
-- ==== Kernel.lean ====
abbrev S100000x64 : Shape := ⟨2, ![100000, 64]⟩
abbrev S1200000 : Shape := ⟨1, ![1200000]⟩
abbrev S_ : Shape := ⟨0, ![]⟩
abbrev S100000 : Shape := ⟨1, ![100000]⟩
abbrev S1200000x1 : Shape := ⟨2, ![1200000, 1]⟩
abbrev S100352x64 : Shape := ⟨2, ![100352, 64]⟩
abbrev S100352 : Shape := ⟨1, ![100352]⟩
abbrev S100352x1 : Shape := ⟨2, ![100352, 1]⟩
abbrev S1200128 : Shape := ⟨1, ![1200128]⟩
abbrev S1x1200128 : Shape := ⟨2, ![1, 1200128]⟩
abbrev S1200128x64 : Shape := ⟨2, ![1200128, 64]⟩
abbrev S2048x64 : Shape := ⟨2, ![2048, 64]⟩
abbrev S2048x1 : Shape := ⟨2, ![2048, 1]⟩
abbrev S1x2048 : Shape := ⟨2, ![1, 2048]⟩
abbrev S2048x2048 : Shape := ⟨2, ![2048, 2048]⟩

abbrev nBuf : Space → Nat
  | .hbm => 49
  | .vmem => 17
  | .smem => 0
  | _ => 0

abbrev bufTy : (tb : Table) → Fin (tcTables nBuf tb) → BufTy
  | .hbm, ⟨0, _⟩ => ⟨S100000x64, .f32⟩
  | .hbm, ⟨1, _⟩ => ⟨S1200000, .i32⟩
  | .hbm, ⟨2, _⟩ => ⟨S1200000, .i32⟩
  | .hbm, ⟨3, _⟩ => ⟨S_, .f32⟩
  | .hbm, ⟨4, _⟩ => ⟨S1200000, .f32⟩
  | .hbm, ⟨5, _⟩ => ⟨S_, .f32⟩
  | .hbm, ⟨6, _⟩ => ⟨S100000, .f32⟩
  | .hbm, ⟨7, _⟩ => ⟨S1200000x1, .i32⟩
  | .hbm, ⟨8, _⟩ => ⟨S100000, .f32⟩
  | .hbm, ⟨9, _⟩ => ⟨S_, .f32⟩
  | .hbm, ⟨10, _⟩ => ⟨S_, .f32⟩
  | .hbm, ⟨11, _⟩ => ⟨S100000, .f32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1200000x1, .i32⟩
  | .hbm, ⟨16, _⟩ => ⟨S100000, .f32⟩
  | .hbm, ⟨17, _⟩ => ⟨S_, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S_, .f32⟩
  | .hbm, ⟨29, _⟩ => ⟨S100352x64, .f32⟩
  | .hbm, ⟨30, _⟩ => ⟨S_, .f32⟩
  | .hbm, ⟨31, _⟩ => ⟨S_, .f32⟩
  | .hbm, ⟨32, _⟩ => ⟨S100352, .f32⟩
  | .hbm, ⟨33, _⟩ => ⟨S100352x1, .f32⟩
  | .hbm, ⟨34, _⟩ => ⟨S_, .f32⟩
  | .hbm, ⟨35, _⟩ => ⟨S_, .f32⟩
  | .hbm, ⟨36, _⟩ => ⟨S100352, .f32⟩
  | .hbm, ⟨37, _⟩ => ⟨S100352x1, .f32⟩
  | .hbm, ⟨38, _⟩ => ⟨S_, .i32⟩
  | .hbm, ⟨39, _⟩ => ⟨S_, .i32⟩
  | .hbm, ⟨40, _⟩ => ⟨S1200128, .i32⟩
  | .hbm, ⟨41, _⟩ => ⟨S1x1200128, .i32⟩
  | .hbm, ⟨42, _⟩ => ⟨S_, .i32⟩
  | .hbm, ⟨43, _⟩ => ⟨S_, .i32⟩
  | .hbm, ⟨44, _⟩ => ⟨S1200128, .i32⟩
  | .hbm, ⟨45, _⟩ => ⟨S1x1200128, .i32⟩
  | .hbm, ⟨46, _⟩ => ⟨S1200128x64, .bf16⟩
  | .hbm, ⟨47, _⟩ => ⟨S100352x64, .f32⟩
  | .hbm, ⟨48, _⟩ => ⟨S100000x64, .f32⟩
  | .local _ .vmem, ⟨0, _⟩ => ⟨S2048x64, .f32⟩
  | .local _ .vmem, ⟨1, _⟩ => ⟨S2048x64, .f32⟩
  | .local _ .vmem, ⟨2, _⟩ => ⟨S2048x1, .f32⟩
  | .local _ .vmem, ⟨3, _⟩ => ⟨S2048x1, .f32⟩
  | .local _ .vmem, ⟨4, _⟩ => ⟨S1x2048, .i32⟩
  | .local _ .vmem, ⟨5, _⟩ => ⟨S1x2048, .i32⟩
  | .local _ .vmem, ⟨6, _⟩ => ⟨S2048x64, .bf16⟩
  | .local _ .vmem, ⟨7, _⟩ => ⟨S2048x64, .bf16⟩
  | .local _ .vmem, ⟨8, _⟩ => ⟨S2048x64, .f32⟩
  | .local _ .vmem, ⟨9, _⟩ => ⟨S2048x64, .bf16⟩
  | .local _ .vmem, ⟨10, _⟩ => ⟨S2048x64, .bf16⟩
  | .local _ .vmem, ⟨11, _⟩ => ⟨S1x2048, .i32⟩
  | .local _ .vmem, ⟨12, _⟩ => ⟨S1x2048, .i32⟩
  | .local _ .vmem, ⟨13, _⟩ => ⟨S2048x1, .f32⟩
  | .local _ .vmem, ⟨14, _⟩ => ⟨S2048x1, .f32⟩
  | .local _ .vmem, ⟨15, _⟩ => ⟨S2048x64, .f32⟩
  | .local _ .vmem, ⟨16, _⟩ => ⟨S2048x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_cst_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_3 : Ref sig .tc := ⟨.hbm, 17, rfl⟩
abbrev main_call1_v0 : Ref sig .tc := ⟨.hbm, 18, rfl⟩
abbrev main_call1_v1 : Ref sig .tc := ⟨.hbm, 19, rfl⟩
abbrev main_v8 : Ref sig .tc := ⟨.hbm, 20, rfl⟩
abbrev main_cst_4 : Ref sig .tc := ⟨.hbm, 21, rfl⟩
abbrev main_v9 : Ref sig .tc := ⟨.hbm, 22, rfl⟩
abbrev main_v10 : Ref sig .tc := ⟨.hbm, 23, rfl⟩
abbrev main_cst_5 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_call2_v0 : Ref sig .tc := ⟨.hbm, 28, rfl⟩
abbrev main_v13 : Ref sig .tc := ⟨.hbm, 29, rfl⟩
abbrev main_cst_6 : Ref sig .tc := ⟨.hbm, 30, rfl⟩
abbrev main_call3_v0 : Ref sig .tc := ⟨.hbm, 31, rfl⟩
abbrev main_v14 : Ref sig .tc := ⟨.hbm, 32, rfl⟩
abbrev main_v15 : Ref sig .tc := ⟨.hbm, 33, rfl⟩
abbrev main_cst_7 : Ref sig .tc := ⟨.hbm, 34, rfl⟩
abbrev main_call4_v0 : Ref sig .tc := ⟨.hbm, 35, rfl⟩
abbrev main_v16 : Ref sig .tc := ⟨.hbm, 36, rfl⟩
abbrev main_v17 : Ref sig .tc := ⟨.hbm, 37, rfl⟩
abbrev main_c_8 : Ref sig .tc := ⟨.hbm, 38, rfl⟩
abbrev main_call5_v0 : Ref sig .tc := ⟨.hbm, 39, rfl⟩
abbrev main_v18 : Ref sig .tc := ⟨.hbm, 40, rfl⟩
abbrev main_v19 : Ref sig .tc := ⟨.hbm, 41, rfl⟩
abbrev main_c_9 : Ref sig .tc := ⟨.hbm, 42, rfl⟩
abbrev main_call6_v0 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![586, 49], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![49, 586], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x2048 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2048x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  pads_S100000x64_S100352x64_03520_000 : S100000x64.Pads (![0, 0] : Fin 2 → Nat) ![352, 0] ![0, 0] S100352x64
  h_S_ : 0 < S_.numel
  pads_S100000_S100352_03520 : S100000.Pads (![0] : Fin 1 → Nat) ![352] ![0] S100352
  shapeCasts_S100352_S100352x1 : S100352.ShapeCasts S100352x1
  pads_S1200000_S1200128_01280 : S1200000.Pads (![0] : Fin 1 → Nat) ![128] ![0] S1200128
  shapeCasts_S1200128_S1x1200128 : S1200128.ShapeCasts S1x1200128
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x64 : S2048x1.Broadcasts S2048x64
  bitsLt_bf16_f32 : FTy.bits .bf16 < FTy.bits .f32
  iota_S2048x1_d0_w32 : S2048x1.Iotas .tc 32 [0]
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S2048x1_S2048x2048 : S2048x1.Broadcasts S2048x2048
  broadcasts_S1x2048_S2048x2048 : S1x2048.Broadcasts S2048x2048
  natLt_1_32 : 1 < 32
  packedbf16_S2048x64_S2048x64_0_0 : (Rect.unit (s := S2048x64) ![0, 0] S2048x64.size inb_S2048x64_S2048x64_0_0).PackedRows (EltTy.packing .bf16)
  slices_S100352x64_S100000x64_0_0 : S100352x64.Slices ![0, 0] S100000x64
  scatter_S100000_S1200000x1_S1200000_n_0_0_1_wf : ScatterDims.WF S100000 S1200000x1 S1200000 [] [0] [0] 1
  dot_S2048x2048_S2048x64_S2048x64_0_0_1_1_n_n_wf : DotDims.WF S2048x2048 S2048x64 S2048x64 [0] [0] [1] [1] [] []
  dot_S2048x2048_S2048x64_S2048x64_1_0_0_1_n_n_wf : DotDims.WF S2048x2048 S2048x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S100352x64.size a
  hwx0_0 : ∀ i : grid0.Coords, EltTy.bits .f32 = 32 ∨ (Rect.block (s := S100352x64) S2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S100352x1.size a
  hwx0_1 : ∀ i : grid0.Coords, EltTy.bits .f32 = 32 ∨ (Rect.block (s := S100352x1) S2048x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x1200128.size a
  hwx0_2 : ∀ i : grid0.Coords, EltTy.bits .i32 = 32 ∨ (Rect.block (s := S1x1200128) S1x2048.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S1200128x64.size a
  hwx0_3 : ∀ i : grid0.Coords, EltTy.bits .bf16 = 32 ∨ (Rect.block (s := S1200128x64) S2048x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x64.size a ≤ S1200128x64.size a
  hwx1_0 : ∀ i : grid1.Coords, EltTy.bits .bf16 = 32 ∨ (Rect.block (s := S1200128x64) S2048x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048.size a ≤ S1x1200128.size a
  hwx1_1 : ∀ i : grid1.Coords, EltTy.bits .i32 = 32 ∨ (Rect.block (s := S1x1200128) S1x2048.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S100352x1.size a
  hwx1_2 : ∀ i : grid1.Coords, EltTy.bits .f32 = 32 ∨ (Rect.block (s := S100352x1) S2048x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x64.size a ≤ S100352x64.size a
  hwx1_3 : ∀ i : grid1.Coords, EltTy.bits .f32 = 32 ∨ (Rect.block (s := S100352x64) S2048x64.size (cc1_transform_3 i) (hinb1_3 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S2048x2048_S2048x64_S2048x64_0_0_1_1_n_n : DotDims S2048x2048 S2048x64 S2048x64 where
  lhsContracting := [0]
  rhsContracting := [0]
  lhsNonContracting := [1]
  rhsNonContracting := [1]
  lhsBatch := []
  rhsBatch := []
  wf := dot_S2048x2048_S2048x64_S2048x64_0_0_1_1_n_n_wf
def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf

abbrev win0_0 : Pipeline.Window sig grid0 :=
  Pipeline.Window.ofSpec (Memref.whole main_v13) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S2048x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S1x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S2048x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x64 : Shape := ⟨2, ![100000, 64]⟩
abbrev S1200000 : Shape := ⟨1, ![1200000]⟩
abbrev S_ : Shape := ⟨0, ![]⟩
abbrev S100000 : Shape := ⟨1, ![100000]⟩
abbrev S1200000x1 : Shape := ⟨2, ![1200000, 1]⟩
abbrev S100000x1 : Shape := ⟨2, ![100000, 1]⟩
abbrev S1200000x64 : Shape := ⟨2, ![1200000, 64]⟩

abbrev nBuf : Space → Nat
  | .hbm => 46
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1200000, .i32⟩
  | .hbm, ⟨2, _⟩ => ⟨S1200000, .i32⟩
  | .hbm, ⟨3, _⟩ => ⟨S_, .f32⟩
  | .hbm, ⟨4, _⟩ => ⟨S1200000, .f32⟩
  | .hbm, ⟨5, _⟩ => ⟨S_, .f32⟩
  | .hbm, ⟨6, _⟩ => ⟨S100000, .f32⟩
  | .hbm, ⟨7, _⟩ => ⟨S1200000x1, .i32⟩
  | .hbm, ⟨8, _⟩ => ⟨S100000, .f32⟩
  | .hbm, ⟨9, _⟩ => ⟨S_, .f32⟩
  | .hbm, ⟨10, _⟩ => ⟨S_, .f32⟩
  | .hbm, ⟨11, _⟩ => ⟨S100000, .f32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S100000x1, .f32⟩
  | .hbm, ⟨17, _⟩ => ⟨S100000x64, .f32⟩
  | .hbm, ⟨18, _⟩ => ⟨S100000x64, .f32⟩
  | .hbm, ⟨19, _⟩ => ⟨S_, .i32⟩
  | .hbm, ⟨20, _⟩ => ⟨S1200000, .i32⟩
  | .hbm, ⟨21, _⟩ => ⟨S1200000, .i1⟩
  | .hbm, ⟨22, _⟩ => ⟨S_, .i32⟩
  | .hbm, ⟨23, _⟩ => ⟨S1200000, .i32⟩
  | .hbm, ⟨24, _⟩ => ⟨S1200000, .i32⟩
  | .hbm, ⟨25, _⟩ => ⟨S1200000, .i32⟩
  | .hbm, ⟨26, _⟩ => ⟨S1200000x1, .i32⟩
  | .hbm, ⟨27, _⟩ => ⟨S1200000x64, .f32⟩
  | .hbm, ⟨28, _⟩ => ⟨S_, .f32⟩
  | .hbm, ⟨29, _⟩ => ⟨S100000x64, .f32⟩
  | .hbm, ⟨30, _⟩ => ⟨S1200000x1, .i32⟩
  | .hbm, ⟨31, _⟩ => ⟨S100000x64, .f32⟩
  | .hbm, ⟨32, _⟩ => ⟨S_, .f32⟩
  | .hbm, ⟨33, _⟩ => ⟨S100000, .f32⟩
  | .hbm, ⟨34, _⟩ => ⟨S1200000x1, .i32⟩
  | .hbm, ⟨35, _⟩ => ⟨S100000, .f32⟩
  | .hbm, ⟨36, _⟩ => ⟨S_, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S_, .f32⟩
  | .hbm, ⟨41, _⟩ => ⟨S100000, .f32⟩
  | .hbm, ⟨42, _⟩ => ⟨S100000, .f32⟩
  | .hbm, ⟨43, _⟩ => ⟨S100000x1, .f32⟩
  | .hbm, ⟨44, _⟩ => ⟨S100000x64, .f32⟩
  | .hbm, ⟨45, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_cst_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_c_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_call1_v0 : Ref sig .tc := ⟨.hbm, 37, rfl⟩
abbrev main_call1_v1 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]

class Facts₀ : Prop where
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  scatter_S100000_S1200000x1_S1200000_n_0_0_1_wf : ScatterDims.WF S100000 S1200000x1 S1200000 [] [0] [0] 1
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf

class Facts : Prop extends Facts₀ where

variable [Facts]
-- ==== Proof.GatherCasesI.lean ====
/-
  The gather region's groundwork. Its grid is 586 edge tiles by 49 node blocks, the node block the fast axis: point
  `t` is edge tile `t / 49`, node block `t % 49`. The body zeroes its carried accumulator exactly when the node
  block is the first one. Stated here: each window's block as the region finds it, that condition in closed form over
  the grid, the memrefs the body is called on, and the class invariant with the accumulator's buffer split out of the
  scoped rest.
-/
import proofs.«429303_j7997229105212_1_alg».proof.Proof.Gen.KernelIdeal.Launch
import proofs.«429303_j7997229105212_1_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: the node features'
    and the degree column's blocks move with the node block (fetched at every point), the edge endpoints' with the edge
    tile (fetched when it changes, the same block in between). For any proof data whose array is `V`'s and whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's one branch -/

/-- "The node block is the first", as the body computes it from the node-block coordinate. -/
abbrev firstOf0 (k : ℕ) : Prop :=
  (Scalar.cmpi .ne (Scalar.extui (Scalar.cmpi .eq (BitVec.ofNat 32 k) 0#32)) 0#32) = 1#1
/-- The body's `scf.if`: "this is the first node block", from the grid coordinates. -/
abbrev first0 (i : grid0.Coords) : Prop := firstOf0 (i 1).val
/-- Among the 49 node blocks the comparison holds of block 0 only. -/
theorem firstOf0_iff : ∀ k : ℕ, k < 49 → (firstOf0 k ↔ k = 0) := by decide
/-- The node block is the fast axis: at point `t` it is `t % 49`. -/
theorem coords0_1 (t : Fin cfg0.N) : ((grid0.coords t) 1).val = t.val % 49 := by
  show t.val / grid0.stride 1 % grid0.bound 1 = t.val % 49
  have h1 : grid0.stride 1 = 1 := by decide
  have h2 : grid0.bound 1 = 49 := rfl
  rw [h1, h2, Nat.div_one]
/-- The edge tile is the slow axis: at point `t` it is `t / 49`. -/
theorem coords0_0 (t : Fin cfg0.N) : ((grid0.coords t) 0).val = t.val / 49 := by
  show t.val / grid0.stride 0 % grid0.bound 0 = t.val / 49
  have h1 : grid0.stride 0 = 49 := by decide
  have h2 : grid0.bound 0 = 586 := rfl
  have hN : t.val < 28714 := lt_of_lt_of_eq t.isLt (show cfg0.N = 28714 from by decide)
  rw [h1, h2]; exact Nat.mod_eq_of_lt (by omega)
/-- It holds exactly at the points whose node block is 0. -/
theorem hfirst0 (t : Fin cfg0.N) : first0 (grid0.coords t) ↔ t.val % 49 = 0 := by
  show firstOf0 ((grid0.coords t) 1).val ↔ _
  rw [coords0_1 t]
  exact firstOf0_iff _ (Nat.mod_lt _ (by decide))

/-! ## The memrefs the body is called on -/

abbrev ms0_0 (t : Fin cfg0.N) : Memref sig .tc .vmem S2048x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x64 .bf16 := win0_3.stage (cfg0.slots t 3)
abbrev hs0_3 (t : Fin cfg0.N) : (ms0_3 t).IsWhole := hstage0_3 ((cfg0.slots t 3).cast nbuf0_3)
/-- The accumulator: a whole scoped buffer of the kernel's own, passed beside the windows. -/
abbrev scM0 : Memref sig .tc .vmem S2048x64 .f32 := Memref.whole cc0_scratch0

/-! ## The body as the pipeline calls it, and when the output window is written back -/

/-- The kernel body at point `t`, on the staging buffers the pipeline calls it with and the accumulator. -/
abbrev bodyAt0 (t : Fin cfg0.N) : Prog (TpuEff nD τ sig (Elt F) Λ₀ .tc) PUnit :=
  cc0__gather_kernel_body (grid0.coords t) (ms0_0 t) (hs0_0 t) (ms0_1 t) (hs0_1 t) (ms0_2 t) (hs0_2 t) (ms0_3 t) (hs0_3 t)
    scM0 (Memref.isWhole_whole _)

/-- The output window's block index at point `t` is its edge tile, `t / 49`. -/
theorem index0_3 (s : Fin cfg0.N) : (cfg0.win 3).index s = ![s.val / 49, 0] := by
  have hs : s.val < 28714 := lt_of_lt_of_eq s.isLt (show cfg0.N = 28714 from N_0)
  show cc0_transform_3 (grid0.coords s) = _
  unfold cc0_transform_3
  funext a
  match a with
  | ⟨0, _⟩ =>
    show (BitVec.ofNat 32 ((grid0.coords s) 0).val).toNat = s.val / 49
    rw [coords0_0 s, BitVec.toNat_ofNat]
    omega
  | ⟨1, _⟩ => rfl

/-- The output window is written back exactly after the last node block of each edge tile. -/
theorem flush0_3 (t : Fin cfg0.N) : (cfg0.win 3).flush t = true ↔ t.val % 49 = 48 := by
  have hN : grid0.N = 28714 := N_0
  have ht : t.val < 28714 := lt_of_lt_of_eq t.isLt hN
  have key : ∀ h : t.val + 1 < grid0.N,
      ((cfg0.win 3).index ⟨t.val + 1, h⟩ ≠ (cfg0.win 3).index t) ↔ (t.val + 1) / 49 ≠ t.val / 49 := fun h => by
    rw [index0_3 ⟨t.val + 1, h⟩, index0_3 t]
    show (![(t.val + 1) / 49, 0] : Fin 2 → ℕ) ≠ ![t.val / 49, 0] ↔ _
    constructor
    · intro hne e; exact hne (by rw [e])
    · intro hne e
      have h3 := congrFun e 0
      simp only [Matrix.cons_val_zero] at h3
      exact hne h3
  show ((cfg0.win 3).isOut && (decide (t.val + 1 = grid0.N)
      || decide (∃ h : t.val + 1 < grid0.N, (cfg0.win 3).index ⟨t.val + 1, h⟩ ≠ (cfg0.win 3).index t))) = true ↔ _
  rw [show (cfg0.win 3).isOut = true from rfl, Bool.true_and, Bool.or_eq_true, decide_eq_true_eq, decide_eq_true_eq]
  constructor
  · rintro (h | ⟨h, hne⟩)
    · omega
    · have h2 := (key h).mp hne
      omega
  · intro h
    by_cases h1 : t.val + 1 = grid0.N
    · exact Or.inl h1
    · have h2 : t.val + 1 < grid0.N := by omega
      exact Or.inr ⟨h2, (key h2).mpr (by omega)⟩

/-! ## The class invariant, the accumulator's buffer apart -/

/-- The scoped buffers that are neither a staging buffer of this region nor its accumulator (the other region's
    staging buffers), each whole at some contents. -/
def otherScoped0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f))

/-- The class invariant: the accumulator owned at some contents, the other scoped buffers, the generator register. -/
theorem PhiA0_eq (c : Dev nD) :
    (Pipeline.ΦA spec0 c : sProp 𝕄)
      = iprop(iprop((∃ d, owns (c : Thread nD τ) scM0 fullShare d) ∗ otherScoped0 (F := F) c) ∗ (∃ r, prngReg c r)) := by
  unfold Pipeline.ΦA otherScoped0; rw [scopedRest0_eq]; simp only [scM0, owns_whole]; try rfl

end Cert.KernelIdeal.Gather

end
-- ==== Proof.GatherDataI.lean ====
/-
  The gather region's proof data. After the body at point `t` (edge tile `t / 49`, node block `t % 49`) the
  carried accumulator holds the one-hot contraction of this node block added to what the point before left — or to
  zero when the node block is the first — and the output window's buffer holds that accumulator narrowed to the
  output's format. The input windows' buffers hold their blocks. The invariant between points is the class's, with the
  accumulator named at what the point before left.
-/
import proofs.«429303_j7997229105212_1_alg».proof.Proof.GatherCasesI

set_option maxRecDepth 16384

noncomputable section

namespace Cert.KernelIdeal.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the accumulator holds after each point -/

/-- The accumulator after the body at position `n`: this point's contraction added to zero at a first node block,
    to what position `n - 1` left otherwise. -/
def scrAt0 (c : Dev nD) : (n : ℕ) → n < cfg0.N → Vec F S2048x64 .f32
  | 0, hn => k0_pay2 (grid0.coords ⟨0, hn⟩) (iblk0 V c 0 ⟨0, hn⟩) (iblk0 V c 1 ⟨0, hn⟩) (iblk0 V c 2 ⟨0, hn⟩) (k0_pay1 (F := F))
  | n + 1, hn => k0_pay2 (grid0.coords ⟨n + 1, hn⟩) (iblk0 V c 0 ⟨n + 1, hn⟩) (iblk0 V c 1 ⟨n + 1, hn⟩) (iblk0 V c 2 ⟨n + 1, hn⟩)
      (if (n + 1) % 49 = 0 then (k0_pay1 (F := F)) else scrAt0 c n (Nat.lt_of_succ_lt hn))

/-- At a first node block the accumulator restarts from zero. -/
theorem scrAt0_first (c : Dev nD) (t : Fin cfg0.N) (h : t.val % 49 = 0) :
    scrAt0 V c t.val t.isLt = k0_pay2 (grid0.coords t) (iblk0 V c 0 t) (iblk0 V c 1 t) (iblk0 V c 2 t) (k0_pay1 (F := F)) := by
  obtain ⟨n, hn⟩ := t
  cases n with
  | zero => rfl
  | succ n =>
    have h' : (n + 1) % 49 = 0 := h
    show k0_pay2 (grid0.coords ⟨n + 1, hn⟩) (iblk0 V c 0 ⟨n + 1, hn⟩) (iblk0 V c 1 ⟨n + 1, hn⟩) (iblk0 V c 2 ⟨n + 1, hn⟩)
        (if (n + 1) % 49 = 0 then (k0_pay1 (F := F)) else scrAt0 V c n (Nat.lt_of_succ_lt hn)) = _
    rw [if_pos h']

/-- At any other node block it continues from what the point before left. -/
theorem scrAt0_next (c : Dev nD) (t : Fin cfg0.N) (h : ¬ t.val % 49 = 0) :
    scrAt0 V c t.val t.isLt = k0_pay2 (grid0.coords t) (iblk0 V c 0 t) (iblk0 V c 1 t) (iblk0 V c 2 t)
      (scrAt0 V c (t.val - 1) (Nat.lt_of_le_of_lt (Nat.sub_le _ _) t.isLt)) := by
  obtain ⟨n, hn⟩ := t
  cases n with
  | zero => exact absurd (Nat.zero_mod _) h
  | succ n =>
    have h' : ¬ (n + 1) % 49 = 0 := h
    show k0_pay2 (grid0.coords ⟨n + 1, hn⟩) (iblk0 V c 0 ⟨n + 1, hn⟩) (iblk0 V c 1 ⟨n + 1, hn⟩) (iblk0 V c 2 ⟨n + 1, hn⟩)
        (if (n + 1) % 49 = 0 then (k0_pay1 (F := F)) else scrAt0 V c n (Nat.lt_of_succ_lt hn)) = _
    rw [if_neg h']; rfl

/-! ## The invariant between points -/

/-- Before position `n`: the class's invariant before the first point (the accumulator at anything); afterwards the
    accumulator at what position `n - 1` left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0 fullShare (scrAt0 V c n hn) ∗ otherScoped0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare (scrAt0 V c n hn) ∗ otherScoped0 (F := F) c) ∗ (∃ r, prngReg c r)) := rfl
theorem PhiS0_pos (c : Dev nD) (n : ℕ) (h : n ≤ cfg0.N) (hz : n ≠ 0) :
    PhiS0 V c n h = iprop(iprop(owns (c : Thread nD τ) scM0 fullShare (scrAt0 V c (n - 1) (by omega)) ∗ otherScoped0 (F := F) c) ∗ (∃ r, prngReg c r)) := by
  cases n with
  | zero => exact absurd rfl hz
  | succ n => rfl

/-! ## The proof data -/

/-- The arrays as the region finds them; after the body each input's buffer at its block, the output's at the narrowed
    accumulator; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (scrAt0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay3 (scrAt0 V c t.val t.isLt) := by dsimp only [dat0]

end Cert.KernelIdeal.Gather

end
-- ==== Proof.GatherRunI.lean ====
/-
  The gather body run whole on its memrefs, once per case of its branch (first node block or not).

  The body, at a point with coordinates i, on five whole buffers: the node features' block x0, the degree column's
  block x1, the edge endpoints' block x2, the output block, and the accumulator. At a first node block it fills the
  accumulator with zeros; then, in either case, it adds this node block's one-hot contraction to the accumulator and
  stores the accumulator, narrowed to the output's format, into the output block. Every store fills its whole buffer,
  so what a buffer reads afterwards is the payload of the last store into it, and a load made after a store reads
  that store's payload. Hence:
    first node block:  accumulator := pay2 i x0 x1 x2 zeros,  output := narrow (pay2 i x0 x1 x2 zeros);
    otherwise, the accumulator entering at s:  accumulator := pay2 i x0 x1 x2 s,  output := narrow (pay2 i x0 x1 x2 s).
  The inputs' buffers are left as they were; what the output block and (in the first case) the accumulator held on
  entry is never used.
-/
import proofs.«429303_j7997229105212_1_alg».proof.Proof.GatherCasesI
import Idealize.ShloMosaic.Lib.Pipeline.Value

set_option maxRecDepth 16384

noncomputable section

namespace Cert.KernelIdeal.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-block stores read back -/

/-- The offsets of every access of the body: zero on both axes. -/
theorem zeroOff : (![0, 0] : Fin 2 → Nat) = fun _ => 0 := funext fun a => by fin_cases a <;> rfl

/-- A 2048×64 buffer whose LAST store filled the whole block reads that store's payload, whatever was stored before
    and whatever it held at first. -/
theorem read_last_whole {sg : RefSig} {κ : Kind} {sp : Space} {e : EltTy} (v : View sg κ sp S2048x64 e)
    (f : v.ty.Contents (Elt F)) (w : S2048x64.Idx → Elt F e) (L : List (View.Piece (Elt F) S2048x64 e)) :
    v.read (Elt F) (v.writes (Elt F) f
      ((⟨Rect.unit (s := S2048x64) ![0, 0] S2048x64.size inb_S2048x64_S2048x64_0_0, w⟩ : View.Piece (Elt F) S2048x64 e) :: L)) = w := by
  have hcov : ∀ y : S2048x64.Idx, ∃ p ∈ ((⟨Rect.unit (s := S2048x64) ![0, 0] S2048x64.size inb_S2048x64_S2048x64_0_0, w⟩ :
      View.Piece (Elt F) S2048x64 e) :: L), y ∈ p.1.set :=
    fun y => ⟨_, List.Mem.head _, View.mem_set_unit_zero (S := S2048x64) zeroOff inb_S2048x64_S2048x64_0_0 y⟩
  rw [View.read_writes_eq_canon _ _ _ hcov, View.canon_cons_unit_zero (S := S2048x64) zeroOff]

/-! ## The two runs -/

set_option maxHeartbeats 1000000 in
/-- AT A FIRST NODE BLOCK. On whole memrefs — the inputs' at x0, x1, x2, the output's and the accumulator's at
    anything — the body runs to the continuation holding the inputs' as they were, the accumulator at this block's
    contraction added to zeros, and the output's at that, narrowed. -/
theorem run0_first (c : Dev nD) (E : Set ℕ) (i : grid0.Coords)
    (arg2 : Memref sig .tc .vmem S2048x64 .f32) (harg2 : arg2.IsWhole)
    (arg3 : Memref sig .tc .vmem S2048x1 .f32) (harg3 : arg3.IsWhole)
    (arg4 : Memref sig .tc .vmem S1x2048 .i32) (harg4 : arg4.IsWhole)
    (arg5 : Memref sig .tc .vmem S2048x64 .bf16) (harg5 : arg5.IsWhole)
    (arg6 : Memref sig .tc .vmem S2048x64 .f32) (harg6 : arg6.IsWhole)
    (hc : first0 i)
    (x0 : Vec F S2048x64 .f32) (x1 : Vec F S2048x1 .f32) (x2 : Vec F S1x2048 .i32) (K : PUnit → sProp 𝕄) :
    iprop(owns (c : Thread nD τ) arg2 fullShare x0 ∗ owns (c : Thread nD τ) arg3 fullShare x1
        ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg4 fullShare x2
            ∗ owns (c : Thread nD τ) arg5 fullShare (k0_pay3 (k0_pay2 i x0 x1 x2 (k0_pay1 (F := F))))
            ∗ owns (c : Thread nD τ) arg6 fullShare (k0_pay2 i x0 x1 x2 (k0_pay1 (F := F)))) -∗ K ⟨⟩))
      ⊢ wp frame (wpE (defs₀ (F := F)) Variants.none c none) E
          (cc0__gather_kernel_body i arg2 harg2 arg3 harg3 arg4 harg4 arg5 harg5 arg6 harg6) K := by
  simp only [cc0__gather_kernel_body_eq_skeleton]; unfold cc0__gather_kernel_body_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [read_last_whole]
    simp only [View.readAt_eq_ld, View.ld_unit_zero (S := S2048x64) zeroOff, View.ld_unit_zero (S := S2048x1) zeroOff,
      View.ld_unit_zero (S := S1x2048) zeroOff, View.readCov_cons_toLoadRect]
  iexists _; isplitr
  swap; · iexact H4
  ipureintro
  sl_unfold_words
  rw [read_last_whole]
  simp only [View.readAt_eq_ld, View.ld_unit_zero (S := S2048x64) zeroOff, View.ld_unit_zero (S := S2048x1) zeroOff,
    View.ld_unit_zero (S := S1x2048) zeroOff, View.readCov_cons_toLoadRect]

set_option maxHeartbeats 1000000 in
/-- AT ANY OTHER NODE BLOCK. The same with the accumulator entering at s: it leaves at this block's contraction
    added to s, the output's at that, narrowed. -/
theorem run0_next (c : Dev nD) (E : Set ℕ) (i : grid0.Coords)
    (arg2 : Memref sig .tc .vmem S2048x64 .f32) (harg2 : arg2.IsWhole)
    (arg3 : Memref sig .tc .vmem S2048x1 .f32) (harg3 : arg3.IsWhole)
    (arg4 : Memref sig .tc .vmem S1x2048 .i32) (harg4 : arg4.IsWhole)
    (arg5 : Memref sig .tc .vmem S2048x64 .bf16) (harg5 : arg5.IsWhole)
    (arg6 : Memref sig .tc .vmem S2048x64 .f32) (harg6 : arg6.IsWhole)
    (hc : ¬first0 i)
    (x0 : Vec F S2048x64 .f32) (x1 : Vec F S2048x1 .f32) (x2 : Vec F S1x2048 .i32) (s : Vec F S2048x64 .f32)
    (K : PUnit → sProp 𝕄) :
    iprop(owns (c : Thread nD τ) arg2 fullShare x0 ∗ owns (c : Thread nD τ) arg3 fullShare x1
        ∗ owns (c : Thread nD τ) arg4 fullShare x2
        ∗ (∃ d, owns (c : Thread nD τ) arg5 fullShare d) ∗ owns (c : Thread nD τ) arg6 fullShare s
        ∗ (iprop(owns (c : Thread nD τ) arg2 fullShare x0 ∗ owns (c : Thread nD τ) arg3 fullShare x1
            ∗ owns (c : Thread nD τ) arg4 fullShare x2
            ∗ owns (c : Thread nD τ) arg5 fullShare (k0_pay3 (k0_pay2 i x0 x1 x2 s))
            ∗ owns (c : Thread nD τ) arg6 fullShare (k0_pay2 i x0 x1 x2 s)) -∗ K ⟨⟩))
      ⊢ wp frame (wpE (defs₀ (F := F)) Variants.none c none) E
          (cc0__gather_kernel_body i arg2 harg2 arg3 harg3 arg4 harg4 arg5 harg5 arg6 harg6) K := by
  simp only [cc0__gather_kernel_body_eq_skeleton]; unfold cc0__gather_kernel_body_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0; subst hf1; subst hf2; subst hf4
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [read_last_whole]
    simp only [View.readAt_eq_ld, View.ld_unit_zero (S := S2048x64) zeroOff, View.ld_unit_zero (S := S2048x1) zeroOff,
      View.ld_unit_zero (S := S1x2048) zeroOff, View.readCov_cons_toLoadRect]
  iexists _; isplitr
  swap; · iexact H4
  ipureintro
  sl_unfold_words
  rw [read_last_whole]
  simp only [View.readAt_eq_ld, View.ld_unit_zero (S := S2048x64) zeroOff, View.ld_unit_zero (S := S2048x1) zeroOff,
    View.ld_unit_zero (S := S1x2048) zeroOff, View.readCov_cons_toLoadRect]

end Cert.KernelIdeal.Gather

end
-- ==== Proof.GatherBodyI.lean ====
/-
  The gather region's body obligation. At every point the body, handed the invariant between points and each window's
  current buffer at what it then holds, runs to the invariant at the next point and the buffers at what the proof data
  say it leaves: the inputs' at their blocks, the accumulator at this node block's one-hot contraction added to what the
  point before left (to zeros at a first node block), the output's at the accumulator narrowed to its format. At the
  region's two ends the invariant is the class's: before the first point by definition, after the last by forgetting
  what the accumulator holds.
-/
import proofs.«429303_j7997229105212_1_alg».proof.Proof.GatherDataI
import proofs.«429303_j7997229105212_1_alg».proof.Proof.GatherRunI

set_option maxRecDepth 16384

noncomputable section

namespace Cert.KernelIdeal.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body obligation, and the invariant against the class's at the two ends -/

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- The invariant at a point's start, at the point's position. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body is called with at point `t`: the invariant, what the core owes, and each window's current buffer at
    what it then holds — -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns: the invariant at the next point, the same owed, each buffer at `after`. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

set_option maxHeartbeats 4000000 in
/-- The body at any point. The inputs' buffers hold their blocks. At a first node block the accumulator may hold
    anything — nothing before the first point, what the point before left afterwards — and the body overwrites it; at
    any other node block it holds what the point before left, and the body adds to that. Either way the accumulator
    leaves at this point's contents and the output's buffer at those, narrowed; the other scoped buffers, the generator
    register and what the core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2, after0_3]
  by_cases h : t.val % 49 = 0
  · rw [scrAt0_first V c t h]
    by_cases hz : t.val = 0
    · rw [PhiS0_castSucc V c t, PhiS0_zero V c _ _ hz, PhiA0_eq]
      iintro ⟨⟨⟨HS, Hr⟩, Hg⟩, Ho, ⟨%d0, H0⟩, ⟨%d1, H1⟩, ⟨%d2, H2⟩, ⟨%d3, H3⟩⟩
      iapply (run0_first c Set.univ (grid0.coords t) (ms0_0 t) (hs0_0 t) (ms0_1 t) (hs0_1 t) (ms0_2 t) (hs0_2 t)
        (ms0_3 t) (hs0_3 t) scM0 (Memref.isWhole_whole _) ((hfirst0 t).mpr h) (iblk0 V c 0 t) (iblk0 V c 1 t) (iblk0 V c 2 t) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexact H3
    · rw [PhiS0_castSucc V c t, PhiS0_pos V c _ _ hz]
      iintro ⟨⟨⟨HS, Hr⟩, Hg⟩, Ho, ⟨%d0, H0⟩, ⟨%d1, H1⟩, ⟨%d2, H2⟩, ⟨%d3, H3⟩⟩
      iapply (run0_first c Set.univ (grid0.coords t) (ms0_0 t) (hs0_0 t) (ms0_1 t) (hs0_1 t) (ms0_2 t) (hs0_2 t)
        (ms0_3 t) (hs0_3 t) scM0 (Memref.isWhole_whole _) ((hfirst0 t).mpr h) (iblk0 V c 0 t) (iblk0 V c 1 t) (iblk0 V c 2 t) _)
      isplitl [H0]; · iexact H0
      isplitl [H1]; · iexact H1
      isplitl [H2]; · iexact H2
      isplitl [H3]; · iexists _; iexact H3
      isplitl [HS]; · iexists _; iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexact H3
  · have hz : t.val ≠ 0 := by omega
    rw [scrAt0_next V c t h]
    rw [PhiS0_castSucc V c t, PhiS0_pos V c _ _ hz]
    iintro ⟨⟨⟨HS, Hr⟩, Hg⟩, Ho, ⟨%d0, H0⟩, ⟨%d1, H1⟩, ⟨%d2, H2⟩, ⟨%d3, H3⟩⟩
    iapply (run0_next c Set.univ (grid0.coords t) (ms0_0 t) (hs0_0 t) (ms0_1 t) (hs0_1 t) (ms0_2 t) (hs0_2 t)
      (ms0_3 t) (hs0_3 t) scM0 (Memref.isWhole_whole _) (fun hc => h ((hfirst0 t).mp hc)) (iblk0 V c 0 t) (iblk0 V c 1 t) (iblk0 V c 2 t)
      (scrAt0 V c (t.val - 1) (Nat.lt_of_le_of_lt (Nat.sub_le _ _) t.isLt)) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    iexact H3

/-- The body at every point, from the invariant and the windows' buffers at what they then hold, to the invariant at the
    next point and the buffers at `after`. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's contents forgotten. -/
theorem hout0 (c : Dev nD) : (dat0 V c).Φ (Fin.last cfg0.N) ⊢ Pipeline.ΦA spec0 c := by
  have hN : (Fin.last cfg0.N).val ≠ 0 := by
    rw [Fin.val_last]; have : cfg0.N = 28714 := N_0; omega
  rw [show (dat0 V c).Φ (Fin.last cfg0.N) = PhiS0 V c (Fin.last cfg0.N).val (Nat.le_of_lt_succ (Fin.last cfg0.N).isLt) from rfl,
    PhiS0_pos V c _ _ hN, PhiA0_eq]
  iintro ⟨⟨HS, Hr⟩, Hg⟩
  isplitl [HS Hr]
  · isplitl [HS]
    · iexists _; iexact HS
    iexact Hr
  iexact Hg

end Cert.KernelIdeal.Gather

end
-- ==== Proof.ScatterCasesI.lean ====
/-
  The scatter region's groundwork. Its grid is 49 node blocks by 586 edge tiles, the edge tile the fast axis: point
  `t` is node block `t / 586`, edge tile `t % 586`. The body zeroes the output block at the first edge tile, adds
  this tile's one-hot contraction at every tile, and scales the block by the degree column at the last tile. Stated
  here: each window's block as the region finds it, the two conditions in closed form over the grid, and the memrefs
  the body is called on.
-/
import proofs.«429303_j7997229105212_1_alg».proof.Proof.Gen.KernelIdeal.Launch
import proofs.«429303_j7997229105212_1_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Scatter

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: the messages' and the
    edge endpoints' blocks move with the edge tile (fetched at every point), the degree column's with the node block
    (fetched when it changes, the same block in between). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branches -/

/-- "The edge tile is the first" / "the last", as the body computes them from the edge-tile coordinate. -/
abbrev firstOf1 (k : ℕ) : Prop :=
  (Scalar.cmpi .ne (Scalar.extui (Scalar.cmpi .eq (BitVec.ofNat 32 k) 0#32)) 0#32) = 1#1
abbrev lastOf1 (k : ℕ) : Prop :=
  (Scalar.cmpi .ne (Scalar.extui (Scalar.cmpi .eq (BitVec.ofNat 32 k) 585#32)) 0#32) = 1#1
/-- "This is the first edge tile", from the grid coordinates. -/
abbrev first1 (i : grid1.Coords) : Prop := firstOf1 (i 1).val
/-- "This is the last edge tile", from the grid coordinates. -/
abbrev last1 (i : grid1.Coords) : Prop := lastOf1 (i 1).val
/-- Among the 586 edge tiles the comparisons hold of tile 0, resp. tile 585, only. -/
theorem firstOf1_iff : ∀ k : ℕ, k < 586 → (firstOf1 k ↔ k = 0) := by decide +kernel
theorem lastOf1_iff : ∀ k : ℕ, k < 586 → (lastOf1 k ↔ k = 585) := by decide +kernel
/-- The edge tile is the fast axis: at point `t` it is `t % 586`. -/
theorem coords1_1 (t : Fin cfg1.N) : ((grid1.coords t) 1).val = t.val % 586 := by
  show t.val / grid1.stride 1 % grid1.bound 1 = t.val % 586
  have h1 : grid1.stride 1 = 1 := by decide
  have h2 : grid1.bound 1 = 586 := rfl
  rw [h1, h2, Nat.div_one]
/-- The node block is the slow axis: at point `t` it is `t / 586`. -/
theorem coords1_0 (t : Fin cfg1.N) : ((grid1.coords t) 0).val = t.val / 586 := by
  show t.val / grid1.stride 0 % grid1.bound 0 = t.val / 586
  have h1 : grid1.stride 0 = 586 := by decide
  have h2 : grid1.bound 0 = 49 := rfl
  have hN : t.val < 28714 := lt_of_lt_of_eq t.isLt (show cfg1.N = 28714 from by decide)
  rw [h1, h2]; exact Nat.mod_eq_of_lt (by omega)
theorem hfirst1 (t : Fin cfg1.N) : first1 (grid1.coords t) ↔ t.val % 586 = 0 := by
  show firstOf1 ((grid1.coords t) 1).val ↔ _
  rw [coords1_1 t]
  exact firstOf1_iff _ (Nat.mod_lt _ (by decide))
theorem hlast1 (t : Fin cfg1.N) : last1 (grid1.coords t) ↔ t.val % 586 = 585 := by
  show lastOf1 ((grid1.coords t) 1).val ↔ _
  rw [coords1_1 t]
  exact lastOf1_iff _ (Nat.mod_lt _ (by decide))

/-! ## The memrefs the body is called on -/

abbrev ms1_0 (t : Fin cfg1.N) : Memref sig .tc .vmem S2048x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x64 .f32 := win1_3.stage (cfg1.slots t 3)
abbrev hs1_3 (t : Fin cfg1.N) : (ms1_3 t).IsWhole := hstage1_3 ((cfg1.slots t 3).cast nbuf1_3)

/-! ## The body as the pipeline calls it, and when the output window is written back -/

/-- The kernel body at point `t`, on the staging buffers the pipeline calls it with. -/
abbrev bodyAt1 (t : Fin cfg1.N) : Prog (TpuEff nD τ sig (Elt F) Λ₀ .tc) PUnit :=
  cc1__scatter_kernel_body (grid1.coords t) (ms1_0 t) (hs1_0 t) (ms1_1 t) (hs1_1 t) (ms1_2 t) (hs1_2 t) (ms1_3 t) (hs1_3 t)

/-- The output window's block index at point `t` is its node block, `t / 586`. -/
theorem index1_3 (s : Fin cfg1.N) : (cfg1.win 3).index s = ![s.val / 586, 0] := by
  have hs : s.val < 28714 := lt_of_lt_of_eq s.isLt (show cfg1.N = 28714 from N_1)
  show cc1_transform_3 (grid1.coords s) = _
  unfold cc1_transform_3
  funext a
  match a with
  | ⟨0, _⟩ =>
    show (BitVec.ofNat 32 ((grid1.coords s) 0).val).toNat = s.val / 586
    rw [coords1_0 s, BitVec.toNat_ofNat]
    omega
  | ⟨1, _⟩ => rfl

/-- The output window is written back exactly after the last edge tile of each node block. -/
theorem flush1_3 (t : Fin cfg1.N) : (cfg1.win 3).flush t = true ↔ t.val % 586 = 585 := by
  have hN : grid1.N = 28714 := N_1
  have ht : t.val < 28714 := lt_of_lt_of_eq t.isLt hN
  have key : ∀ h : t.val + 1 < grid1.N,
      ((cfg1.win 3).index ⟨t.val + 1, h⟩ ≠ (cfg1.win 3).index t) ↔ (t.val + 1) / 586 ≠ t.val / 586 := fun h => by
    rw [index1_3 ⟨t.val + 1, h⟩, index1_3 t]
    show (![(t.val + 1) / 586, 0] : Fin 2 → ℕ) ≠ ![t.val / 586, 0] ↔ _
    constructor
    · intro hne e; exact hne (by rw [e])
    · intro hne e
      have h3 := congrFun e 0
      simp only [Matrix.cons_val_zero] at h3
      exact hne h3
  show ((cfg1.win 3).isOut && (decide (t.val + 1 = grid1.N)
      || decide (∃ h : t.val + 1 < grid1.N, (cfg1.win 3).index ⟨t.val + 1, h⟩ ≠ (cfg1.win 3).index t))) = true ↔ _
  rw [show (cfg1.win 3).isOut = true from rfl, Bool.true_and, Bool.or_eq_true, decide_eq_true_eq, decide_eq_true_eq]
  constructor
  · rintro (h | ⟨h, hne⟩)
    · omega
    · have h2 := (key h).mp hne
      omega
  · intro h
    by_cases h1 : t.val + 1 = grid1.N
    · exact Or.inl h1
    · have h2 : t.val + 1 < grid1.N := by omega
      exact Or.inr ⟨h2, (key h2).mpr (by omega)⟩

end Cert.KernelIdeal.Scatter

end
-- ==== Proof.ScatterDataI.lean ====
/-
  The scatter region's proof data. The output window's block is fixed while the edge tile runs over its 586 values
  and is written back only after the last, so its staging buffer carries the running sum: after the body at point
  `t` (node block `t / 586`, edge tile `t % 586`) it holds this tile's one-hot contraction added to what the
  point before left — or to zero at the first tile — and, at the last tile, that sum scaled row by row by the degree
  column. The input windows' buffers hold their blocks; the invariant between points is the class's.
-/
import proofs.«429303_j7997229105212_1_alg».proof.Proof.ScatterCasesI

set_option maxRecDepth 16384

noncomputable section

namespace Cert.KernelIdeal.Scatter

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the output window's buffer holds after each point -/

/-- The output window's buffer after the body at position `n`. -/
def outAt1 (c : Dev nD) : (n : ℕ) → n < cfg1.N → Vec F S2048x64 .f32
  | 0, hn => k1_pay2 (grid1.coords ⟨0, hn⟩) (iblk1 V c 1 ⟨0, hn⟩) (iblk1 V c 0 ⟨0, hn⟩) (k1_pay1 (F := F))
  | n + 1, hn =>
    let acc : Vec F S2048x64 .f32 := k1_pay2 (grid1.coords ⟨n + 1, hn⟩) (iblk1 V c 1 ⟨n + 1, hn⟩) (iblk1 V c 0 ⟨n + 1, hn⟩)
      (if (n + 1) % 586 = 0 then (k1_pay1 (F := F)) else outAt1 c n (Nat.lt_of_succ_lt hn))
    if (n + 1) % 586 = 585 then k1_pay3 acc (iblk1 V c 2 ⟨n + 1, hn⟩) else acc

/-- At a first edge tile the sum restarts from zero (and is not yet scaled: the last tile is another). -/
theorem outAt1_first (c : Dev nD) (t : Fin cfg1.N) (h : t.val % 586 = 0) :
    outAt1 V c t.val t.isLt = k1_pay2 (grid1.coords t) (iblk1 V c 1 t) (iblk1 V c 0 t) (k1_pay1 (F := F)) := by
  obtain ⟨n, hn⟩ := t
  cases n with
  | zero => rfl
  | succ n =>
    have h' : (n + 1) % 586 = 0 := h
    have h2 : ¬ (n + 1) % 586 = 585 := by omega
    show (if (n + 1) % 586 = 585 then k1_pay3 (k1_pay2 (grid1.coords ⟨n + 1, hn⟩) (iblk1 V c 1 ⟨n + 1, hn⟩) (iblk1 V c 0 ⟨n + 1, hn⟩)
            (if (n + 1) % 586 = 0 then (k1_pay1 (F := F)) else outAt1 V c n (Nat.lt_of_succ_lt hn))) (iblk1 V c 2 ⟨n + 1, hn⟩)
          else k1_pay2 (grid1.coords ⟨n + 1, hn⟩) (iblk1 V c 1 ⟨n + 1, hn⟩) (iblk1 V c 0 ⟨n + 1, hn⟩)
            (if (n + 1) % 586 = 0 then (k1_pay1 (F := F)) else outAt1 V c n (Nat.lt_of_succ_lt hn))) = _
    rw [if_neg h2, if_pos h']

/-- At a middle edge tile it continues from what the point before left. -/
theorem outAt1_mid (c : Dev nD) (t : Fin cfg1.N) (h0 : ¬ t.val % 586 = 0) (h1 : ¬ t.val % 586 = 585) :
    outAt1 V c t.val t.isLt = k1_pay2 (grid1.coords t) (iblk1 V c 1 t) (iblk1 V c 0 t)
      (outAt1 V c (t.val - 1) (Nat.lt_of_le_of_lt (Nat.sub_le _ _) t.isLt)) := by
  obtain ⟨n, hn⟩ := t
  cases n with
  | zero => exact absurd (Nat.zero_mod _) h0
  | succ n =>
    have h0' : ¬ (n + 1) % 586 = 0 := h0
    have h1' : ¬ (n + 1) % 586 = 585 := h1
    show (if (n + 1) % 586 = 585 then k1_pay3 (k1_pay2 (grid1.coords ⟨n + 1, hn⟩) (iblk1 V c 1 ⟨n + 1, hn⟩) (iblk1 V c 0 ⟨n + 1, hn⟩)
            (if (n + 1) % 586 = 0 then (k1_pay1 (F := F)) else outAt1 V c n (Nat.lt_of_succ_lt hn))) (iblk1 V c 2 ⟨n + 1, hn⟩)
          else k1_pay2 (grid1.coords ⟨n + 1, hn⟩) (iblk1 V c 1 ⟨n + 1, hn⟩) (iblk1 V c 0 ⟨n + 1, hn⟩)
            (if (n + 1) % 586 = 0 then (k1_pay1 (F := F)) else outAt1 V c n (Nat.lt_of_succ_lt hn))) = _
    rw [if_neg h1', if_neg h0']; rfl

/-- At the last edge tile the continued sum is scaled by the degree column. -/
theorem outAt1_last (c : Dev nD) (t : Fin cfg1.N) (h1 : t.val % 586 = 585) :
    outAt1 V c t.val t.isLt = k1_pay3 (k1_pay2 (grid1.coords t) (iblk1 V c 1 t) (iblk1 V c 0 t)
      (outAt1 V c (t.val - 1) (Nat.lt_of_le_of_lt (Nat.sub_le _ _) t.isLt))) (iblk1 V c 2 t) := by
  obtain ⟨n, hn⟩ := t
  cases n with
  | zero => exact absurd ((Nat.zero_mod 586).symm.trans h1) (by decide)
  | succ n =>
    have h1' : (n + 1) % 586 = 585 := h1
    have h0' : ¬ (n + 1) % 586 = 0 := by omega
    show (if (n + 1) % 586 = 585 then k1_pay3 (k1_pay2 (grid1.coords ⟨n + 1, hn⟩) (iblk1 V c 1 ⟨n + 1, hn⟩) (iblk1 V c 0 ⟨n + 1, hn⟩)
            (if (n + 1) % 586 = 0 then (k1_pay1 (F := F)) else outAt1 V c n (Nat.lt_of_succ_lt hn))) (iblk1 V c 2 ⟨n + 1, hn⟩)
          else k1_pay2 (grid1.coords ⟨n + 1, hn⟩) (iblk1 V c 1 ⟨n + 1, hn⟩) (iblk1 V c 0 ⟨n + 1, hn⟩)
            (if (n + 1) % 586 = 0 then (k1_pay1 (F := F)) else outAt1 V c n (Nat.lt_of_succ_lt hn))) = _
    rw [if_pos h1', if_neg h0']; rfl

/-! ## The proof data -/

/-- The arrays as the region finds them; after the body each input's buffer at its block, the output's at `outAt1`;
    the class's invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t.val t.isLt := by dsimp only [dat1]

end Cert.KernelIdeal.Scatter

end
-- ==== Proof.ScatterRunI.lean ====
/-
  The scatter body run whole on its memrefs, once per case of its two branches (first edge tile; a middle one; the last).
-/
import proofs.«429303_j7997229105212_1_alg».proof.Proof.ScatterCasesI
import Idealize.ShloMosaic.Lib.Pipeline.Value

set_option maxRecDepth 16384

noncomputable section

namespace Cert.KernelIdeal.Scatter

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The accesses' offset -/

/-- Every load and store of the body is through the whole block: its offset is zero on both axes. -/
theorem hz1 : (![0, 0] : Fin 2 → ℕ) = fun _ => 0 := funext fun a => by fin_cases a <;> rfl

/-! ## The body on whole memrefs, case by case

The messages', the edge endpoints' and the degree column's memrefs hold `msg`, `dst`, `deg` and are handed back as
they were. The output block's memref is left holding the running sum, stated over the body's own arithmetic. -/

set_option maxHeartbeats 1000000 in
/-- At the first edge tile (which is not the last): whatever the output block held, it is zeroed and this tile's
    contraction added to the zeros. -/
theorem run1_first (c : Dev nD) (E : Set ℕ) (i : grid1.Coords)
    (arg2 : Memref sig .tc .vmem S2048x64 .bf16) (harg2 : arg2.IsWhole) (arg3 : Memref sig .tc .vmem S1x2048 .i32) (harg3 : arg3.IsWhole)
    (arg4 : Memref sig .tc .vmem S2048x1 .f32) (harg4 : arg4.IsWhole) (arg5 : Memref sig .tc .vmem S2048x64 .f32) (harg5 : arg5.IsWhole)
    (hf : first1 i) (hl : ¬ last1 i)
    (msg : Vec F S2048x64 .bf16) (dst : Vec F S1x2048 .i32) (deg : Vec F S2048x1 .f32) (K : PUnit → sProp 𝕄) :
    iprop(owns (c : Thread nD τ) arg2 fullShare msg ∗ owns (c : Thread nD τ) arg3 fullShare dst ∗ owns (c : Thread nD τ) arg4 fullShare deg
        ∗ (∃ d, owns (c : Thread nD τ) arg5 fullShare d)
        ∗ (iprop(owns (c : Thread nD τ) arg2 fullShare msg ∗ owns (c : Thread nD τ) arg3 fullShare dst ∗ owns (c : Thread nD τ) arg4 fullShare deg
            ∗ owns (c : Thread nD τ) arg5 fullShare (k1_pay2 i dst msg (k1_pay1 (F := F)))) -∗ K ⟨⟩))
      ⊢ wp frame (wpE (defs₀ (F := F)) Variants.none c none) E (cc1__scatter_kernel_body i arg2 harg2 arg3 harg3 arg4 harg4 arg5 harg5) K := by
  simp only [cc1__scatter_kernel_body_eq_skeleton]; unfold cc1__scatter_kernel_body_skel
  unfold owns
  iintro ⟨⟨%f2, %hf2, H2⟩, ⟨%f3, %hf3, H3⟩, ⟨%f4, %hf4, H4⟩, ⟨%d5, %f5, -, H5⟩, Hk⟩
  obtain rfl := harg2.eq_unread hf2; obtain rfl := harg3.eq_unread hf3; obtain rfl := harg4.eq_unread hf4
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _; isplitr
  swap; · iexact H5
  ipureintro
  sl_unfold_words
  refine (View.read_writes_eq_canon _ _ _ fun y => ⟨_, List.mem_cons_self, ?_⟩).trans ?_
  · exact View.mem_set_unit_zero (S := S2048x64) hz1 inb_S2048x64_S2048x64_0_0 y
  rw [View.canon_cons_unit_zero (S := S2048x64) hz1, View.readCov_unit_zero (S := S2048x64) _ hz1]
  simp only [View.readAt_eq_ld, harg2.read_unread, harg3.read_unread, View.ld_unit_zero (S := S2048x64) hz1,
    View.ld_unit_zero (S := S1x2048) hz1]

set_option maxHeartbeats 1000000 in
/-- At a middle edge tile: this tile's contraction is added to what the output block held. -/
theorem run1_mid (c : Dev nD) (E : Set ℕ) (i : grid1.Coords)
    (arg2 : Memref sig .tc .vmem S2048x64 .bf16) (harg2 : arg2.IsWhole) (arg3 : Memref sig .tc .vmem S1x2048 .i32) (harg3 : arg3.IsWhole)
    (arg4 : Memref sig .tc .vmem S2048x1 .f32) (harg4 : arg4.IsWhole) (arg5 : Memref sig .tc .vmem S2048x64 .f32) (harg5 : arg5.IsWhole)
    (hf : ¬ first1 i) (hl : ¬ last1 i)
    (msg : Vec F S2048x64 .bf16) (dst : Vec F S1x2048 .i32) (deg : Vec F S2048x1 .f32) (prev : Vec F S2048x64 .f32)
    (K : PUnit → sProp 𝕄) :
    iprop(owns (c : Thread nD τ) arg2 fullShare msg ∗ owns (c : Thread nD τ) arg3 fullShare dst ∗ owns (c : Thread nD τ) arg4 fullShare deg
        ∗ owns (c : Thread nD τ) arg5 fullShare prev
        ∗ (iprop(owns (c : Thread nD τ) arg2 fullShare msg ∗ owns (c : Thread nD τ) arg3 fullShare dst ∗ owns (c : Thread nD τ) arg4 fullShare deg
            ∗ owns (c : Thread nD τ) arg5 fullShare (k1_pay2 i dst msg prev)) -∗ K ⟨⟩))
      ⊢ wp frame (wpE (defs₀ (F := F)) Variants.none c none) E (cc1__scatter_kernel_body i arg2 harg2 arg3 harg3 arg4 harg4 arg5 harg5) K := by
  simp only [cc1__scatter_kernel_body_eq_skeleton]; unfold cc1__scatter_kernel_body_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4
  obtain rfl := harg5.eq_unread hf5
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _; isplitr
  swap; · iexact H5
  ipureintro
  sl_unfold_words
  refine (View.read_writes_eq_canon _ _ _ fun y => ⟨_, List.mem_cons_self, ?_⟩).trans ?_
  · exact View.mem_set_unit_zero (S := S2048x64) hz1 inb_S2048x64_S2048x64_0_0 y
  rw [View.canon_unit_zero (S := S2048x64) hz1]
  simp only [View.readAt_eq_ld, harg2.read_unread, harg3.read_unread, harg5.read_unread,
    View.ld_unit_zero (S := S2048x64) hz1, View.ld_unit_zero (S := S1x2048) hz1]

set_option maxHeartbeats 1000000 in
/-- At the last edge tile (which is not the first): this tile's contraction is added to what the output block held,
    and the sum is scaled row by row by the degree column. -/
theorem run1_last (c : Dev nD) (E : Set ℕ) (i : grid1.Coords)
    (arg2 : Memref sig .tc .vmem S2048x64 .bf16) (harg2 : arg2.IsWhole) (arg3 : Memref sig .tc .vmem S1x2048 .i32) (harg3 : arg3.IsWhole)
    (arg4 : Memref sig .tc .vmem S2048x1 .f32) (harg4 : arg4.IsWhole) (arg5 : Memref sig .tc .vmem S2048x64 .f32) (harg5 : arg5.IsWhole)
    (hf : ¬ first1 i) (hl : last1 i)
    (msg : Vec F S2048x64 .bf16) (dst : Vec F S1x2048 .i32) (deg : Vec F S2048x1 .f32) (prev : Vec F S2048x64 .f32)
    (K : PUnit → sProp 𝕄) :
    iprop(owns (c : Thread nD τ) arg2 fullShare msg ∗ owns (c : Thread nD τ) arg3 fullShare dst ∗ owns (c : Thread nD τ) arg4 fullShare deg
        ∗ owns (c : Thread nD τ) arg5 fullShare prev
        ∗ (iprop(owns (c : Thread nD τ) arg2 fullShare msg ∗ owns (c : Thread nD τ) arg3 fullShare dst ∗ owns (c : Thread nD τ) arg4 fullShare deg
            ∗ owns (c : Thread nD τ) arg5 fullShare (k1_pay3 (k1_pay2 i dst msg prev) deg)) -∗ K ⟨⟩))
      ⊢ wp frame (wpE (defs₀ (F := F)) Variants.none c none) E (cc1__scatter_kernel_body i arg2 harg2 arg3 harg3 arg4 harg4 arg5 harg5) K := by
  simp only [cc1__scatter_kernel_body_eq_skeleton]; unfold cc1__scatter_kernel_body_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4
  obtain rfl := harg5.eq_unread hf5
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _; isplitr
  swap; · iexact H5
  ipureintro
  sl_unfold_words
  refine (View.read_writes_eq_canon _ _ _ fun y => ⟨_, List.mem_cons_self, ?_⟩).trans ?_
  · exact View.mem_set_unit_zero (S := S2048x64) hz1 inb_S2048x64_S2048x64_0_0 y
  rw [View.canon_cons_unit_zero (S := S2048x64) hz1, View.readCov_unit_zero (S := S2048x64) _ hz1]
  simp only [View.readAt_eq_ld, harg2.read_unread, harg3.read_unread, harg4.read_unread, harg5.read_unread,
    View.ld_unit_zero (S := S2048x64) hz1, View.ld_unit_zero (S := S1x2048) hz1, View.ld_unit_zero (S := S2048x1) hz1]

end Cert.KernelIdeal.Scatter

end
-- ==== Proof.ScatterBodyI.lean ====
/-
  The scatter region's body obligation. At every grid point the body, called on the windows' current buffers, takes
  the inputs' buffers at their blocks and the output's buffer at the running sum so far (anything at a first edge tile)
  to the same inputs and the output's buffer at the running sum through this tile, scaled by the degree column after
  the last. The point's edge tile `t % 586` decides which of the three cases of the body's two branches applies.
-/
import proofs.«429303_j7997229105212_1_alg».proof.Proof.ScatterDataI
import proofs.«429303_j7997229105212_1_alg».proof.Proof.ScatterRunI

set_option maxRecDepth 16384

noncomputable section

namespace Cert.KernelIdeal.Scatter

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the windows' buffers hold when the body is entered -/

/-- Each input's current buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- Past a first edge tile the output's buffer holds what the body left at the point before: the point is not the first
    of the grid, and the block was not written back in between (that happens after a last tile only, and the point
    before a tile that is not the first is not a last one). -/
theorem before1_3_kept (c : Dev nD) (t : Fin cfg1.N) (h0 : ¬ t.val % 586 = 0) (d) :
    (dat1 V c).before 3 t d = outAt1 V c (t.val - 1) (Nat.lt_of_le_of_lt (Nat.sub_le _ _) t.isLt) := by
  rw [Dat.before_out_kept _ 3 rfl t (by omega)
    (Bool.eq_false_iff.mpr fun h => by have := (flush1_3 _).mp h; dsimp only at this; omega)
    (fun _ => rfl) (fun _ _ => rfl)]
  dsimp only [dat1]

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 800000 in
/-- The body at any point. The inputs' buffers hold their blocks; the edge tile `t % 586` says which case the point is
    in: at tile 0 the output's buffer is overwritten whatever it held, past it the buffer holds what the point before
    left, and at tile 585 the sum is scaled as well. The invariant passes through unread; nothing is owed throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  by_cases h0 : t.val % 586 = 0
  · have h1 : ¬ t.val % 586 = 585 := by omega
    rw [outAt1_first V c t h0]
    iintro ⟨HΦ, Ho, ⟨%d0, H0⟩, ⟨%d1, H1⟩, ⟨%d2, H2⟩, ⟨%d3, H3⟩⟩
    iapply (run1_first c Set.univ (grid1.coords t) (ms1_0 t) (hs1_0 t) (ms1_1 t) (hs1_1 t) (ms1_2 t) (hs1_2 t) (ms1_3 t) (hs1_3 t)
      ((hfirst1 t).mpr h0) (fun h => h1 ((hlast1 t).mp h)) (iblk1 V c 0 t) (iblk1 V c 1 t) (iblk1 V c 2 t) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · by_cases h1 : t.val % 586 = 585
    · rw [outAt1_last V c t h1]
      simp only [before1_3_kept V c t h0]
      iintro ⟨HΦ, Ho, ⟨%d0, H0⟩, ⟨%d1, H1⟩, ⟨%d2, H2⟩, ⟨%d3, H3⟩⟩
      iapply (run1_last c Set.univ (grid1.coords t) (ms1_0 t) (hs1_0 t) (ms1_1 t) (hs1_1 t) (ms1_2 t) (hs1_2 t) (ms1_3 t) (hs1_3 t)
        (fun h => h0 ((hfirst1 t).mp h)) ((hlast1 t).mpr h1) (iblk1 V c 0 t) (iblk1 V c 1 t) (iblk1 V c 2 t)
        (outAt1 V c (t.val - 1) (Nat.lt_of_le_of_lt (Nat.sub_le _ _) t.isLt)) _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
    · rw [outAt1_mid V c t h0 h1]
      simp only [before1_3_kept V c t h0]
      iintro ⟨HΦ, Ho, ⟨%d0, H0⟩, ⟨%d1, H1⟩, ⟨%d2, H2⟩, ⟨%d3, H3⟩⟩
      iapply (run1_mid c Set.univ (grid1.coords t) (ms1_0 t) (hs1_0 t) (ms1_1 t) (hs1_1 t) (ms1_2 t) (hs1_2 t) (ms1_3 t) (hs1_3 t)
        (fun h => h0 ((hfirst1 t).mp h)) (fun h => h1 ((hlast1 t).mp h)) (iblk1 V c 0 t) (iblk1 V c 1 t) (iblk1 V c 2 t)
        (outAt1 V c (t.val - 1) (Nat.lt_of_le_of_lt (Nat.sub_le _ _) t.isLt)) _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3

/-- The body at every point, from the class's invariant and the windows' buffers at what they then hold (the output's at
    what the point before left, past a first tile), to the invariant and the buffers at `after`. -/
theorem body_obligation1 (c : Dev nD) : BodyObligation (dat1 (F := F) V c) (defs₀ (F := F)) Variants.none () Set.univ := fun t => by
  rw [bigSep_W1, bigSep_W1]
  exact sound_body1 V c t

end Cert.KernelIdeal.Scatter

end
-- ==== Proof.LaunchI.lean ====
/-
  The launch. @main is fifteen host stretches, the gather region, the scatter region and a last host stretch (the slice
  back to the true node count). Between two items the TensorCore holds every unscoped buffer whole at a valuation: the
  launch memory folded through the host stretches up to the gather region; from there the same with the messages' array
  at what the gather region's write-backs leave; from the scatter region on the same again with the result's padded
  array at what the scatter region's write-backs leave. Beside the buffers ride the generator register at some state and
  the core owing nothing. Stated here: those contents by name, each region's proof data at its entry contents, each
  region as a segment between two such thread states, what the launch deals, and the frame claim of the whole program.
-/
import proofs.«429303_j7997229105212_1_alg».proof.Proof.GatherBodyI
import proofs.«429303_j7997229105212_1_alg».proof.Proof.ScatterBodyI
import proofs.«429303_j7997229105212_1_alg».proof.Proof.Gen.KernelIdeal.Regions
import Idealize.ShloMosaic.Lib.Pipeline.FrameBody
import Idealize.ShloMosaic.Lib.Pipeline.RegionsLoop
import Idealize.ShloMosaic.Lib.Tactic

set_option maxRecDepth 16384

noncomputable section

namespace Cert.KernelIdeal.Launch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at the two regions' entries and exits -/

/-- What the gather region finds: the launch memory folded through the fifteen host stretches before it. -/
def Vin0 : (c : Dev nD) → (b : Ref sig .tc) → Buf (Elt F) ((c : Thread nD τ).loc b) := fun c b => Gen.V15 m c b

/-- What the gather region leaves in the messages' array: its write-backs folded over all the points. -/
def msgArr (c : Dev nD) : Buf (Elt F) ((c : Thread nD τ).loc main_v22) := (Gather.dat0 (Vin0 m) c).arrAt 3 cfg0.N

/-- What the scatter region finds: the gather region's entry contents with the messages' array as that region left it. -/
def Vin1 : (c : Dev nD) → (b : Ref sig .tc) → Buf (Elt F) ((c : Thread nD τ).loc b) :=
  fun c b => (Function.update (Gen.V15 m c) main_v22 (msgArr m c)) b

/-- What the scatter region leaves in the result's padded array. -/
def rstArr (c : Dev nD) : Buf (Elt F) ((c : Thread nD τ).loc main_v23) := (Scatter.dat1 (Vin1 m) c).arrAt 3 cfg1.N

/-- The scatter region finds the messages' array as the gather region left it, -/
theorem Vin1_msg (c : Dev nD) : Vin1 m c main_v22 = msgArr m c := by
  unfold Vin1; exact Function.update_self ..
/-- and every other buffer as the gather region found it. -/
theorem Vin1_of_ne (c : Dev nD) (b : Ref sig .tc) (h : b ≠ main_v22) : Vin1 m c b = Vin0 m c b := by
  unfold Vin1 Vin0; exact Function.update_of_ne (StableHlo.devRef_ne_of_ne h) ..

/-- The contents the two regions leave, as the family the program's valuations between items are written over: after
    the gather region the messages' array is new, after the scatter region the result's padded array as well. -/
def outs : Gen.Outs (F := F) := fun n r c =>
  if n = 16 then (Function.update (Gen.V15 m c) main_v22 (msgArr m c)) (Proc.devRef .tc r)
  else (Function.update (Function.update (Gen.V15 m c) main_v22 (msgArr m c)) main_v23 (rstArr m c)) (Proc.devRef .tc r)

theorem outs_msg (c : Dev nD) : outs m 16 main_v22 c = msgArr m c := by
  unfold outs; rw [if_pos rfl]; exact Function.update_self ..
theorem outs_rst (c : Dev nD) : outs m 17 main_v23 c = rstArr m c := by
  unfold outs; rw [if_neg (by decide)]; exact Function.update_self ..

/-- Between the two regions the program's valuation is the scatter region's entry contents. -/
theorem V16_eq (c : Dev nD) : Gen.V16 m (outs m) c = Function.update (Gen.V15 m c) main_v22 (msgArr m c) := by
  show Function.update (Gen.V15 m c) main_v22 (outs m 16 main_v22 c) = _
  rw [outs_msg]
theorem V16_Vin1 (c : Dev nD) (b : Ref sig .tc) : Gen.V16 m (outs m) c b = Vin1 m c b := by
  rw [V16_eq]; rfl
theorem V16_msg (c : Dev nD) : Gen.V16 m (outs m) c main_v22 = msgArr m c := by
  rw [V16_Vin1, Vin1_msg]
/-- After the scatter region the result's padded array holds what that region left. -/
theorem V17_rst (c : Dev nD) : Gen.V17 m (outs m) c main_v23 = rstArr m c := by
  show Function.update (Gen.V16 m (outs m) c) main_v23 (outs m 17 main_v23 c) main_v23 = _
  rw [Function.update_self, outs_rst]

/-! ## The regions' arrays against those contents -/

/-- At the gather region's exit each of its arrays holds what the pipeline leaves: an input as entered (never written,
    and no region output), the messages' array its folded write-backs. -/
theorem hF0 (c : Dev nD) : ∀ w : Fin 4, (Gather.dat0 (Vin0 m) c).arrAt w cfg0.N = Gen.V16 m (outs m) c (Pipeline.arrRef spec0 w)
  | 0 => ((Gather.dat0 (Vin0 m) c).arrAt_in 0 rfl _).trans ((Gather.A_eq0 (Vin0 m) c 0).trans (Gen.V16_of m (outs m) c main_v13 (by decide)).symm)
  | 1 => ((Gather.dat0 (Vin0 m) c).arrAt_in 1 rfl _).trans ((Gather.A_eq0 (Vin0 m) c 1).trans (Gen.V16_of m (outs m) c main_v15 (by decide)).symm)
  | 2 => ((Gather.dat0 (Vin0 m) c).arrAt_in 2 rfl _).trans ((Gather.A_eq0 (Vin0 m) c 2).trans (Gen.V16_of m (outs m) c main_v19 (by decide)).symm)
  | 3 => (V16_msg m c).symm
  | ⟨_ + 4, h⟩ => absurd h (Nat.not_lt.2 (Nat.le_add_left _ _))
/-- Every buffer that is none of its arrays is as entered. -/
theorem hrest0 (c : Dev nD) : ∀ b, b ∉ Finset.univ.image (Pipeline.arrRef spec0) → Gen.V16 m (outs m) c b = Vin0 m c b :=
  fun b hb => Gen.V16_of m (outs m) c b fun hm =>
    hb (Finset.mem_image.mpr ⟨3, Finset.mem_univ _, (List.mem_singleton.mp hm).symm⟩)

/-- At the scatter region's exit: an input as entered, the result's padded array its folded write-backs. -/
theorem hF1 (c : Dev nD) : ∀ w : Fin 4, (Scatter.dat1 (Vin1 m) c).arrAt w cfg1.N = Gen.V17 m (outs m) c (Pipeline.arrRef spec1 w)
  | 0 => ((Scatter.dat1 (Vin1 m) c).arrAt_in 0 rfl _).trans ((Scatter.A_eq1 (Vin1 m) c 0).trans
      ((Gen.V17_of m (outs m) c main_v22 (by decide)).trans (V16_Vin1 m c main_v22)).symm)
  | 1 => ((Scatter.dat1 (Vin1 m) c).arrAt_in 1 rfl _).trans ((Scatter.A_eq1 (Vin1 m) c 1).trans
      ((Gen.V17_of m (outs m) c main_v21 (by decide)).trans (V16_Vin1 m c main_v21)).symm)
  | 2 => ((Scatter.dat1 (Vin1 m) c).arrAt_in 2 rfl _).trans ((Scatter.A_eq1 (Vin1 m) c 2).trans
      ((Gen.V17_of m (outs m) c main_v17 (by decide)).trans (V16_Vin1 m c main_v17)).symm)
  | 3 => (V17_rst m c).symm
  | ⟨_ + 4, h⟩ => absurd h (Nat.not_lt.2 (Nat.le_add_left _ _))
theorem hrest1 (c : Dev nD) : ∀ b, b ∉ Finset.univ.image (Pipeline.arrRef spec1) → Gen.V17 m (outs m) c b = Vin1 m c b :=
  fun b hb => (Gen.V17_of m (outs m) c b fun hm =>
    hb (Finset.mem_image.mpr ⟨3, Finset.mem_univ _, (List.mem_singleton.mp hm).symm⟩)).trans (V16_Vin1 m c b)

/-- The thread state's buffers, read as the launch's "every unscoped buffer at these contents". -/
theorem held_V15 (c : Dev nD) : (StableHlo.held (c : Thread nD τ) (Pipeline.ucRefs τ sig) (Gen.V15 m c) : sProp 𝕄)
    = unscopedBufs (Ix := Unit) (Name := ℕ) (U := UR sig nD τ) (Lvl := ℕ) c (Vin0 m c) :=
  (Pipeline.unscopedBufs_held c (Gen.V15 m c)).symm
theorem held_V16 (c : Dev nD) : (StableHlo.held (c : Thread nD τ) (Pipeline.ucRefs τ sig) (Gen.V16 m (outs m) c) : sProp 𝕄)
    = unscopedBufs (Ix := Unit) (Name := ℕ) (U := UR sig nD τ) (Lvl := ℕ) c (fun b => Gen.V16 m (outs m) c b) :=
  (Pipeline.unscopedBufs_held c (Gen.V16 m (outs m) c)).symm
theorem held_V16' (c : Dev nD) : (StableHlo.held (c : Thread nD τ) (Pipeline.ucRefs τ sig) (Gen.V16 m (outs m) c) : sProp 𝕄)
    = unscopedBufs (Ix := Unit) (Name := ℕ) (U := UR sig nD τ) (Lvl := ℕ) c (Vin1 m c) := by
  rw [held_V16, show (fun b : Ref sig .tc => Gen.V16 m (outs m) c b) = Vin1 m c from funext fun b => V16_Vin1 m c b]
theorem held_V17 (c : Dev nD) : (StableHlo.held (c : Thread nD τ) (Pipeline.ucRefs τ sig) (Gen.V17 m (outs m) c) : sProp 𝕄)
    = unscopedBufs (Ix := Unit) (Name := ℕ) (U := UR sig nD τ) (Lvl := ℕ) c (fun b => Gen.V17 m (outs m) c b) :=
  (Pipeline.unscopedBufs_held c (Gen.V17 m (outs m) c)).symm

/-! ## The proof data family and what rides beside the buffers -/

/-- Each pipeline's proof data at its region's entry contents. -/
def pdats : (p : Fin 2) → (c : Dev nD) → Dat τ (Elt F) Unit ℕ (UR sig nD τ) ℕ (cfgs p) c
  | ⟨0, _⟩ => fun c => Gather.dat0 (Vin0 m) c
  | ⟨1, _⟩ => fun c => Scatter.dat1 (Vin1 m) c

/-- No core owes another anything: no level is assigned. -/
abbrev L : GSem nD τ sig → Finset Unit := fun _ => ∅
abbrev lv : GSem nD τ sig → Unit → ℕ := fun _ _ => 0

/-- Beside the buffers, through every item: the core's generator register at some state (a region's invariant takes it in
    and gives it back) and the core owing nothing. -/
abbrev R (c : Dev nD) : sProp 𝕄 := iprop((∃ r, prngReg c r) ∗ ∃ W, owes (c : Thread nD τ) (0 : CellTallies nD τ sig Unit) W)

/-! ## The regions as segments -/

-- a library lemma stated over the pinned configuration unifies with the printed one only when unification may unfold plain
-- definitions in a metavariable's type
set_option backward.isDefEq.respectTransparency.types false in
/-- The gather region between "every unscoped buffer at the entry contents" and "the same with the messages' array at
    what the region leaves". Its arrays are split out of the unscoped buffers and put back at the exit contents; the
    generator register and the scoped buffers no window stages make the class's invariant, which is the region's own before
    its first point and which its own gives back after the last; nothing is owed; the kernel has no semaphore of its own. -/
def reg0 : Pipeline.RegionSeg (pcfgs (F := F)) Gen.adm (pdats m) () defs₀ Variants.none L lv 0 where
  win := launch0.win.to₀
  block_pos := launch0.block_pos
  stage_whole := launch0.stage_whole
  K := PEmpty
  osem k := k.elim
  ho := Pipeline.OwnSemFacts.none _
  hbody c := (Gather.body_obligation0 (Vin0 m) c).loose
  hwaits := Pipeline.hwaits_of_owed_zero _ _ _ _ L lv 0 fun _ _ => rfl
  pre c := iprop(StableHlo.held (c : Thread nD τ) (Pipeline.ucRefs τ sig) (Gen.V15 m c) ∗ R c)
  post c := iprop(StableHlo.held (c : Thread nD τ) (Pipeline.ucRefs τ sig) (Gen.V16 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none, held_V15]
    have hsplit := Pipeline.arrays_of_unscopedBufs (p := 0) (pcfgs (F := F)) Gen.adm (pdats m) launch0.win launch0.arr_whole c
      ((pdats m 0 c).share_full fun _ => rfl) (Vin0 m c) fun w => Gather.A_eq0 (Vin0 m) c w
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Gather.hin0 (Vin0 m) c)
    unfold Pipeline.ΦA
    iintro ⟨Hp, -, Hr⟩
    isplitl [Hr]; · iexact Hr
    iexact Hp
  hout c := by
    rw [Pipeline.ownSems0_none]
    refine BIBase.Entails.trans (Gather.hout0 (Vin0 m) c) ?_
    unfold Pipeline.ΦA
    iintro ⟨Hr, Hp⟩
    isplitl [Hp]; · iexact Hp
    isplitr; · iempintro
    iexact Hr
  hexit c := by
    rw [held_V16]
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Vin0 m c) (fun b => Gen.V16 m (outs m) c b) ((pdats m 0 c).arrAt · cfg0.N) (hF0 m c) (hrest0 m c)
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The scatter region between "every unscoped buffer at its entry contents" and "the same with the result's padded
    array at what the region leaves". Its invariant is the class's at every point. -/
def reg1 : Pipeline.RegionSeg (pcfgs (F := F)) Gen.adm (pdats m) () defs₀ Variants.none L lv 1 where
  win := launch1.win.to₀
  block_pos := launch1.block_pos
  stage_whole := launch1.stage_whole
  K := PEmpty
  osem k := k.elim
  ho := Pipeline.OwnSemFacts.none _
  hbody c := (Scatter.body_obligation1 (Vin1 m) c).loose
  hwaits := Pipeline.hwaits_of_owed_zero _ _ _ _ L lv 1 fun _ _ => rfl
  pre c := iprop(StableHlo.held (c : Thread nD τ) (Pipeline.ucRefs τ sig) (Gen.V16 m (outs m) c) ∗ R c)
  post c := iprop(StableHlo.held (c : Thread nD τ) (Pipeline.ucRefs τ sig) (Gen.V17 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none, held_V16']
    have hsplit := Pipeline.arrays_of_unscopedBufs (p := 1) (pcfgs (F := F)) Gen.adm (pdats m) launch1.win launch1.arr_whole c
      ((pdats m 1 c).share_full fun _ => rfl) (Vin1 m c) fun w => Scatter.A_eq1 (Vin1 m) c w
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    rw [held_V17]
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (Vin1 m c) (fun b => Gen.V17 m (outs m) c b) ((pdats m 1 c).arrAt · cfg1.N) (hF1 m c) (hrest1 m c)
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## What the launch deals -/

/-- The launch's element of the user algebra is the pipelines' own: their cells and launch tokens, nothing else. -/
abbrev u₀ : UR sig nD τ := initOf (Pipeline.cells cfgs cellOf_inj) (Pipeline.launchToks cfgs cellOf_inj)

theorem hu₀ : (ownU (u₀ : UR sig nD τ) : sProp 𝕄)
    ⊢ |={Set.univ}=> iprop(BI.own ((emb₁ : Emb (UR sig nD τ) 𝕄) (initOf (Pipeline.cells cfgs cellOf_inj) (Pipeline.launchToks cfgs cellOf_inj)))
        ∗ bigSep Finset.univ fun _ : Dev nD => (BI.emp : sProp 𝕄)) := by
  iintro Hu; imodintro
  isplitl [Hu]
  · iapply (show (ownU (u₀ : UR sig nD τ) : sProp 𝕄)
        ⊢ BI.own ((emb₁ : Emb (UR sig nD τ) 𝕄) (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- Every core makes what rides beside its buffers from what the launch deals it: its generator register, and its dues,
    which are none. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

theorem hE2 (c : Dev nD) : (R (F := F) c) ⊢ (iprop(∃ W, owes (c : Thread nD τ) (0 : CellTallies nD τ sig Unit) W) : sProp 𝕄) := by
  iintro ⟨-, HO⟩; iexact HO

/-! ## The frame -/

/-- At the compiled mesh, from any memory with zero counters, every weakly fair execution of @main on the TensorCores
    terminates, nothing faulting, and every final memory holds each argument array as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Gen.frame_cond m (emb₁ : Emb (UR sig nD τ) 𝕄) () Variants.none L lv (fun _ _ => rfl) ρ (outs m) (pdats m)
    (0 : Dev nD → CellTallies nD τ sig Unit) (fun _ => (BI.emp : sProp 𝕄)) u₀ hu₀
    (fun _ c => R c) (hE0 ρ) hE2
    (reg0 m) (fun _ => .rfl) (fun _ => .rfl) (reg1 m) (fun _ => .rfl) (fun _ => .rfl)

end Cert.KernelIdeal.Launch

end
-- ==== Proof.RunMainI.lean ====
/-
  The run with the result named. The program's last item is one slice: the result array is the first 100000 rows of the
  padded array the scatter region leaves. So every final memory holds, at the result's buffer, that slice of what the
  scatter region's write-backs fold to — beside each argument as launched.
-/
import proofs.«429303_j7997229105212_1_alg».proof.Proof.LaunchI
import proofs.«429303_j7997229105212_1_alg».proof.Proof.RunResultI
import Idealize.ShloMosaic.Lib.StableHlo.Run

set_option maxRecDepth 16384

noncomputable section

namespace Cert.KernelIdeal.Launch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The last host stretch is one slice: from any contents, the result's buffer ends holding the leading 100000 rows of the
    padded array's. -/
theorem after_hostOps2 (W : Valuation τ sig (Elt F)) :
    StableHlo.after hostOps2 W (Proc.devRef .tc main_v24)
      = extractStridedSlice (s := S100352x64) S100000x64 ![0, 0] (W (Proc.devRef .tc main_v23)) slices_S100352x64_S100000x64_0_0 := by
  after_results

/-- The last valuation at the result's buffer: the slice of what the scatter region leaves. -/
theorem V18_res (c : Dev nD) : Gen.V18 m (outs m) c main_v24
    = extractStridedSlice (s := S100352x64) S100000x64 ![0, 0] (rstArr m c) slices_S100352x64_S100000x64_0_0 := by
  show StableHlo.after hostOps2 (Gen.V17 m (outs m) c) (Proc.devRef .tc main_v24) = _
  rw [after_hostOps2, V17_rst]

/-- Every weakly fair execution of @main terminates, nothing faulting; every final memory holds the result array at the
    leading rows of what the scatter region leaves, and each argument array as launched. -/
theorem run_main (ρ : Dev nD → PrngReg) : θ_run defs (onTc (τ := τ) (main (F := F))) ⟨m, fun _ => 0, ρ⟩ (fun r => ∀ c : Dev nD,
      r.2.mem ((c.tc : Thread nD τ).loc main_v24)
        = extractStridedSlice (s := S100352x64) S100000x64 ![0, 0] (rstArr m c) slices_S100352x64_S100000x64_0_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (V18_res m c), (h c).2⟩)
    (run_cond m (emb₁ : Emb (UR sig nD τ) 𝕄) () Variants.none L lv (fun _ _ => rfl) ρ (outs m) (pdats m)
      (0 : Dev nD → CellTallies nD τ sig Unit) (fun _ => (BI.emp : sProp 𝕄)) u₀ hu₀
      (fun _ c => R c) (hE0 ρ) hE2
      (reg0 m) (fun _ => .rfl) (fun _ => .rfl) (reg1 m) (fun _ => .rfl) (fun _ => .rfl))

end Cert.KernelIdeal.Launch

end
-- ==== Proof.GatherPay.lean ====
/-
  The gather body's arithmetic read at one element, at the ideal values.

  At a point whose node block is `n` the body adds to its accumulator the product of a one-hot matrix with the
  degree-scaled node rows of the block: entry (k, r) of the matrix is 1 when the 32-bit word `k + 2048 n` is the source
  index of the tile's edge `r`, and 0 otherwise. A source index names at most one row of the block, so the
  contraction over `k` keeps one product or none: at edge `r` and column `d` it is the scaled row the source index names
  when that index lies in rows `2048 n … 2048 n + 2047`, and zero when it does not. Only `x + 0 = x`, `0 + x = x`,
  `1 · x = x` and `0 · x = 0` are used, which hold of every extended real: nothing here asks an entry to be finite.

  Adding the blocks `0 … n` one after the other therefore leaves, for a source index `s`, the row `s` names when
  `s < 2048 (n + 1)` and zero otherwise (`pick`, `band`, `pick_add_band`).
-/
import proofs.«429303_j7997229105212_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.GatherValue

open Cert.KernelIdeal Cert.KernelIdeal.Gen
open Idealize.ShloMosaic Idealize.ShloMosaic.ValueIdx

/-! ## A row picked by a source index -/

/-- The entry of `f` the index `s` names when `s` is below `bound`, zero when it is not. -/
def pick (f : Fin 100352 → EReal) (bound : ℕ) (hb : bound ≤ 100352) (s : ℕ) : EReal :=
  if h : s < bound then f ⟨s, Nat.lt_of_lt_of_le h hb⟩ else 0

/-- The entry of `f` the index `s` names when `s` lies in node block `n` (rows `2048 n … 2048 n + 2047`), zero when it
    does not. -/
def band (f : Fin 100352 → EReal) (n : ℕ) (hn : n < 49) (s : ℕ) : EReal :=
  if h : n * 2048 ≤ s ∧ s < (n + 1) * 2048 then f ⟨s, by omega⟩ else 0

/-- Below the bound zero no index names a row. -/
theorem pick_of_bound_zero (f : Fin 100352 → EReal) (b : ℕ) (hb : b ≤ 100352) (s : ℕ) (h0 : b = 0) : pick f b hb s = 0 := by
  subst h0
  exact dif_neg (Nat.not_lt_zero s)

/-- The rows below block `n` and then block `n` itself are the rows below block `n + 1`: of the two summands at most one is
    not zero. -/
theorem pick_add_band (f : Fin 100352 → EReal) (n : ℕ) (hn : n < 49) (hb : n * 2048 ≤ 100352) (hb' : (n + 1) * 2048 ≤ 100352)
    (s : ℕ) : pick f (n * 2048) hb s + band f n hn s = pick f ((n + 1) * 2048) hb' s := by
  unfold pick band
  by_cases h1 : s < n * 2048
  · rw [dif_pos h1, dif_neg (show ¬(n * 2048 ≤ s ∧ s < (n + 1) * 2048) by omega), dif_pos (show s < (n + 1) * 2048 by omega),
      add_zero]
  · by_cases h2 : s < (n + 1) * 2048
    · rw [dif_neg h1, dif_pos (show n * 2048 ≤ s ∧ s < (n + 1) * 2048 from ⟨by omega, h2⟩), dif_pos h2, zero_add]
    · rw [dif_neg h1, dif_neg (show ¬(n * 2048 ≤ s ∧ s < (n + 1) * 2048) by omega), dif_neg h2, add_zero]

/-- `pick` at equal arguments. -/
theorem pick_congr {f f' : Fin 100352 → EReal} {b b' : ℕ} {hb : b ≤ 100352} {hb' : b' ≤ 100352} {s s' : ℕ}
    (hf : f = f') (hbb : b = b') (hs : s = s') : pick f b hb s = pick f' b' hb' s' := by
  subst hf hbb hs
  rfl

/-! ## The one-hot comparison -/

/-- Row `k` of node block `n` as the body computes it in 32 bits: nothing wraps, the block's rows being below 100352. -/
theorem row_word_toNat (n : ℕ) (hn : n < 49) (k : ℕ) (hk : k < 2048) :
    (BitVec.ofNat 32 k + BitVec.ofNat 32 n * 2048#32).toNat = k + n * 2048 := by
  have e3 : (2048#32 : BitVec 32).toNat = 2048 := by decide
  have ek : (BitVec.ofNat 32 k).toNat = k := by
    rw [BitVec.toNat_ofNat]
    exact Nat.mod_eq_of_lt (by omega)
  have en : (BitVec.ofNat 32 n).toNat = n := by
    rw [BitVec.toNat_ofNat]
    exact Nat.mod_eq_of_lt (by omega)
  rw [BitVec.toNat_add, BitVec.toNat_mul, ek, en, e3,
    Nat.mod_eq_of_lt (show n * 2048 < 2 ^ 32 by omega), Nat.mod_eq_of_lt (show k + n * 2048 < 2 ^ 32 by omega)]

/-- So the comparison with a source word holds exactly when the word, read unsigned, is that row's number. -/
theorem onehot_iff (n : ℕ) (hn : n < 49) (k : Fin 2048) (s : BitVec 32) :
    BitVec.ofNat 32 k.val + BitVec.ofNat 32 n * 2048#32 = s ↔ k.val + n * 2048 = s.toNat := by
  constructor
  · intro h
    rw [← h, row_word_toNat n hn k.val k.isLt]
  · intro h
    exact BitVec.eq_of_toNat_eq (by rw [row_word_toNat n hn k.val k.isLt, h])

/-- The comparison's bit, widened to 32 bits and converted, is the extended real 1 or 0. -/
theorem onehot_val (x y : BitVec 32) :
    (FloatOps.sitofp (F := Ideal) FTy.f32 ((IntOp.cmpi .eq x y).setWidth 32) : EReal) = if x = y then 1 else 0 := by
  by_cases h : x = y
  · subst h
    rw [if_pos rfl]
    have e : IntOp.cmpi .eq x x = 1#1 := by simp [IntOp.cmpi]
    rw [e]
    have e2 : ((1#1 : BitVec 1).setWidth 32).toInt = 1 := by decide
    show ((((1#1 : BitVec 1).setWidth 32).toInt : ℝ) : EReal) = 1
    rw [e2]
    simp
  · rw [if_neg h]
    have e : IntOp.cmpi .eq x y = 0#1 := by
      show BitVec.ofBool (x == y) = 0#1
      rw [beq_eq_false_iff_ne.mpr h]
      rfl
    rw [e]
    have e2 : ((0#1 : BitVec 1).setWidth 32).toInt = 0 := by decide
    show ((((0#1 : BitVec 1).setWidth 32).toInt : ℝ) : EReal) = 0
    rw [e2]
    simp

/-- The one-hot contraction against the rows of node block `n`: the row the source word names when it lies in the
    block, zero when it does not. -/
theorem onehot_sum (f : Fin 100352 → EReal) (n : ℕ) (hn : n < 49) (s : BitVec 32) :
    (∑ k : Fin 2048, (if BitVec.ofNat 32 k.val + BitVec.ofNat 32 n * 2048#32 = s then (1 : EReal) else 0)
        * f ⟨n * 2048 + k.val, by have := k.isLt; omega⟩) = band f n hn s.toNat := by
  unfold band
  by_cases h : n * 2048 ≤ s.toNat ∧ s.toNat < (n + 1) * 2048
  · rw [dif_pos h]
    have hk : s.toNat - n * 2048 < 2048 := by omega
    rw [Finset.sum_eq_single (⟨s.toNat - n * 2048, hk⟩ : Fin 2048)]
    · rw [if_pos ((onehot_iff n hn ⟨s.toNat - n * 2048, hk⟩ s).mpr (by show s.toNat - n * 2048 + n * 2048 = s.toNat; omega)), one_mul]
      exact congrArg f (Fin.ext (by show n * 2048 + (s.toNat - n * 2048) = s.toNat; omega))
    · intro k _ hne
      rw [if_neg (fun e => hne (Fin.ext (by
        have := (onehot_iff n hn k s).mp e
        show k.val = s.toNat - n * 2048
        omega))), zero_mul]
    · intro h'
      exact absurd (Finset.mem_univ _) h'
  · rw [dif_neg h]
    refine Finset.sum_eq_zero fun k _ => ?_
    rw [if_neg (fun e => h (by
      have := (onehot_iff n hn k s).mp e
      have := k.isLt
      omega)), zero_mul]

/-! ## The two operands of the body's product -/

/-- The one-hot matrix of node block `n` against the tile's source words `x2`. -/
def onehotM (n : ℕ) (x2 : Vec Ideal S1x2048 .i32) : FVec Ideal S2048x2048 .bf16 :=
  truncf .bf16 (sitofp (F := Ideal) .f32 (extui 32 (cmpi .eq
    (broadcastTo S2048x2048 (addi (iota .tc S2048x1 32 [0] iota_S2048x1_d0_w32) (broadcast S2048x1 (Scalar.muli (BitVec.ofNat 32 n) 2048#32)))
      broadcasts_S2048x1_S2048x2048)
    (broadcastTo S2048x2048 (shapeCast S1x2048 x2 shapeCasts_S1x2048_S1x2048) broadcasts_S1x2048_S2048x2048)) natLt_1_32)) bitsLt_bf16_f32

/-- The block's node rows `x0`, each scaled by its entry of the degree column `x1`. -/
def scaledM (x0 : Vec Ideal S2048x64 .f32) (x1 : Vec Ideal S2048x1 .f32) : FVec Ideal S2048x64 .bf16 :=
  truncf .bf16 (mulf (shapeCast S2048x64 x0 shapeCasts_S2048x64_S2048x64)
    (broadcastTo S2048x64 (shapeCast S2048x1 x1 shapeCasts_S2048x1_S2048x1) broadcasts_S2048x1_S2048x64)) bitsLt_bf16_f32

/-- Entry (k, r) of the one-hot matrix. -/
theorem onehotM_apply (n : ℕ) (x2 : Vec Ideal S1x2048 .i32) (k r : Fin 2048) :
    onehotM n x2 (ix2 k r) = if BitVec.ofNat 32 k.val + BitVec.ofNat 32 n * 2048#32 = x2 (ix2 (0 : Fin 1) r) then (1 : EReal) else 0 := by
  unfold onehotM
  show FloatOps.sitofp (F := Ideal) FTy.f32 ((IntOp.cmpi .eq
      (broadcastTo S2048x2048 (addi (iota .tc S2048x1 32 [0] iota_S2048x1_d0_w32) (broadcast S2048x1 (Scalar.muli (BitVec.ofNat 32 n) 2048#32)))
        broadcasts_S2048x1_S2048x2048 (ix2 k r))
      (broadcastTo S2048x2048 (shapeCast S1x2048 x2 shapeCasts_S1x2048_S1x2048) broadcasts_S1x2048_S2048x2048 (ix2 k r))).setWidth 32) = _
  rw [broadcastTo_apply _ broadcasts_S2048x1_S2048x2048 (ix2 k r) (ix2 k (0 : Fin 1)) (fun a => by
      match a with
      | ⟨0, _⟩ => rfl
      | ⟨1, _⟩ => rfl),
    broadcastTo_apply _ broadcasts_S1x2048_S2048x2048 (ix2 k r) (ix2 (0 : Fin 1) r) (fun a => by
      match a with
      | ⟨0, _⟩ => rfl
      | ⟨1, _⟩ => rfl),
    shapeCast_self]
  show FloatOps.sitofp (F := Ideal) FTy.f32 ((IntOp.cmpi .eq
      (iota .tc S2048x1 32 [0] iota_S2048x1_d0_w32 (ix2 k (0 : Fin 1)) + BitVec.ofNat 32 n * 2048#32) (x2 (ix2 (0 : Fin 1) r))).setWidth 32) = _
  rw [iota_single_apply]
  exact onehot_val _ _

/-- Entry (k, d) of the scaled rows. -/
theorem scaledM_apply (x0 : Vec Ideal S2048x64 .f32) (x1 : Vec Ideal S2048x1 .f32) (k : Fin 2048) (d : Fin 64) :
    scaledM x0 x1 (ix2 k d) = x0 (ix2 k d) * x1 (ix2 k (0 : Fin 1)) := by
  unfold scaledM
  show shapeCast S2048x64 x0 shapeCasts_S2048x64_S2048x64 (ix2 k d)
    * broadcastTo S2048x64 (shapeCast S2048x1 x1 shapeCasts_S2048x1_S2048x1) broadcasts_S2048x1_S2048x64 (ix2 k d) = _
  rw [broadcastTo_apply _ broadcasts_S2048x1_S2048x64 (ix2 k d) (ix2 k (0 : Fin 1)) (fun a => by
      match a with
      | ⟨0, _⟩ => rfl
      | ⟨1, _⟩ => rfl),
    shapeCast_self, shapeCast_self]

/-! ## The product's operand indices -/

/-- The one-hot matrix is contracted on its first axis: the product reads it at (contraction position, edge). -/
theorem lhs_dot_0 (i : S2048x64.Idx) (q : dot_S2048x2048_S2048x64_S2048x64_0_0_1_1_n_n.contr.Idx) :
    (dot_S2048x2048_S2048x64_S2048x64_0_0_1_1_n_n.lhsIdx i q 0).val = (q ⟨0, by decide⟩).val :=
  dot_S2048x2048_S2048x64_S2048x64_0_0_1_1_n_n.lhsIdx_val_of_single rfl i q
theorem lhs_dot_1 (i : S2048x64.Idx) (q : dot_S2048x2048_S2048x64_S2048x64_0_0_1_1_n_n.contr.Idx) :
    (dot_S2048x2048_S2048x64_S2048x64_0_0_1_1_n_n.lhsIdx i q 1).val = (i 0).val := by
  unfold DotDims.lhsIdx
  rw [dif_neg (show ¬(1 : Fin S2048x2048.rank) ∈ dot_S2048x2048_S2048x64_S2048x64_0_0_1_1_n_n.lhsBatch by decide),
    dif_pos (show (1 : Fin S2048x2048.rank) ∈ dot_S2048x2048_S2048x64_S2048x64_0_0_1_1_n_n.lhsNonContracting by decide)]
  rfl
/-- The scaled rows are contracted on their first axis too: read at (contraction position, column). -/
theorem rhs_dot_0 (i : S2048x64.Idx) (q : dot_S2048x2048_S2048x64_S2048x64_0_0_1_1_n_n.contr.Idx) :
    (dot_S2048x2048_S2048x64_S2048x64_0_0_1_1_n_n.rhsIdx i q 0).val = (q ⟨0, by decide⟩).val :=
  dot_S2048x2048_S2048x64_S2048x64_0_0_1_1_n_n.rhsIdx_val_of_single rfl i q
theorem rhs_dot_1 (i : S2048x64.Idx) (q : dot_S2048x2048_S2048x64_S2048x64_0_0_1_1_n_n.contr.Idx) :
    (dot_S2048x2048_S2048x64_S2048x64_0_0_1_1_n_n.rhsIdx i q 1).val = (i 1).val := by
  unfold DotDims.rhsIdx
  rw [dif_neg (show ¬(1 : Fin S2048x64.rank) ∈ dot_S2048x2048_S2048x64_S2048x64_0_0_1_1_n_n.rhsBatch by decide),
    dif_pos (show (1 : Fin S2048x64.rank) ∈ dot_S2048x2048_S2048x64_S2048x64_0_0_1_1_n_n.rhsNonContracting by decide)]
  rfl

/-! ## The payloads at an element -/

/-- The body's update of the accumulator is the accumulator plus the product of those two operands. -/
theorem pay2_eq (i : grid0.Coords) (x0 : Vec Ideal S2048x64 .f32) (x1 : Vec Ideal S2048x1 .f32) (x2 : Vec Ideal S1x2048 .i32)
    (s : Vec Ideal S2048x64 .f32) :
    k0_pay2 i x0 x1 x2 s = shapeCast S2048x64 (addf s (matmul dot_S2048x2048_S2048x64_S2048x64_0_0_1_1_n_n none
      (onehotM (i 1).val x2) (scaledM x0 x1) (constant (F := Ideal) S2048x64 .f32 0x00000000#32))) shapeCasts_S2048x64_S2048x64 := rfl

/-- At edge `r` and column `d`: the accumulator's entry plus, over the block's rows `k`, the one-hot entry times the
    scaled row's entry. `n` is the node block, the grid's second coordinate. -/
theorem pay2_apply (i : grid0.Coords) (n : ℕ) (hi : (i 1).val = n) (x0 : Vec Ideal S2048x64 .f32) (x1 : Vec Ideal S2048x1 .f32)
    (x2 : Vec Ideal S1x2048 .i32) (s : Vec Ideal S2048x64 .f32) (r : Fin 2048) (d : Fin 64) :
    k0_pay2 i x0 x1 x2 s (ix2 r d)
      = s (ix2 r d) + ∑ k : Fin 2048, (if BitVec.ofNat 32 k.val + BitVec.ofNat 32 n * 2048#32 = x2 (ix2 (0 : Fin 1) r) then (1 : EReal) else 0)
          * (x0 (ix2 k d) * x1 (ix2 k (0 : Fin 1))) := by
  subst hi
  rw [pay2_eq, shapeCast_self]
  show s (ix2 r d) + FloatOps.matmul dot_S2048x2048_S2048x64_S2048x64_0_0_1_1_n_n none (onehotM (i 1).val x2) (scaledM x0 x1)
    (constant (F := Ideal) S2048x64 .f32 0x00000000#32) (ix2 r d) = _
  refine congrArg (s (ix2 r d) + ·) ?_
  rw [Ideal.matmul_constant_zero_apply,
    ← Equiv.sum_comp (contrEquiv1 dot_S2048x2048_S2048x64_S2048x64_0_0_1_1_n_n 2048 rfl rfl).symm]
  refine Finset.sum_congr rfl fun k _ => ?_
  have hk := contrEquiv1_symm_val dot_S2048x2048_S2048x64_S2048x64_0_0_1_1_n_n 2048 rfl rfl k
  have el : dot_S2048x2048_S2048x64_S2048x64_0_0_1_1_n_n.lhsIdx (ix2 r d)
      ((contrEquiv1 dot_S2048x2048_S2048x64_S2048x64_0_0_1_1_n_n 2048 rfl rfl).symm k) = ix2 k r := funext fun a => Fin.ext (by
    match a with
    | ⟨0, _⟩ => exact (lhs_dot_0 _ _).trans hk
    | ⟨1, _⟩ => exact lhs_dot_1 _ _)
  have er : dot_S2048x2048_S2048x64_S2048x64_0_0_1_1_n_n.rhsIdx (ix2 r d)
      ((contrEquiv1 dot_S2048x2048_S2048x64_S2048x64_0_0_1_1_n_n 2048 rfl rfl).symm k) = ix2 k d := funext fun a => Fin.ext (by
    match a with
    | ⟨0, _⟩ => exact (rhs_dot_0 _ _).trans hk
    | ⟨1, _⟩ => exact rhs_dot_1 _ _)
  rw [el, er, onehotM_apply, scaledM_apply]

/-- The accumulator's reset value is zero everywhere. -/
theorem pay1_apply (j : S2048x64.Idx) : (k0_pay1 (F := Ideal)) j = 0 := by
  show shapeCast S2048x64 (broadcast S2048x64 (FloatOps.ofBits (F := Ideal) FTy.f32 0x00000000#32)) shapeCasts_S2048x64_S2048x64 j = 0
  rw [shapeCast_self]
  exact Ideal.ofBits_zero_f32

/-- What the body stores into the output block is the accumulator: the change of format is the identity on extended reals. -/
theorem pay3_apply (s : Vec Ideal S2048x64 .f32) (j : S2048x64.Idx) : k0_pay3 s j = s j := rfl

end Cert.KernelIdeal.GatherValue

end
-- ==== Proof.GatherValue.lean ====
/-
  What the gather region leaves in the messages array, at the ideal values.

  Point `t` of the region is edge tile `t / 49`, node block `t % 49`. Its three input blocks are rows
  `2048 (t % 49) …` of the padded node features and of the padded degree column, and entries `2048 (t / 49) …` of the
  padded source indices. By the body's arithmetic read at an element (the module this one imports) each point adds to
  the accumulator, at edge `r` of the tile and column `d`, the degree-scaled node row the edge's source index names
  when that index lies in the point's node block, and zero otherwise. So after node block `n` of a tile the
  accumulator holds, for each edge, the scaled row its source index names when the index is below `2048 (n + 1)`,
  and zero otherwise (`scr_apply`: induction on the point, the first node block starting from zero). After the last
  node block the bound is 100352, the whole padded node range; that point writes the accumulator back as block
  `t / 49` of the messages, and the blocks of the 586 tiles cover the array (`msg_array`, `msg_value`).
-/
import proofs.«429303_j7997229105212_1_alg».proof.Proof.GatherDataI
import proofs.«429303_j7997229105212_1_alg».proof.Proof.GatherPay

set_option maxRecDepth 16384

noncomputable section

open scoped BigOperators

namespace Cert.KernelIdeal.GatherValue

open Cert.KernelIdeal Cert.KernelIdeal.Gen Cert.KernelIdeal.Gather
open Idealize.ShloMosaic Idealize.ShloMosaic.TcCoe Idealize.ShloMosaic.ValueIdx
open Idealize.SL.Sem
open Idealize.ShloMosaic.Pipeline (Dat)

-- the TensorCore's buffer contents when the region is entered
variable (V : (c : Dev nD) → (b : Ref sig .tc) → Buf (Elt Ideal) ((c : Thread nD τ).loc b))

/-! ## The three arrays the region reads -/

/-- The padded node features, -/
abbrev uarr (c : Dev nD) : FVec Ideal S100352x64 .f32 := V c main_v13
/-- the padded degree column, -/
abbrev darr (c : Dev nD) : FVec Ideal S100352x1 .f32 := V c main_v15
/-- the padded source indices. -/
abbrev sarr (c : Dev nD) : IVec S1x1200128 32 := V c main_v19

/-- Column `d` of the scaled node rows: row `r` of the features times entry `r` of the degree column. -/
def feat (c : Dev nD) (d : Fin 64) : Fin 100352 → EReal := fun r => uarr V c (ix2 r d) * darr V c (ix2 r (0 : Fin 1))

/-- The padded source index of edge `j`, read unsigned. -/
def srcOf (c : Dev nD) (j : Fin 1200128) : ℕ := (sarr V c (ix2 (0 : Fin 1) j)).toNat

/-- The grid has 586 · 49 points. -/
theorem N0 : cfg0.N = 28714 := N_0

/-- Edge `r` of the tile of point `t`. -/
def edgeOf (t : Fin cfg0.N) (r : Fin 2048) : Fin 1200128 :=
  ⟨t.val / 49 * 2048 + r.val, by have h : t.val < 28714 := lt_of_lt_of_eq t.isLt N0; have := r.isLt; omega⟩

/-! ## The block indices of the windows over the grid -/

theorem idx0_0 (t : Fin cfg0.N) : win0_0.index t (0 : Fin 2) = t.val % 49 := by
  show (BitVec.ofNat 32 ((grid0.coords t) 1).val).toNat = t.val % 49
  rw [coords0_1 t, BitVec.toNat_ofNat]
  exact Nat.mod_eq_of_lt (by omega)
theorem idx0_1 (t : Fin cfg0.N) : win0_0.index t (1 : Fin 2) = 0 := rfl
theorem idx1_0 (t : Fin cfg0.N) : win0_1.index t (0 : Fin 2) = t.val % 49 := by
  show (BitVec.ofNat 32 ((grid0.coords t) 1).val).toNat = t.val % 49
  rw [coords0_1 t, BitVec.toNat_ofNat]
  exact Nat.mod_eq_of_lt (by omega)
theorem idx1_1 (t : Fin cfg0.N) : win0_1.index t (1 : Fin 2) = 0 := rfl
theorem idx2_0 (t : Fin cfg0.N) : win0_2.index t (0 : Fin 2) = 0 := rfl
theorem idx2_1 (t : Fin cfg0.N) : win0_2.index t (1 : Fin 2) = t.val / 49 := by
  show (BitVec.ofNat 32 ((grid0.coords t) 0).val).toNat = t.val / 49
  rw [coords0_0 t, BitVec.toNat_ofNat]
  have h : t.val < 28714 := lt_of_lt_of_eq t.isLt N0
  exact Nat.mod_eq_of_lt (by omega)
theorem idx3_0 (t : Fin cfg0.N) : win0_3.index t (0 : Fin 2) = t.val / 49 := by
  show (BitVec.ofNat 32 ((grid0.coords t) 0).val).toNat = t.val / 49
  rw [coords0_0 t, BitVec.toNat_ofNat]
  have h : t.val < 28714 := lt_of_lt_of_eq t.isLt N0
  exact Nat.mod_eq_of_lt (by omega)
theorem idx3_1 (t : Fin cfg0.N) : win0_3.index t (1 : Fin 2) = 0 := rfl

/-! ## The input blocks, read off the arrays -/

/-- Row `k` of the node-feature block at point `t` is row `2048 (t % 49) + k` of the padded features. -/
theorem ublk_apply (c : Dev nD) (t : Fin cfg0.N) (k : Fin 2048) (d : Fin 64) (h : t.val % 49 * 2048 + k.val < 100352) :
    (iblk0 V c 0 t : FVec Ideal S2048x64 .f32) (ix2 k d) = uarr V c (ix2 ⟨t.val % 49 * 2048 + k.val, h⟩ d) := by
  unfold iblk0
  rw [View.read_apply]
  show V c main_v13 _ = V c main_v13 _
  refine congrArg (V c main_v13) (funext fun a => Fin.ext ?_)
  match a with
  | ⟨0, _⟩ =>
    show win0_0.index t (0 : Fin 2) * 2048 + 1 * k.val = t.val % 49 * 2048 + k.val
    have e := idx0_0 t
    omega
  | ⟨1, _⟩ =>
    show win0_0.index t (1 : Fin 2) * 64 + 1 * d.val = d.val
    have e := idx0_1 t
    omega

/-- Entry `k` of the degree block at point `t` is entry `2048 (t % 49) + k` of the padded degree column. -/
theorem dblk_apply (c : Dev nD) (t : Fin cfg0.N) (k : Fin 2048) (h : t.val % 49 * 2048 + k.val < 100352) :
    (iblk0 V c 1 t : FVec Ideal S2048x1 .f32) (ix2 k (0 : Fin 1)) = darr V c (ix2 ⟨t.val % 49 * 2048 + k.val, h⟩ (0 : Fin 1)) := by
  unfold iblk0
  rw [View.read_apply]
  show V c main_v15 _ = V c main_v15 _
  refine congrArg (V c main_v15) (funext fun a => Fin.ext ?_)
  match a with
  | ⟨0, _⟩ =>
    show win0_1.index t (0 : Fin 2) * 2048 + 1 * k.val = t.val % 49 * 2048 + k.val
    have e := idx1_0 t
    omega
  | ⟨1, _⟩ =>
    show win0_1.index t (1 : Fin 2) * 1 + 1 * 0 = 0
    have e := idx1_1 t
    omega

/-- Entry `r` of the source-index block at point `t` is the source index of edge `r` of the point's tile. -/
theorem sblk_apply (c : Dev nD) (t : Fin cfg0.N) (r : Fin 2048) :
    (iblk0 V c 2 t : IVec S1x2048 32) (ix2 (0 : Fin 1) r) = sarr V c (ix2 (0 : Fin 1) (edgeOf t r)) := by
  unfold iblk0
  rw [View.read_apply]
  show V c main_v19 _ = V c main_v19 _
  refine congrArg (V c main_v19) (funext fun a => Fin.ext ?_)
  match a with
  | ⟨0, _⟩ =>
    show win0_2.index t (0 : Fin 2) * 1 + 1 * 0 = 0
    have e := idx2_0 t
    omega
  | ⟨1, _⟩ =>
    show win0_2.index t (1 : Fin 2) * 2048 + 1 * r.val = t.val / 49 * 2048 + r.val
    have e := idx2_1 t
    omega

/-! ## One point of the accumulation -/

/-- The node-feature block and the degree block at point `t`, at their vector types. -/
abbrev ublk (c : Dev nD) (t : Fin cfg0.N) : FVec Ideal S2048x64 .f32 := iblk0 V c 0 t
abbrev dblk (c : Dev nD) (t : Fin cfg0.N) : FVec Ideal S2048x1 .f32 := iblk0 V c 1 t

theorem le_bound (n : ℕ) : n % 49 * 2048 ≤ 100352 := by omega
theorem le_bound' (n : ℕ) : (n % 49 + 1) * 2048 ≤ 100352 := by omega

/-- The body's update at point `t`, at edge `r` and column `d`: the accumulator's entry plus the scaled row the edge's
    source index names when it lies in node block `t % 49`, zero when it does not. -/
theorem step_apply (c : Dev nD) (t : Fin cfg0.N) (acc : Vec Ideal S2048x64 .f32) (r : Fin 2048) (d : Fin 64) :
    k0_pay2 (grid0.coords t) (iblk0 V c 0 t) (iblk0 V c 1 t) (iblk0 V c 2 t) acc (ix2 r d)
      = acc (ix2 r d) + band (feat V c d) (t.val % 49) (Nat.mod_lt _ (by decide)) (srcOf V c (edgeOf t r)) := by
  refine (pay2_apply (grid0.coords t) (t.val % 49) (coords0_1 t) (iblk0 V c 0 t) (iblk0 V c 1 t) (iblk0 V c 2 t) acc r d).trans ?_
  refine congrArg (acc (ix2 r d) + ·) ?_
  rw [sblk_apply V c t r]
  refine Eq.trans (Finset.sum_congr rfl fun k _ => ?_)
    (onehot_sum (feat V c d) (t.val % 49) (Nat.mod_lt _ (by decide)) (sarr V c (ix2 (0 : Fin 1) (edgeOf t r))))
  have hk : t.val % 49 * 2048 + k.val < 100352 := by have := k.isLt; omega
  have e : ublk V c t (ix2 k d) * dblk V c t (ix2 k (0 : Fin 1)) = feat V c d ⟨t.val % 49 * 2048 + k.val, hk⟩ :=
    congrArg₂ (fun a b : EReal => a * b) (ublk_apply V c t k d hk) (dblk_apply V c t k hk)
  exact congrArg (HMul.hMul (α := EReal) (β := EReal) (γ := EReal) _) e

/-- If the accumulator entering point `t` holds the rows named below node block `t % 49`, the one leaving it holds the
    rows named below the next block. -/
theorem scr_of_acc (c : Dev nD) (t : Fin cfg0.N) (acc : Vec Ideal S2048x64 .f32)
    (he : scrAt0 V c t.val t.isLt = k0_pay2 (grid0.coords t) (iblk0 V c 0 t) (iblk0 V c 1 t) (iblk0 V c 2 t) acc)
    (r : Fin 2048) (d : Fin 64)
    (hacc : acc (ix2 r d) = pick (feat V c d) (t.val % 49 * 2048) (le_bound t.val) (srcOf V c (edgeOf t r))) :
    scrAt0 V c t.val t.isLt (ix2 r d)
      = pick (feat V c d) ((t.val % 49 + 1) * 2048) (le_bound' t.val) (srcOf V c (edgeOf t r)) := by
  rw [he]
  refine (step_apply V c t acc r d).trans ?_
  rw [hacc]
  exact pick_add_band (feat V c d) (t.val % 49) (Nat.mod_lt _ (by decide)) (le_bound t.val) (le_bound' t.val) _

/-! ## The accumulator after every point -/

/-- After point `n` the accumulator holds, at edge `r` of the point's tile and column `d`, the scaled row the edge's
    source index names when that index is below `2048 (n % 49 + 1)`, and zero otherwise. -/
theorem scr_apply (c : Dev nD) : ∀ (n : ℕ) (hn : n < cfg0.N) (r : Fin 2048) (d : Fin 64),
    scrAt0 V c n hn (ix2 r d)
      = pick (feat V c d) ((n % 49 + 1) * 2048) (le_bound' n) (srcOf V c (edgeOf ⟨n, hn⟩ r))
  | 0, hn, r, d => by
    refine scr_of_acc V c ⟨0, hn⟩ (k0_pay1 (F := Ideal)) (scrAt0_first V c ⟨0, hn⟩ rfl) r d ?_
    rw [pay1_apply]
    exact (pick_of_bound_zero _ _ _ _ rfl).symm
  | n + 1, hn, r, d => by
    by_cases h : (n + 1) % 49 = 0
    · refine scr_of_acc V c ⟨n + 1, hn⟩ (k0_pay1 (F := Ideal)) (scrAt0_first V c ⟨n + 1, hn⟩ h) r d ?_
      rw [pay1_apply]
      exact (pick_of_bound_zero _ _ _ _ (by show (n + 1) % 49 * 2048 = 0; omega)).symm
    · refine scr_of_acc V c ⟨n + 1, hn⟩ (scrAt0 V c n (Nat.lt_of_succ_lt hn)) (scrAt0_next V c ⟨n + 1, hn⟩ h) r d ?_
      rw [scr_apply c n (Nat.lt_of_succ_lt hn) r d]
      refine pick_congr rfl (by show (n % 49 + 1) * 2048 = (n + 1) % 49 * 2048; omega) ?_
      refine congrArg (srcOf V c) (Fin.ext ?_)
      show n / 49 * 2048 + r.val = (n + 1) / 49 * 2048 + r.val
      omega

/-- The same at any index of the block. -/
theorem scr_apply_idx (c : Dev nD) (n : ℕ) (hn : n < cfg0.N) (y : S2048x64.Idx) :
    scrAt0 V c n hn y
      = pick (feat V c (y 1)) ((n % 49 + 1) * 2048) (le_bound' n) (srcOf V c (edgeOf ⟨n, hn⟩ (y 0))) :=
  (congrArg (scrAt0 V c n hn) (eq_ix2 y)).trans (scr_apply V c n hn (y 0) (y 1))

/-! ## The messages array -/

/-- The messages: edge `j`, column `d` holds the scaled node row the edge's padded source index names, and zero when
    the index names no row of the padded node range. -/
def msgArr (c : Dev nD) : FVec Ideal S1200128x64 .bf16 :=
  fun i => pick (feat V c ⟨(i 1).val, idx2_lt1 i⟩) 100352 (Nat.le_refl _) (srcOf V c ⟨(i 0).val, idx2_lt0 i⟩)

/-- What a point that writes back (the last node block of its tile) writes is its block of the messages. -/
theorem flushed_eq (c : Dev nD) (t : Fin cfg0.N) (hf : (cfg0.win 3).flush t = true) :
    (dat0 V c).flushed 3 t = ((cfg0.win 3).blk t).view.read (Elt Ideal) (msgArr V c) := by
  have h48 : t.val % 49 = 48 := (flush0_3 t).mp hf
  show (cfg0.win 3).cut (grid0.coords t) ((dat0 V c).after 3 t) = _
  rw [after0_3]
  funext j
  rw [View.read_apply]
  show scrAt0 V c t.val t.isLt ((cfg0.win 3).xinj (grid0.coords t) j) = msgArr V c (((cfg0.win 3).blk t).view.emb j)
  rw [scr_apply_idx V c t.val t.isLt]
  show _ = pick _ _ _ _
  refine pick_congr ?_ ?_ ?_
  · refine congrArg (feat V c) (Fin.ext ?_)
    show (j 1).val = win0_3.index t (1 : Fin 2) * 64 + 1 * (j 1).val
    have e := idx3_1 t
    omega
  · show (t.val % 49 + 1) * 2048 = 100352
    omega
  · refine congrArg (srcOf V c) (Fin.ext ?_)
    show t.val / 49 * 2048 + (j 0).val = win0_3.index t (0 : Fin 2) * 2048 + 1 * (j 0).val
    have e := idx3_0 t
    omega

/-- An index of the messages is in the block of point `t` iff each coordinate is in the block's range on its axis. -/
theorem mem_blk3 (t : Fin cfg0.N) (i : S1200128x64.Idx) :
    i ∈ ((cfg0.win 3).blk t).view.set ↔ ∀ a : Fin 2, win0_3.index t a * S2048x64.size a ≤ (i a).val
      ∧ (i a).val < win0_3.index t a * S2048x64.size a + S2048x64.size a := by
  show i ∈ ((View.whole main_v22).slice (win0_3.rect t)).set ↔ _
  rw [View.set_slice_whole, Rect.mem_set_unit]
  exact Iff.rfl

/-- Every edge row lies in the block its tile's last point writes back. -/
theorem cover (i : S1200128x64.Idx) :
    ∃ t : Fin cfg0.N, (cfg0.win 3).flush t = true ∧ i ∈ ((cfg0.win 3).blk t).view.set := by
  have hi0 : (i 0).val < 1200128 := idx2_lt0 i
  have hi1 : (i 1).val < 64 := idx2_lt1 i
  have ht : (i 0).val / 2048 * 49 + 48 < cfg0.N := by rw [N0]; omega
  refine ⟨⟨(i 0).val / 2048 * 49 + 48, ht⟩, (flush0_3 _).mpr (by show ((i 0).val / 2048 * 49 + 48) % 49 = 48; omega), ?_⟩
  rw [mem_blk3]
  intro a
  match a with
  | ⟨0, _⟩ =>
    show win0_3.index ⟨(i 0).val / 2048 * 49 + 48, ht⟩ (0 : Fin 2) * 2048 ≤ (i 0).val
      ∧ (i 0).val < win0_3.index ⟨(i 0).val / 2048 * 49 + 48, ht⟩ (0 : Fin 2) * 2048 + 2048
    have e : win0_3.index ⟨(i 0).val / 2048 * 49 + 48, ht⟩ (0 : Fin 2) = ((i 0).val / 2048 * 49 + 48) / 49 := idx3_0 _
    omega
  | ⟨1, _⟩ =>
    show win0_3.index ⟨(i 0).val / 2048 * 49 + 48, ht⟩ (1 : Fin 2) * 64 ≤ (i 1).val
      ∧ (i 1).val < win0_3.index ⟨(i 0).val / 2048 * 49 + 48, ht⟩ (1 : Fin 2) * 64 + 64
    have e : win0_3.index ⟨(i 0).val / 2048 * 49 + 48, ht⟩ (1 : Fin 2) = 0 := idx3_1 _
    omega

/-- The messages array after the region. -/
abbrev marr (c : Dev nD) : FVec Ideal S1200128x64 .bf16 := (dat0 V c).arrAt 3 cfg0.N

/-- So the messages array after the region is `msgArr`. -/
theorem msg_array (c : Dev nD) : (dat0 V c).arrAt 3 cfg0.N = msgArr V c :=
  (dat0 V c).arrAt_eq_of_cover 3 (msgArr V c) (flushed_eq V c) (fun i => cover i)

/-- THE MESSAGES, element by element: edge `j`, column `d` is the padded node row its padded source index names, scaled by
    that row's entry of the padded degree column; and zero when the index names no row (the padding's sentinel 100352,
    or any word out of range). -/
theorem msg_value (c : Dev nD) (j : Fin 1200128) (d : Fin 64) :
    marr V c (ix2 j d) =
      if h : (sarr V c (ix2 (0 : Fin 1) j)).toNat < 100352
        then uarr V c (ix2 ⟨_, h⟩ d) * darr V c (ix2 ⟨_, h⟩ (0 : Fin 1))
        else 0 := by
  show ((dat0 V c).arrAt 3 cfg0.N : FVec Ideal S1200128x64 .bf16) (ix2 j d) = _
  rw [msg_array V c]
  rfl

end Cert.KernelIdeal.GatherValue

end
-- ==== Proof.ScatterValue.lean ====
/-
  What the scatter region leaves in the result array, over the extended reals.

  The region stays on node block `nb` (2048 rows of the result) for 586 consecutive points, one per edge tile of 2048
  edges. At each point the output block gains, at row `b` and column `d`, the sum over the tile's edges `k` of
  (1 if node `nb · 2048 + b` is the edge's endpoint, else 0) times the edge's message at column `d`: a one-hot matrix
  times the message tile. It starts from zero at the first tile and is multiplied, row by row, by the degree column
  after the last. So when the block is written back, row `i`, column `d` of the result holds

      (Σ over all 1200128 edges j of [i = endpoint j] · message (j, d)) · degree i,

  the sum built tile after tile. Many edges may share an endpoint, so this is a genuine sum; over the extended reals only
  associativity of `+` and `0 + x = x` are used to join the tiles' sums, and nothing is asked to be finite. The 49 node
  blocks tile the 100352 rows and each is written back once, after its last tile.
-/
import proofs.«429303_j7997229105212_1_alg».proof.Proof.ScatterDataI
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ScatterValue

open Cert.KernelIdeal Cert.KernelIdeal.Gen Cert.KernelIdeal.Scatter
open Idealize.ShloMosaic Idealize.ShloMosaic.TcCoe Idealize.SL.Sem
open Idealize.ShloMosaic.Pipeline (Dat)
open Idealize.ShloMosaic.ValueIdx
open scoped BigOperators

/-! ## Words: one entry of the one-hot matrix -/

/-- An equality test of two words, widened to a word and converted to a float, is 1 where they are equal and 0 where
    they are not. -/
theorem hot_word (x y : BitVec 32) :
    (FloatOps.sitofp .f32 ((IntOp.cmpi .eq x y).setWidth 32) : Ideal .f32) = if x = y then 1 else 0 := by
  show (((((IntOp.cmpi .eq x y).setWidth 32).toInt : ℤ) : ℝ) : EReal) = _
  have hb : ∀ b : BitVec 1, (b.setWidth 32).toInt = (b.toNat : ℤ) := by decide
  rw [hb]
  unfold IntOp.cmpi
  by_cases h : x = y
  · rw [if_pos h]; subst h; simp
  · rw [if_neg h]
    have hne : (x == y) = false := by simpa using h
    simp [hne]

/-- Row `b` of node block `nb` is node `nb · 2048 + b`, as words. -/
theorem row_word (nb b : ℕ) :
    BitVec.ofNat 32 b + BitVec.ofNat 32 nb * 2048#32 = BitVec.ofNat 32 (nb * 2048 + b) := by
  rw [Nat.add_comm (nb * 2048) b, BitVec.ofNat_add, BitVec.ofNat_mul]

/-! ## A column broadcast along the rows -/

/-- An `[a, 1]` column broadcast to `[a, b]` reads, at `(p, q)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ## The contraction at an index -/

/-- The left operand of the contraction is read at (output row, contracted position) … -/
theorem lhs_mm_0 (i : S2048x64.Idx) (q : dot_S2048x2048_S2048x64_S2048x64_1_0_0_1_n_n.contr.Idx) :
    (dot_S2048x2048_S2048x64_S2048x64_1_0_0_1_n_n.lhsIdx i q 0).val = (i 0).val := by
  unfold DotDims.lhsIdx
  rw [dif_neg (show ¬(0 : Fin S2048x2048.rank) ∈ dot_S2048x2048_S2048x64_S2048x64_1_0_0_1_n_n.lhsBatch by decide),
    dif_pos (show (0 : Fin S2048x2048.rank) ∈ dot_S2048x2048_S2048x64_S2048x64_1_0_0_1_n_n.lhsNonContracting by decide)]
  rfl
theorem lhs_mm_1 (i : S2048x64.Idx) (q : dot_S2048x2048_S2048x64_S2048x64_1_0_0_1_n_n.contr.Idx) :
    (dot_S2048x2048_S2048x64_S2048x64_1_0_0_1_n_n.lhsIdx i q 1).val = (q ⟨0, by decide⟩).val :=
  dot_S2048x2048_S2048x64_S2048x64_1_0_0_1_n_n.lhsIdx_val_of_single rfl i q
/-- … and the right operand at (contracted position, output column). -/
theorem rhs_mm_0 (i : S2048x64.Idx) (q : dot_S2048x2048_S2048x64_S2048x64_1_0_0_1_n_n.contr.Idx) :
    (dot_S2048x2048_S2048x64_S2048x64_1_0_0_1_n_n.rhsIdx i q 0).val = (q ⟨0, by decide⟩).val :=
  dot_S2048x2048_S2048x64_S2048x64_1_0_0_1_n_n.rhsIdx_val_of_single rfl i q
theorem rhs_mm_1 (i : S2048x64.Idx) (q : dot_S2048x2048_S2048x64_S2048x64_1_0_0_1_n_n.contr.Idx) :
    (dot_S2048x2048_S2048x64_S2048x64_1_0_0_1_n_n.rhsIdx i q 1).val = (i 1).val := by
  unfold DotDims.rhsIdx
  rw [dif_neg (show ¬(1 : Fin S2048x64.rank) ∈ dot_S2048x2048_S2048x64_S2048x64_1_0_0_1_n_n.rhsBatch by decide),
    dif_pos (show (1 : Fin S2048x64.rank) ∈ dot_S2048x2048_S2048x64_S2048x64_1_0_0_1_n_n.rhsNonContracting by decide)]
  rfl

/-- The product of a [2048, 2048] by a [2048, 64] matrix accumulated into zero, read at `(b, d)`: the sum over the
    contracted position `k` of the entries' products. -/
theorem mm_apply (A : FVec Ideal S2048x2048 .bf16) (B : FVec Ideal S2048x64 .bf16) (b : Fin 2048) (d : Fin 64) :
    matmul dot_S2048x2048_S2048x64_S2048x64_1_0_0_1_n_n none A B (constant (F := Ideal) S2048x64 .f32 0x00000000#32) (ix2 b d)
      = ∑ k : Fin 2048, A (ix2 b k) * B (ix2 k d) := by
  show FloatOps.matmul dot_S2048x2048_S2048x64_S2048x64_1_0_0_1_n_n none A B (constant (F := Ideal) S2048x64 .f32 0x00000000#32) (ix2 b d) = _
  rw [Ideal.matmul_constant_zero_apply, ← Equiv.sum_comp (contrEquiv1 dot_S2048x2048_S2048x64_S2048x64_1_0_0_1_n_n 2048 rfl rfl).symm]
  refine Finset.sum_congr rfl fun k _ => ?_
  have hk := contrEquiv1_symm_val dot_S2048x2048_S2048x64_S2048x64_1_0_0_1_n_n 2048 rfl rfl k
  have el : dot_S2048x2048_S2048x64_S2048x64_1_0_0_1_n_n.lhsIdx (ix2 b d) ((contrEquiv1 dot_S2048x2048_S2048x64_S2048x64_1_0_0_1_n_n 2048 rfl rfl).symm k) = ix2 b k :=
    funext fun a => Fin.ext (by
      match a with
      | ⟨0, _⟩ => exact lhs_mm_0 _ _
      | ⟨1, _⟩ => exact (lhs_mm_1 _ _).trans hk)
  have er : dot_S2048x2048_S2048x64_S2048x64_1_0_0_1_n_n.rhsIdx (ix2 b d) ((contrEquiv1 dot_S2048x2048_S2048x64_S2048x64_1_0_0_1_n_n 2048 rfl rfl).symm k) = ix2 k d :=
    funext fun a => Fin.ext (by
      match a with
      | ⟨0, _⟩ => exact (rhs_mm_0 _ _).trans hk
      | ⟨1, _⟩ => exact rhs_mm_1 _ _)
  rw [el, er]

/-! ## The body's three values at an index -/

/-- The one-hot matrix of a node block against an edge tile, read at (row `b`, edge `k`): 1 where the row's node
    (`b` plus the block's first node `nb`) is edge `k`'s endpoint, else 0. -/
theorem onehot_apply (nb : BitVec 32) (dst : IVec S1x2048 32) (b k : Fin 2048) :
    (truncf .bf16 (sitofp .f32 (extui 32 (cmpi .eq
        (broadcastTo S2048x2048 (addi (iota .tc S2048x1 32 [0] iota_S2048x1_d0_w32) (broadcast S2048x1 nb))
          broadcasts_S2048x1_S2048x2048)
        (broadcastTo S2048x2048 dst broadcasts_S1x2048_S2048x2048)) natLt_1_32) : FVec Ideal S2048x2048 .f32)
      bitsLt_bf16_f32 : FVec Ideal S2048x2048 .bf16) (ix2 b k)
      = if BitVec.ofNat 32 b.val + nb = dst (ix2 (0 : Fin 1) k) then 1 else 0 := by
  have e1 := broadcastTo_a1_ab_apply (addi (iota .tc S2048x1 32 [0] iota_S2048x1_d0_w32) (broadcast S2048x1 nb))
    broadcasts_S2048x1_S2048x2048 b k
  have e2 := broadcastTo_1b_ab_apply dst broadcasts_S1x2048_S2048x2048 b k
  have e3 := iota_single_apply .tc S2048x1 32 0 iota_S2048x1_d0_w32 (ix2 b (0 : Fin 1))
  show (FloatOps.sitofp .f32 ((IntOp.cmpi .eq
      (broadcastTo S2048x2048 (addi (iota .tc S2048x1 32 [0] iota_S2048x1_d0_w32) (broadcast S2048x1 nb))
        broadcasts_S2048x1_S2048x2048 (ix2 b k))
      (broadcastTo S2048x2048 dst broadcasts_S1x2048_S2048x2048 (ix2 b k))).setWidth 32) : Ideal .f32) = _
  rw [e1, e2]
  show (FloatOps.sitofp .f32 ((IntOp.cmpi .eq
      (iota .tc S2048x1 32 [0] iota_S2048x1_d0_w32 (ix2 b (0 : Fin 1)) + nb)
      (dst (ix2 (0 : Fin 1) k))).setWidth 32) : Ideal .f32) = _
  rw [e3]
  exact hot_word (BitVec.ofNat 32 b.val + nb) (dst (ix2 (0 : Fin 1) k))

/-- The reset value is zero everywhere. -/
theorem pay1_apply (b : Fin 2048) (d : Fin 64) : k1_pay1 (F := Ideal) (ix2 b d) = 0 := by
  unfold k1_pay1
  exact Ideal.ofBits_zero_f32

/-- One point's update at `(b, d)`: what was there plus the sum over the tile's edges of the one-hot entry times the
    message. `i 0` is the node block. -/
theorem pay2_apply (i : grid1.Coords) (dst : IVec S1x2048 32) (msg : FVec Ideal S2048x64 .bf16)
    (prev : FVec Ideal S2048x64 .f32) (b : Fin 2048) (d : Fin 64) :
    k1_pay2 (F := Ideal) i dst msg prev (ix2 b d)
      = prev (ix2 b d) + ∑ k : Fin 2048,
          (if BitVec.ofNat 32 b.val + BitVec.ofNat 32 (i 0).val * 2048#32 = dst (ix2 (0 : Fin 1) k) then (1 : EReal) else 0)
            * msg (ix2 k d) := by
  unfold k1_pay2
  simp only [shapeCast_self]
  refine (addf_apply prev _ (ix2 b d)).trans ?_
  refine congrArg (prev (ix2 b d) + ·) ?_
  refine (mm_apply _ msg b d).trans ?_
  refine Finset.sum_congr rfl fun k _ => ?_
  refine congrArg (· * msg (ix2 k d)) ?_
  exact onehot_apply (BitVec.ofNat 32 (i 0).val * 2048#32) dst b k

/-- The last tile's scaling at `(b, d)`: the sum times the row's degree factor. -/
theorem pay3_apply (acc : FVec Ideal S2048x64 .f32) (deg : FVec Ideal S2048x1 .f32) (b : Fin 2048) (d : Fin 64) :
    k1_pay3 (F := Ideal) acc deg (ix2 b d) = acc (ix2 b d) * deg (ix2 b (0 : Fin 1)) := by
  unfold k1_pay3
  simp only [shapeCast_self]
  refine (mulf_apply acc _ (ix2 b d)).trans ?_
  exact congrArg (acc (ix2 b d) * ·) (broadcastTo_a1_ab_apply deg broadcasts_S2048x1_S2048x64 b d)

/-! ## The arrays the region reads, by natural-number coordinates -/

variable (V : (c : Dev nD) → (b : Ref sig .tc) → Buf (Elt Ideal) ((c : Thread nD τ).loc b))

/-- The message of edge `j` at column `d` (zero past the array, never read there). -/
def msgN (c : Dev nD) (j d : ℕ) : EReal :=
  if h : j < 1200128 ∧ d < 64 then (V c main_v22 : FVec Ideal S1200128x64 .bf16) (ix2 ⟨j, h.1⟩ ⟨d, h.2⟩) else 0
/-- The endpoint of edge `j`. -/
def dstN (c : Dev nD) (j : ℕ) : BitVec 32 :=
  if h : j < 1200128 then (V c main_v21 : IVec S1x1200128 32) (ix2 (0 : Fin 1) ⟨j, h⟩) else 0
/-- The degree factor of node `i`. -/
def degN (c : Dev nD) (i : ℕ) : EReal :=
  if h : i < 100352 then (V c main_v17 : FVec Ideal S100352x1 .f32) (ix2 ⟨i, h⟩ (0 : Fin 1)) else 0

/-- Edge `j`'s contribution to node `i`, column `d`: its message where `i` is its endpoint, else zero. -/
def edgeTerm (c : Dev nD) (i d j : ℕ) : EReal :=
  (if BitVec.ofNat 32 i = dstN V c j then (1 : EReal) else 0) * msgN V c j d
/-- The contributions of the first `n` edges, added in order. -/
def psum (c : Dev nD) (i d n : ℕ) : EReal := ∑ j ∈ Finset.range n, edgeTerm V c i d j

theorem psum_zero (c : Dev nD) (i d : ℕ) : psum V c i d 0 = 0 := Finset.sum_range_zero _

/-- One more tile: the sum over the first `e + 1` tiles is the sum over the first `e` plus the tile's own. -/
theorem psum_tile (c : Dev nD) (i d e : ℕ) :
    psum V c i d ((e + 1) * 2048) = psum V c i d (e * 2048) + ∑ k : Fin 2048, edgeTerm V c i d (e * 2048 + k.val) := by
  unfold psum
  rw [show (e + 1) * 2048 = e * 2048 + 2048 by omega, Finset.sum_range_add,
    ← Fin.sum_univ_eq_sum_range (fun x => edgeTerm V c i d (e * 2048 + x)) 2048]

/-! ## The windows' blocks, read off the arrays -/

/-- The block indices at point `t`: the messages' and the endpoints' blocks follow the edge tile `t % 586`, the degree
    column's and the result's the node block `t / 586`. -/
theorem idx_msg (t : Fin cfg1.N) : win1_0.index t (0 : Fin 2) = t.val % 586 ∧ win1_0.index t (1 : Fin 2) = 0 := by
  refine ⟨?_, rfl⟩
  show (BitVec.ofNat 32 ((grid1.coords t) 1).val).toNat = _
  rw [coords1_1 t, BitVec.toNat_ofNat]
  omega
theorem idx_dst (t : Fin cfg1.N) : win1_1.index t (0 : Fin 2) = 0 ∧ win1_1.index t (1 : Fin 2) = t.val % 586 := by
  refine ⟨rfl, ?_⟩
  show (BitVec.ofNat 32 ((grid1.coords t) 1).val).toNat = _
  rw [coords1_1 t, BitVec.toNat_ofNat]
  omega
theorem idx_deg (t : Fin cfg1.N) : win1_2.index t (0 : Fin 2) = t.val / 586 ∧ win1_2.index t (1 : Fin 2) = 0 := by
  refine ⟨?_, rfl⟩
  show (BitVec.ofNat 32 ((grid1.coords t) 0).val).toNat = _
  rw [coords1_0 t, BitVec.toNat_ofNat]
  have hN : t.val < 28714 := lt_of_lt_of_eq t.isLt (show cfg1.N = 28714 from by decide)
  omega
theorem idx_out (t : Fin cfg1.N) : win1_3.index t (0 : Fin 2) = t.val / 586 ∧ win1_3.index t (1 : Fin 2) = 0 := by
  refine ⟨?_, rfl⟩
  show (BitVec.ofNat 32 ((grid1.coords t) 0).val).toNat = _
  rw [coords1_0 t, BitVec.toNat_ofNat]
  have hN : t.val < 28714 := lt_of_lt_of_eq t.isLt (show cfg1.N = 28714 from by decide)
  omega

/-- The three input blocks at point `t`, at their literal types. -/
abbrev msgBlk (c : Dev nD) (t : Fin cfg1.N) : FVec Ideal S2048x64 .bf16 := iblk1 V c 0 t
abbrev dstBlk (c : Dev nD) (t : Fin cfg1.N) : IVec S1x2048 32 := iblk1 V c 1 t
abbrev degBlk (c : Dev nD) (t : Fin cfg1.N) : FVec Ideal S2048x1 .f32 := iblk1 V c 2 t

/-- Row `k` of the message block at point `t` is edge `(t % 586) · 2048 + k`. -/
theorem msg_at (c : Dev nD) (t : Fin cfg1.N) (k : Fin 2048) (d : Fin 64) :
    msgBlk V c t (ix2 k d) = msgN V c (t.val % 586 * 2048 + k.val) d.val := by
  have hj : t.val % 586 * 2048 + k.val < 1200128 := by have := k.isLt; omega
  unfold msgN
  rw [dif_pos ⟨hj, d.isLt⟩]
  unfold msgBlk iblk1
  rw [View.read_apply]
  show (V c main_v22 : FVec Ideal S1200128x64 .bf16) _ = (V c main_v22 : FVec Ideal S1200128x64 .bf16) _
  congr 1
  funext a
  apply Fin.ext
  match a with
  | ⟨0, _⟩ =>
    show win1_0.index t (0 : Fin 2) * 2048 + 1 * k.val = t.val % 586 * 2048 + k.val
    rw [(idx_msg t).1]; omega
  | ⟨1, _⟩ =>
    show win1_0.index t (1 : Fin 2) * 64 + 1 * d.val = d.val
    rw [(idx_msg t).2]; omega

/-- Entry `k` of the endpoint block at point `t` is edge `(t % 586) · 2048 + k`'s. -/
theorem dst_at (c : Dev nD) (t : Fin cfg1.N) (k : Fin 2048) :
    dstBlk V c t (ix2 (0 : Fin 1) k) = dstN V c (t.val % 586 * 2048 + k.val) := by
  have hj : t.val % 586 * 2048 + k.val < 1200128 := by have := k.isLt; omega
  unfold dstN
  rw [dif_pos hj]
  unfold dstBlk iblk1
  rw [View.read_apply]
  show (V c main_v21 : IVec S1x1200128 32) _ = (V c main_v21 : IVec S1x1200128 32) _
  congr 1
  funext a
  apply Fin.ext
  match a with
  | ⟨0, _⟩ =>
    show win1_1.index t (0 : Fin 2) * 1 + 1 * 0 = 0
    rw [(idx_dst t).1]
  | ⟨1, _⟩ =>
    show win1_1.index t (1 : Fin 2) * 2048 + 1 * k.val = t.val % 586 * 2048 + k.val
    rw [(idx_dst t).2]; omega

/-- Row `b` of the degree block at point `t` is node `(t / 586) · 2048 + b`'s. -/
theorem deg_at (c : Dev nD) (t : Fin cfg1.N) (b : Fin 2048) :
    degBlk V c t (ix2 b (0 : Fin 1)) = degN V c (t.val / 586 * 2048 + b.val) := by
  have hN : t.val < 28714 := lt_of_lt_of_eq t.isLt (show cfg1.N = 28714 from by decide)
  have hi : t.val / 586 * 2048 + b.val < 100352 := by have := b.isLt; omega
  unfold degN
  rw [dif_pos hi]
  unfold degBlk iblk1
  rw [View.read_apply]
  show (V c main_v17 : FVec Ideal S100352x1 .f32) _ = (V c main_v17 : FVec Ideal S100352x1 .f32) _
  congr 1
  funext a
  apply Fin.ext
  match a with
  | ⟨0, _⟩ =>
    show win1_2.index t (0 : Fin 2) * 2048 + 1 * b.val = t.val / 586 * 2048 + b.val
    rw [(idx_deg t).1]; omega
  | ⟨1, _⟩ =>
    show win1_2.index t (1 : Fin 2) * 1 + 1 * 0 = 0
    rw [(idx_deg t).2]

/-! ## The running sum over the edge tiles -/

/-- One point's update joins its tile to the sum: if the block held, at `(b, d)`, the sum over the tiles before this
    one, it holds the sum through this one after it. -/
theorem tile_step (c : Dev nD) (t : Fin cfg1.N) (prev : FVec Ideal S2048x64 .f32) (b : Fin 2048) (d : Fin 64)
    (hprev : prev (ix2 b d) = psum V c (t.val / 586 * 2048 + b.val) d.val (t.val % 586 * 2048)) :
    k1_pay2 (F := Ideal) (grid1.coords t) (dstBlk V c t) (msgBlk V c t) prev (ix2 b d)
      = psum V c (t.val / 586 * 2048 + b.val) d.val ((t.val % 586 + 1) * 2048) := by
  refine (pay2_apply (grid1.coords t) (dstBlk V c t) (msgBlk V c t) prev b d).trans ?_
  rw [hprev, psum_tile, coords1_0 t, row_word]
  refine congrArg (psum V c (t.val / 586 * 2048 + b.val) d.val (t.val % 586 * 2048) + ·)
    (Finset.sum_congr rfl fun k _ => ?_)
  rw [dst_at V c t k, msg_at V c t k d]
  rfl

/-- THE INVARIANT. After the body at point `n` (node block `n / 586`, edge tile `n % 586`) the output block holds, at
    `(b, d)`, the contributions to node `(n / 586) · 2048 + b` of the edges of the tiles up to this one; after the last
    tile, of all the edges, times the node's degree factor. By induction on the point. -/
theorem outAt1_apply (c : Dev nD) : ∀ (n : ℕ) (hn : n < cfg1.N) (b : Fin 2048) (d : Fin 64),
    (n % 586 ≠ 585 → outAt1 V c n hn (ix2 b d) = psum V c (n / 586 * 2048 + b.val) d.val ((n % 586 + 1) * 2048))
    ∧ (n % 586 = 585 → outAt1 V c n hn (ix2 b d)
        = psum V c (n / 586 * 2048 + b.val) d.val 1200128 * degN V c (n / 586 * 2048 + b.val)) := by
  intro n
  induction n using Nat.strong_induction_on with
  | _ n ih =>
    intro hn b d
    by_cases h0 : n % 586 = 0
    · -- a first tile: the sum restarts from zero
      refine ⟨fun _ => ?_, fun h => absurd h (by omega)⟩
      refine (congrFun (outAt1_first V c ⟨n, hn⟩ h0) (ix2 b d)).trans ?_
      refine tile_step V c ⟨n, hn⟩ (k1_pay1 (F := Ideal)) b d ((pay1_apply b d).trans ?_)
      show (0 : EReal) = psum V c (n / 586 * 2048 + b.val) d.val (n % 586 * 2048)
      rw [h0, Nat.zero_mul]
      exact (psum_zero V c _ _).symm
    · -- a later tile: the point before is in the same node block, one tile back, and was not scaled
      have hn1 : n - 1 < cfg1.N := Nat.lt_of_le_of_lt (Nat.sub_le _ _) hn
      have hprev : outAt1 V c (n - 1) hn1 (ix2 b d)
          = psum V c (n / 586 * 2048 + b.val) d.val (n % 586 * 2048) := by
        have h := (ih (n - 1) (by omega) hn1 b d).1 (by omega)
        rw [show (n - 1) / 586 = n / 586 by omega, show (n - 1) % 586 + 1 = n % 586 by omega] at h
        exact h
      by_cases h1 : n % 586 = 585
      · refine ⟨fun h => absurd h1 h, fun _ => ?_⟩
        refine (congrFun (outAt1_last V c ⟨n, hn⟩ h1) (ix2 b d)).trans ?_
        refine (pay3_apply _ (degBlk V c ⟨n, hn⟩) b d).trans ?_
        have e1 := tile_step V c ⟨n, hn⟩ (outAt1 V c (n - 1) hn1) b d hprev
        have e2 := deg_at V c ⟨n, hn⟩ b
        have h586 : (n % 586 + 1) * 2048 = 1200128 := by omega
        refine (congrArg₂ (· * ·) e1 e2).trans ?_
        show psum V c (n / 586 * 2048 + b.val) d.val ((n % 586 + 1) * 2048) * degN V c (n / 586 * 2048 + b.val) = _
        rw [h586]
      · refine ⟨fun _ => ?_, fun h => absurd h h1⟩
        refine (congrFun (outAt1_mid V c ⟨n, hn⟩ h0 h1) (ix2 b d)).trans ?_
        exact tile_step V c ⟨n, hn⟩ (outAt1 V c (n - 1) hn1) b d hprev

/-! ## From the blocks to the array -/

/-- What the result array ends holding: at row `i`, column `d`, the contributions of all the edges to node `i`, times
    the node's degree factor. -/
def rstArr (c : Dev nD) : FVec Ideal S100352x64 .f32 :=
  fun i => psum V c (i 0).val (i 1).val 1200128 * degN V c (i 0).val

/-- What a point writes back — only the last tile's point of a node block does — is that node block's rows of `rstArr`. -/
theorem flushed_eq (c : Dev nD) (t : Fin cfg1.N) (hf : (cfg1.win 3).flush t = true) :
    (dat1 (F := Ideal) V c).flushed 3 t = ((cfg1.win 3).blk t).view.read (Elt Ideal) (rstArr V c) := by
  have h585 : t.val % 586 = 585 := (flush1_3 t).mp hf
  show (cfg1.win 3).cut (grid1.coords t) ((dat1 (F := Ideal) V c).after 3 t) = _
  rw [after1_3]
  refine funext fun (j : S2048x64.Idx) => ?_
  obtain ⟨b, d, rfl⟩ : ∃ (b : Fin 2048) (d : Fin 64), j = ix2 b d := ⟨j 0, j 1, eq_ix2 j⟩
  rw [View.read_apply]
  show outAt1 V c t.val t.isLt (ix2 b d) = rstArr V c (((cfg1.win 3).blk t).view.emb (ix2 b d))
  rw [(outAt1_apply V c t.val t.isLt b d).2 h585]
  have e0 : ((((cfg1.win 3).blk t).view.emb (ix2 b d) : S100352x64.Idx) 0).val = t.val / 586 * 2048 + b.val := by
    show win1_3.index t (0 : Fin 2) * 2048 + 1 * b.val = _
    rw [(idx_out t).1]; omega
  have e1 : ((((cfg1.win 3).blk t).view.emb (ix2 b d) : S100352x64.Idx) 1).val = d.val := by
    show win1_3.index t (1 : Fin 2) * 64 + 1 * d.val = _
    rw [(idx_out t).2]; omega
  show _ = psum V c ((((cfg1.win 3).blk t).view.emb (ix2 b d) : S100352x64.Idx) 0).val
      ((((cfg1.win 3).blk t).view.emb (ix2 b d) : S100352x64.Idx) 1).val 1200128
    * degN V c ((((cfg1.win 3).blk t).view.emb (ix2 b d) : S100352x64.Idx) 0).val
  rw [e0, e1]

/-- Every row of the result lies in the block some last-tile point writes back: row `r` in node block `r / 2048`'s. -/
theorem rows_covered (i : S100352x64.Idx) :
    ∃ t : Fin cfg1.N, (cfg1.win 3).flush t = true ∧ i ∈ ((cfg1.win 3).blk t).view.set := by
  have h0 : (i 0).val < 100352 := (i 0).isLt
  have h1 : (i 1).val < 64 := (i 1).isLt
  have hN : cfg1.N = 28714 := by decide
  have ht : (i 0).val / 2048 * 586 + 585 < cfg1.N := by rw [hN]; omega
  refine ⟨⟨(i 0).val / 2048 * 586 + 585, ht⟩, (flush1_3 _).mpr (by show ((i 0).val / 2048 * 586 + 585) % 586 = 585; omega), ?_⟩
  show i ∈ ((View.whole main_v23).slice (win1_3.rect ⟨(i 0).val / 2048 * 586 + 585, ht⟩)).set
  rw [View.set_slice_whole, Rect.mem_set_unit]
  intro a
  match a with
  | ⟨0, _⟩ =>
    show win1_3.index ⟨(i 0).val / 2048 * 586 + 585, ht⟩ (0 : Fin 2) * 2048 ≤ (i 0).val
      ∧ (i 0).val < win1_3.index ⟨(i 0).val / 2048 * 586 + 585, ht⟩ (0 : Fin 2) * 2048 + 2048
    rw [(idx_out ⟨(i 0).val / 2048 * 586 + 585, ht⟩).1]
    show ((i 0).val / 2048 * 586 + 585) / 586 * 2048 ≤ (i 0).val
      ∧ (i 0).val < ((i 0).val / 2048 * 586 + 585) / 586 * 2048 + 2048
    omega
  | ⟨1, _⟩ =>
    show win1_3.index ⟨(i 0).val / 2048 * 586 + 585, ht⟩ (1 : Fin 2) * 64 ≤ (i 1).val
      ∧ (i 1).val < win1_3.index ⟨(i 0).val / 2048 * 586 + 585, ht⟩ (1 : Fin 2) * 64 + 64
    rw [(idx_out ⟨(i 0).val / 2048 * 586 + 585, ht⟩).2]
    omega

/-- So the result array ends holding `rstArr`. -/
theorem rst_final (c : Dev nD) : (dat1 (F := Ideal) V c).arrAt 3 cfg1.N = rstArr V c :=
  (dat1 (F := Ideal) V c).arrAt_eq_of_cover 3 (rstArr V c) (flushed_eq V c) rows_covered

/-- THE REGION'S VALUE. After the scatter region, row `i`, column `d` of the result array is the sum over all the edges
    `j` of (1 if node `i` is edge `j`'s endpoint, else 0) times message `(j, d)`, times node `i`'s degree factor; the
    arrays as the region finds them. -/
theorem rst_value (c : Dev nD) (i : Fin 100352) (d : Fin 64) :
    (dat1 (F := Ideal) V c).arrAt 3 cfg1.N (ix2 i d)
      = (∑ j : Fin 1200128,
          (if BitVec.ofNat 32 i.val = (V c main_v21 : IVec S1x1200128 32) (ix2 (0 : Fin 1) j) then (1 : EReal) else 0)
            * (V c main_v22 : FVec Ideal S1200128x64 .bf16) (ix2 j d))
        * (V c main_v17 : FVec Ideal S100352x1 .f32) (ix2 i (0 : Fin 1)) := by
  rw [rst_final V c]
  show psum V c i.val d.val 1200128 * degN V c i.val = _
  have hs : psum V c i.val d.val 1200128
      = ∑ j : Fin 1200128,
          (if BitVec.ofNat 32 i.val = (V c main_v21 : IVec S1x1200128 32) (ix2 (0 : Fin 1) j) then (1 : EReal) else 0)
            * (V c main_v22 : FVec Ideal S1200128x64 .bf16) (ix2 j d) := by
    unfold psum
    rw [← Fin.sum_univ_eq_sum_range (fun x => edgeTerm V c i.val d.val x) 1200128]
    refine Finset.sum_congr rfl fun j _ => ?_
    unfold edgeTerm dstN msgN
    rw [dif_pos j.isLt, dif_pos ⟨j.isLt, d.isLt⟩]
  have hd : degN V c i.val = (V c main_v17 : FVec Ideal S100352x1 .f32) (ix2 i (0 : Fin 1)) := by
    unfold degN
    rw [dif_pos i.isLt]
  rw [hs, hd]

end Cert.KernelIdeal.ScatterValue

end
-- ==== Proof.HostValue.lean ====
/-
  The kernel program's host glue, read at an index. Before the first region the host computes, from
  the node features u and the edge endpoints src and dst: the two degree counts (a scatter-add of
  ones into zeros), each clipped below at 1 and raised to the power -1/2; the features padded by 352
  zero rows; the two factor vectors padded by 352 ones and laid out as columns; the two endpoint
  vectors padded by 128 copies of the sentinel 100352 and laid out as rows. Each host stretch is
  read once as a function of the buffers before it; the stretches are then chained, and the padded
  arrays are read at an index: inside the original extent the operand, outside it the padding value.
-/
import proofs.«429303_j7997229105212_1_alg».proof.Proof.Gen.KernelIdeal.Regions
import Idealize.ShloMosaic.Lib.StableHlo.Run
import Idealize.ShloMosaic.Lib.KernelVsHost
import Idealize.ShloMosaic.Lib.ValueLayout
import Idealize.ShloMosaic.Lib.ValueIdx
import Idealize.ShloMosaic.PureOps.Ideal.Laws

noncomputable section

namespace Cert.KernelIdeal.HostValue

open Cert.KernelIdeal
open Idealize.ShloMosaic Idealize.ShloMosaic.TcCoe Idealize.ShloMosaic.ValueIdx

/-! ## Padding and a unit axis, read at an index -/

section Layout
variable {α : Type}

/-- A vector padded at its end reads the operand inside the original extent and the padding value after it. -/
theorem pad1_apply {n n' hi : Nat} (x : (⟨1, ![n]⟩ : Shape).Idx → α) {u : Shape} (v : u.Idx → α)
    (hp : (⟨1, ![n]⟩ : Shape).Pads (![0] : Fin 1 → Nat) ![hi] ![0] ⟨1, ![n']⟩) (hu : 0 < u.numel) (j : Fin n') :
    pad ⟨1, ![n']⟩ ![0] ![hi] ![0] x v hp hu (ix1 j)
      = if h : j.val < n then x (ix1 ⟨j.val, h⟩) else v (Shape.Idx.first hu) := by
  by_cases h : j.val < n
  · rw [dif_pos h]
    exact pad_apply_of_inside _ _ _ x v hp hu _ (ix1 (⟨j.val, h⟩ : Fin n)) (by
      intro a
      have ha : a = 0 := Subsingleton.elim _ _
      subst ha
      show j.val = 0 + j.val * (0 + 1); omega)
  · rw [dif_neg h]
    exact pad_apply_of_not_inside _ _ _ x v hp hu _ (0 : Fin 1) (by
      intro hin
      have e : (j.val - 0) / 1 < n := hin.2.2
      rw [Nat.sub_zero, Nat.div_one] at e
      exact h e)

/-- A matrix padded by rows at its end reads the operand inside the original rows and the padding value after them. -/
theorem pad2_rows_apply {n n' k hi : Nat} (x : (⟨2, ![n, k]⟩ : Shape).Idx → α) {u : Shape} (v : u.Idx → α)
    (hp : (⟨2, ![n, k]⟩ : Shape).Pads (![0, 0] : Fin 2 → Nat) ![hi, 0] ![0, 0] ⟨2, ![n', k]⟩) (hu : 0 < u.numel)
    (a : Fin n') (d : Fin k) :
    pad ⟨2, ![n', k]⟩ ![0, 0] ![hi, 0] ![0, 0] x v hp hu (ix2 a d)
      = if h : a.val < n then x (ix2 ⟨a.val, h⟩ d) else v (Shape.Idx.first hu) := by
  by_cases h : a.val < n
  · rw [dif_pos h]
    exact pad_apply_of_inside _ _ _ x v hp hu _ (ix2 (⟨a.val, h⟩ : Fin n) d) (by
      intro b
      match b with
      | ⟨0, _⟩ => show a.val = 0 + a.val * (0 + 1); omega
      | ⟨1, _⟩ => show d.val = 0 + d.val * (0 + 1); omega)
  · rw [dif_neg h]
    exact pad_apply_of_not_inside _ _ _ x v hp hu _ (0 : Fin 2) (by
      intro hin
      have e : (a.val - 0) / 1 < n := hin.2.2
      rw [Nat.sub_zero, Nat.div_one] at e
      exact h e)

/-- A vector laid out as a column reads, at row i, the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-! ## The degree factors -/

variable {F : FTy → Type} [FloatOps F]

/-- One per edge: the updates of both degree counts. -/
def ones : FVec F S1200000 .f32 :=
  broadcastInDim S1200000 ![] Facts₀.bcast_S_S1200000 (constant (F := F) S_ .f32 0x3F800000#32)

/-- How many edges name each node at the endpoint vector idx: ones added into zeros at the named nodes. -/
def degCount (idx : IVec S1200000 32) : FVec F S100000 .f32 :=
  Host.scatterAdd scatter_S100000_S1200000x1_S1200000_n_0_0_1
    (broadcastInDim S100000 ![] Facts₀.bcast_S_S100000 (constant (F := F) S_ .f32 0x00000000#32))
    (broadcastInDim S1200000x1 ![0] Facts₀.bcast_S1200000_S1200000x1_0 idx) (ones (F := F))

/-- The count clipped below at 1, to the power -1/2. -/
def invDeg (idx : IVec S1200000 32) : FVec F S100000 .f32 :=
  Host.powf (maximumf (broadcastInDim S100000 ![] Facts₀.bcast_S_S100000 (constant (F := F) S_ .f32 0x3F800000#32))
      (degCount (F := F) idx))
    (broadcastInDim S100000 ![] Facts₀.bcast_S_S100000 (constant (F := F) S_ .f32 0xBF000000#32))

/-! ## Each host stretch, from any contents before it -/

section Stretches
variable (V : Valuation τ sig (Elt F))

theorem s0_v3 : StableHlo.after Gen.hostOps0 V (main_v3 : DevRef τ sig)
    = degCount (F := F) (V (main_arg1 : DevRef τ sig)) := by
  dsimp only [Gen.hostOps0]; after_results <;> rfl
theorem s0_v0 : StableHlo.after Gen.hostOps0 V (main_v0 : DevRef τ sig) = ones (F := F) := by
  dsimp only [Gen.hostOps0]; after_results <;> rfl
theorem s0_cst_1 : StableHlo.after Gen.hostOps0 V (main_cst_1 : DevRef τ sig)
    = constant (F := F) S_ .f32 0x3F800000#32 := by
  dsimp only [Gen.hostOps0]; after_results <;> rfl

theorem s1_v4 : StableHlo.after Gen.hostOps0_1 V (main_v4 : DevRef τ sig)
    = maximumf (broadcastInDim S100000 ![] Facts₀.bcast_S_S100000 (V (main_cst_1 : DevRef τ sig) : FVec F S_ .f32))
        (V (main_v3 : DevRef τ sig) : FVec F S100000 .f32) := by
  dsimp only [Gen.hostOps0_1]; after_results <;> rfl

theorem s2_v7 : StableHlo.after Gen.hostOps0_2 V (main_v7 : DevRef τ sig)
    = Host.scatterAdd scatter_S100000_S1200000x1_S1200000_n_0_0_1
        (broadcastInDim S100000 ![] Facts₀.bcast_S_S100000 (constant (F := F) S_ .f32 0x00000000#32))
        (broadcastInDim S1200000x1 ![0] Facts₀.bcast_S1200000_S1200000x1_0 (V (main_arg2 : DevRef τ sig) : IVec S1200000 32))
        (V (main_v0 : DevRef τ sig) : FVec F S1200000 .f32) := by
  dsimp only [Gen.hostOps0_2]; after_results <;> rfl
theorem s2_cst_3 : StableHlo.after Gen.hostOps0_2 V (main_cst_3 : DevRef τ sig)
    = constant (F := F) S_ .f32 0x3F800000#32 := by
  dsimp only [Gen.hostOps0_2]; after_results <;> rfl

theorem s3_v8 : StableHlo.after Gen.hostOps0_3 V (main_v8 : DevRef τ sig)
    = maximumf (broadcastInDim S100000 ![] Facts₀.bcast_S_S100000 (V (main_cst_3 : DevRef τ sig) : FVec F S_ .f32))
        (V (main_v7 : DevRef τ sig) : FVec F S100000 .f32) := by
  dsimp only [Gen.hostOps0_3]; after_results <;> rfl

theorem s4_v10 : StableHlo.after Gen.hostOps0_4 V (main_v10 : DevRef τ sig)
    = Host.powf (V (main_v4 : DevRef τ sig) : FVec F S100000 .f32)
        (broadcastInDim S100000 ![] Facts₀.bcast_S_S100000 (constant (F := F) S_ .f32 0xBF000000#32)) := by
  dsimp only [Gen.hostOps0_4]; after_results <;> rfl
theorem s4_v12 : StableHlo.after Gen.hostOps0_4 V (main_v12 : DevRef τ sig)
    = Host.powf (V (main_v8 : DevRef τ sig) : FVec F S100000 .f32)
        (broadcastInDim S100000 ![] Facts₀.bcast_S_S100000 (constant (F := F) S_ .f32 0xBF000000#32)) := by
  dsimp only [Gen.hostOps0_4]; after_results <;> rfl
theorem s4_c : StableHlo.after Gen.hostOps0_4 V (main_c : DevRef τ sig) = constantI S_ 32 0#32 := by
  dsimp only [Gen.hostOps0_4]; after_results <;> rfl

theorem s5_v13 : StableHlo.after Gen.hostOps0_5 V (main_v13 : DevRef τ sig)
    = pad S100352x64 ![0, 0] ![352, 0] ![0, 0] (V (main_arg0 : DevRef τ sig) : FVec F S100000x64 .f32)
        (sitofp (F := F) .f32 (V (main_c : DevRef τ sig) : IVec S_ 32))
        Facts₀.pads_S100000x64_S100352x64_03520_000 Facts₀.h_S_ := by
  dsimp only [Gen.hostOps0_5]; after_results <;> rfl

theorem s6_cst_6 : StableHlo.after Gen.hostOps0_6 V (main_cst_6 : DevRef τ sig)
    = constant (F := F) S_ .f32 0x3F800000#32 := by
  dsimp only [Gen.hostOps0_6]; after_results <;> rfl

theorem s7_v14 : StableHlo.after Gen.hostOps0_7 V (main_v14 : DevRef τ sig)
    = pad S100352 ![0] ![352] ![0] (V (main_v10 : DevRef τ sig) : FVec F S100000 .f32)
        (V (main_cst_6 : DevRef τ sig) : FVec F S_ .f32) Facts₀.pads_S100000_S100352_03520 Facts₀.h_S_ := by
  dsimp only [Gen.hostOps0_7]; after_results <;> rfl

theorem s8_v15 : StableHlo.after Gen.hostOps0_8 V (main_v15 : DevRef τ sig)
    = shapeCast S100352x1 (V (main_v14 : DevRef τ sig) : FVec F S100352 .f32) Facts₀.shapeCasts_S100352_S100352x1 := by
  dsimp only [Gen.hostOps0_8]; after_results <;> rfl
theorem s8_cst_7 : StableHlo.after Gen.hostOps0_8 V (main_cst_7 : DevRef τ sig)
    = constant (F := F) S_ .f32 0x3F800000#32 := by
  dsimp only [Gen.hostOps0_8]; after_results <;> rfl

theorem s9_v16 : StableHlo.after Gen.hostOps0_9 V (main_v16 : DevRef τ sig)
    = pad S100352 ![0] ![352] ![0] (V (main_v12 : DevRef τ sig) : FVec F S100000 .f32)
        (V (main_cst_7 : DevRef τ sig) : FVec F S_ .f32) Facts₀.pads_S100000_S100352_03520 Facts₀.h_S_ := by
  dsimp only [Gen.hostOps0_9]; after_results <;> rfl

theorem s10_v17 : StableHlo.after Gen.hostOps0_10 V (main_v17 : DevRef τ sig)
    = shapeCast S100352x1 (V (main_v16 : DevRef τ sig) : FVec F S100352 .f32) Facts₀.shapeCasts_S100352_S100352x1 := by
  dsimp only [Gen.hostOps0_10]; after_results <;> rfl
theorem s10_c_8 : StableHlo.after Gen.hostOps0_10 V (main_c_8 : DevRef τ sig) = constantI S_ 32 100352#32 := by
  dsimp only [Gen.hostOps0_10]; after_results <;> rfl

theorem s11_v18 : StableHlo.after Gen.hostOps0_11 V (main_v18 : DevRef τ sig)
    = pad S1200128 ![0] ![128] ![0] (V (main_arg1 : DevRef τ sig) : IVec S1200000 32)
        (V (main_c_8 : DevRef τ sig) : IVec S_ 32) Facts₀.pads_S1200000_S1200128_01280 Facts₀.h_S_ := by
  dsimp only [Gen.hostOps0_11]; after_results <;> rfl

theorem s12_v19 : StableHlo.after Gen.hostOps0_12 V (main_v19 : DevRef τ sig)
    = shapeCast S1x1200128 (V (main_v18 : DevRef τ sig) : IVec S1200128 32) Facts₀.shapeCasts_S1200128_S1x1200128 := by
  dsimp only [Gen.hostOps0_12]; after_results <;> rfl
theorem s12_c_9 : StableHlo.after Gen.hostOps0_12 V (main_c_9 : DevRef τ sig) = constantI S_ 32 100352#32 := by
  dsimp only [Gen.hostOps0_12]; after_results <;> rfl

theorem s13_v20 : StableHlo.after Gen.hostOps0_13 V (main_v20 : DevRef τ sig)
    = pad S1200128 ![0] ![128] ![0] (V (main_arg2 : DevRef τ sig) : IVec S1200000 32)
        (V (main_c_9 : DevRef τ sig) : IVec S_ 32) Facts₀.pads_S1200000_S1200128_01280 Facts₀.h_S_ := by
  dsimp only [Gen.hostOps0_13]; after_results <;> rfl

theorem s14_v21 : StableHlo.after Gen.hostOps0_14 V (main_v21 : DevRef τ sig)
    = shapeCast S1x1200128 (V (main_v20 : DevRef τ sig) : IVec S1200128 32) Facts₀.shapeCasts_S1200128_S1x1200128 := by
  dsimp only [Gen.hostOps0_14]; after_results <;> rfl

end Stretches

/-! ## The padded arrays, as functions of the arguments -/

/-- The node features with 352 rows of the padding value (the integer 0 converted) below them. -/
def uPad (u : FVec F S100000x64 .f32) : FVec F S100352x64 .f32 :=
  pad S100352x64 ![0, 0] ![352, 0] ![0, 0] u (sitofp (F := F) .f32 (constantI S_ 32 0#32))
    Facts₀.pads_S100000x64_S100352x64_03520_000 Facts₀.h_S_

/-- A per-node factor vector with 352 ones after it, laid out as a column. -/
def colPad (x : FVec F S100000 .f32) : FVec F S100352x1 .f32 :=
  shapeCast S100352x1
    (pad S100352 ![0] ![352] ![0] x (constant (F := F) S_ .f32 0x3F800000#32) Facts₀.pads_S100000_S100352_03520 Facts₀.h_S_)
    Facts₀.shapeCasts_S100352_S100352x1

/-- An endpoint vector with 128 copies of the sentinel 100352 after it, laid out as a row. -/
def rowPad (x : IVec S1200000 32) : IVec S1x1200128 32 :=
  shapeCast S1x1200128
    (pad S1200128 ![0] ![128] ![0] x (constantI S_ 32 100352#32) Facts₀.pads_S1200000_S1200128_01280 Facts₀.h_S_)
    Facts₀.shapeCasts_S1200128_S1x1200128

/-! ## The chain to the first region's entry -/

section Chain
variable (m : (ℓ : Loc nD τ sig) → Buf (Elt F) ℓ) (c : Dev nD)

/-- No stretch writes an argument. -/
theorem V5_arg0 : Gen.V5 m c main_arg0 = Gen.V0 m c main_arg0 :=
  (Gen.V5_of m c main_arg0 (by decide)).trans <| (Gen.V4_of m c main_arg0 (by decide)).trans <|
  (Gen.V3_of m c main_arg0 (by decide)).trans <| (Gen.V2_of m c main_arg0 (by decide)).trans <|
  Gen.V1_of m c main_arg0 (by decide)
theorem V2_arg2 : Gen.V2 m c main_arg2 = Gen.V0 m c main_arg2 :=
  (Gen.V2_of m c main_arg2 (by decide)).trans <| Gen.V1_of m c main_arg2 (by decide)
theorem V11_arg1 : Gen.V11 m c main_arg1 = Gen.V0 m c main_arg1 :=
  (Gen.V11_of m c main_arg1 (by decide)).trans <| (Gen.V10_of m c main_arg1 (by decide)).trans <|
  (Gen.V9_of m c main_arg1 (by decide)).trans <| (Gen.V8_of m c main_arg1 (by decide)).trans <|
  (Gen.V7_of m c main_arg1 (by decide)).trans <| (Gen.V6_of m c main_arg1 (by decide)).trans <|
  (Gen.V5_of m c main_arg1 (by decide)).trans <| (Gen.V4_of m c main_arg1 (by decide)).trans <|
  (Gen.V3_of m c main_arg1 (by decide)).trans <| (Gen.V2_of m c main_arg1 (by decide)).trans <|
  Gen.V1_of m c main_arg1 (by decide)
theorem V13_arg2 : Gen.V13 m c main_arg2 = Gen.V0 m c main_arg2 :=
  (Gen.V13_of m c main_arg2 (by decide)).trans <| (Gen.V12_of m c main_arg2 (by decide)).trans <|
  (Gen.V11_of m c main_arg2 (by decide)).trans <| (Gen.V10_of m c main_arg2 (by decide)).trans <|
  (Gen.V9_of m c main_arg2 (by decide)).trans <| (Gen.V8_of m c main_arg2 (by decide)).trans <|
  (Gen.V7_of m c main_arg2 (by decide)).trans <| (Gen.V6_of m c main_arg2 (by decide)).trans <|
  (Gen.V5_of m c main_arg2 (by decide)).trans <| (Gen.V4_of m c main_arg2 (by decide)).trans <|
  (Gen.V3_of m c main_arg2 (by decide)).trans <| V2_arg2 m c

/-! ### The out-degree factor -/

theorem V1_v3 : Gen.V1 m c main_v3 = degCount (F := F) (Gen.V0 m c main_arg1) := s0_v3 (Gen.V0 m c)
theorem V1_cst_1 : Gen.V1 m c main_cst_1 = constant (F := F) S_ .f32 0x3F800000#32 := s0_cst_1 (Gen.V0 m c)
theorem V1_v0 : Gen.V1 m c main_v0 = ones (F := F) := s0_v0 (Gen.V0 m c)
theorem V2_v4 : Gen.V2 m c main_v4
    = maximumf (broadcastInDim S100000 ![] Facts₀.bcast_S_S100000 (constant (F := F) S_ .f32 0x3F800000#32))
        (degCount (F := F) (Gen.V0 m c main_arg1)) :=
  (s1_v4 (Gen.V1 m c)).trans (by rw [V1_cst_1, V1_v3])
theorem V4_v4 : Gen.V4 m c main_v4 = Gen.V2 m c main_v4 :=
  (Gen.V4_of m c main_v4 (by decide)).trans (Gen.V3_of m c main_v4 (by decide))
theorem V5_v10 : Gen.V5 m c main_v10 = invDeg (F := F) (Gen.V0 m c main_arg1) :=
  (s4_v10 (Gen.V4 m c)).trans (by rw [V4_v4, V2_v4]; rfl)

/-! ### The in-degree factor -/

theorem V2_v0 : Gen.V2 m c main_v0 = ones (F := F) := (Gen.V2_of m c main_v0 (by decide)).trans (V1_v0 m c)
theorem V3_v7 : Gen.V3 m c main_v7 = degCount (F := F) (Gen.V0 m c main_arg2) :=
  (s2_v7 (Gen.V2 m c)).trans (by rw [V2_arg2, V2_v0]; rfl)
theorem V3_cst_3 : Gen.V3 m c main_cst_3 = constant (F := F) S_ .f32 0x3F800000#32 := s2_cst_3 (Gen.V2 m c)
theorem V4_v8 : Gen.V4 m c main_v8
    = maximumf (broadcastInDim S100000 ![] Facts₀.bcast_S_S100000 (constant (F := F) S_ .f32 0x3F800000#32))
        (degCount (F := F) (Gen.V0 m c main_arg2)) :=
  (s3_v8 (Gen.V3 m c)).trans (by rw [V3_cst_3, V3_v7])
theorem V5_v12 : Gen.V5 m c main_v12 = invDeg (F := F) (Gen.V0 m c main_arg2) :=
  (s4_v12 (Gen.V4 m c)).trans (by rw [V4_v8]; rfl)
theorem V5_c : Gen.V5 m c main_c = constantI S_ 32 0#32 := s4_c (Gen.V4 m c)

/-! ### The padded features -/

theorem V6_v13 : Gen.V6 m c main_v13 = uPad (F := F) (Gen.V0 m c main_arg0) :=
  (s5_v13 (Gen.V5 m c)).trans (by rw [V5_arg0, V5_c]; rfl)
theorem V15_v13 : Gen.V15 m c main_v13 = uPad (F := F) (Gen.V0 m c main_arg0) :=
  (Gen.V15_of m c main_v13 (by decide)).trans <| (Gen.V14_of m c main_v13 (by decide)).trans <|
  (Gen.V13_of m c main_v13 (by decide)).trans <| (Gen.V12_of m c main_v13 (by decide)).trans <|
  (Gen.V11_of m c main_v13 (by decide)).trans <| (Gen.V10_of m c main_v13 (by decide)).trans <|
  (Gen.V9_of m c main_v13 (by decide)).trans <| (Gen.V8_of m c main_v13 (by decide)).trans <|
  (Gen.V7_of m c main_v13 (by decide)).trans <| V6_v13 m c

/-! ### The out-degree factor's column -/

theorem V7_v10 : Gen.V7 m c main_v10 = invDeg (F := F) (Gen.V0 m c main_arg1) :=
  (Gen.V7_of m c main_v10 (by decide)).trans <| (Gen.V6_of m c main_v10 (by decide)).trans <| V5_v10 m c
theorem V7_cst_6 : Gen.V7 m c main_cst_6 = constant (F := F) S_ .f32 0x3F800000#32 := s6_cst_6 (Gen.V6 m c)
theorem V8_v14 : Gen.V8 m c main_v14
    = pad S100352 ![0] ![352] ![0] (invDeg (F := F) (Gen.V0 m c main_arg1)) (constant (F := F) S_ .f32 0x3F800000#32)
        Facts₀.pads_S100000_S100352_03520 Facts₀.h_S_ :=
  (s7_v14 (Gen.V7 m c)).trans (by rw [V7_v10, V7_cst_6])
theorem V9_v15 : Gen.V9 m c main_v15 = colPad (F := F) (invDeg (F := F) (Gen.V0 m c main_arg1)) :=
  (s8_v15 (Gen.V8 m c)).trans (by rw [V8_v14]; rfl)
theorem V15_v15 : Gen.V15 m c main_v15 = colPad (F := F) (invDeg (F := F) (Gen.V0 m c main_arg1)) :=
  (Gen.V15_of m c main_v15 (by decide)).trans <| (Gen.V14_of m c main_v15 (by decide)).trans <|
  (Gen.V13_of m c main_v15 (by decide)).trans <| (Gen.V12_of m c main_v15 (by decide)).trans <|
  (Gen.V11_of m c main_v15 (by decide)).trans <| (Gen.V10_of m c main_v15 (by decide)).trans <| V9_v15 m c

/-! ### The in-degree factor's column -/

theorem V9_v12 : Gen.V9 m c main_v12 = invDeg (F := F) (Gen.V0 m c main_arg2) :=
  (Gen.V9_of m c main_v12 (by decide)).trans <| (Gen.V8_of m c main_v12 (by decide)).trans <|
  (Gen.V7_of m c main_v12 (by decide)).trans <| (Gen.V6_of m c main_v12 (by decide)).trans <| V5_v12 m c
theorem V9_cst_7 : Gen.V9 m c main_cst_7 = constant (F := F) S_ .f32 0x3F800000#32 := s8_cst_7 (Gen.V8 m c)
theorem V10_v16 : Gen.V10 m c main_v16
    = pad S100352 ![0] ![352] ![0] (invDeg (F := F) (Gen.V0 m c main_arg2)) (constant (F := F) S_ .f32 0x3F800000#32)
        Facts₀.pads_S100000_S100352_03520 Facts₀.h_S_ :=
  (s9_v16 (Gen.V9 m c)).trans (by rw [V9_v12, V9_cst_7])
theorem V11_v17 : Gen.V11 m c main_v17 = colPad (F := F) (invDeg (F := F) (Gen.V0 m c main_arg2)) :=
  (s10_v17 (Gen.V10 m c)).trans (by rw [V10_v16]; rfl)
theorem V15_v17 : Gen.V15 m c main_v17 = colPad (F := F) (invDeg (F := F) (Gen.V0 m c main_arg2)) :=
  (Gen.V15_of m c main_v17 (by decide)).trans <| (Gen.V14_of m c main_v17 (by decide)).trans <|
  (Gen.V13_of m c main_v17 (by decide)).trans <| (Gen.V12_of m c main_v17 (by decide)).trans <| V11_v17 m c

/-! ### The endpoint rows -/

theorem V11_c_8 : Gen.V11 m c main_c_8 = constantI S_ 32 100352#32 := s10_c_8 (Gen.V10 m c)
theorem V12_v18 : Gen.V12 m c main_v18
    = pad S1200128 ![0] ![128] ![0] (Gen.V0 m c main_arg1 : IVec S1200000 32) (constantI S_ 32 100352#32)
        Facts₀.pads_S1200000_S1200128_01280 Facts₀.h_S_ :=
  (s11_v18 (Gen.V11 m c)).trans (by rw [V11_arg1, V11_c_8])
theorem V13_v19 : Gen.V13 m c main_v19 = rowPad (Gen.V0 m c main_arg1) :=
  (s12_v19 (Gen.V12 m c)).trans (by rw [V12_v18]; rfl)
theorem V15_v19 : Gen.V15 m c main_v19 = rowPad (Gen.V0 m c main_arg1) :=
  (Gen.V15_of m c main_v19 (by decide)).trans <| (Gen.V14_of m c main_v19 (by decide)).trans <| V13_v19 m c

theorem V13_c_9 : Gen.V13 m c main_c_9 = constantI S_ 32 100352#32 := s12_c_9 (Gen.V12 m c)
theorem V14_v20 : Gen.V14 m c main_v20
    = pad S1200128 ![0] ![128] ![0] (Gen.V0 m c main_arg2 : IVec S1200000 32) (constantI S_ 32 100352#32)
        Facts₀.pads_S1200000_S1200128_01280 Facts₀.h_S_ :=
  (s13_v20 (Gen.V13 m c)).trans (by rw [V13_arg2, V13_c_9])
theorem V15_v21 : Gen.V15 m c main_v21 = rowPad (Gen.V0 m c main_arg2) :=
  (s14_v21 (Gen.V14 m c)).trans (by rw [V14_v20]; rfl)

end Chain

/-! ## The padded arrays read at an index -/

/-- An endpoint row: the endpoint inside the 1200000 edges, the sentinel after them. -/
theorem rowPad_apply (x : IVec S1200000 32) (u : Fin 1) (j : Fin 1200128) :
    rowPad x (ix2 u j) = if h : j.val < 1200000 then x (ix1 ⟨j.val, h⟩) else 100352#32 := by
  unfold rowPad
  refine (shapeCast_a_1a_apply _ _ u j).trans ?_
  refine (pad1_apply _ _ _ _ j).trans ?_
  rfl

/-- A factor column at the ideal instance: the factor inside the 100000 nodes, 1 after them. -/
theorem colPad_apply (x : FVec Ideal S100000 .f32) (a : Fin 100352) (u : Fin 1) :
    colPad (F := Ideal) x (ix2 a u) = if h : a.val < 100000 then x (ix1 ⟨a.val, h⟩) else 1 := by
  unfold colPad
  refine (shapeCast_a_a1_apply _ _ a u).trans ?_
  refine (pad1_apply _ _ _ _ a).trans ?_
  have h1 : (constant (F := Ideal) S_ .f32 0x3F800000#32) (Shape.Idx.first Facts₀.h_S_) = (1 : EReal) := by
    show Ideal.ofBits .f32 0x3F800000#32 = 1
    simp [Ideal.ofBits, Ideal.ieee, -EReal.coe_mul]; norm_num
  rw [h1]

/-- The padded features at the ideal instance: the feature inside the 100000 nodes, 0 after them. -/
theorem uPad_apply (u : FVec Ideal S100000x64 .f32) (a : Fin 100352) (d : Fin 64) :
    uPad (F := Ideal) u (ix2 a d) = if h : a.val < 100000 then u (ix2 ⟨a.val, h⟩ d) else 0 := by
  unfold uPad
  refine (pad2_rows_apply _ _ _ _ a d).trans ?_
  have h0 : (sitofp (F := Ideal) .f32 (constantI S_ 32 0#32)) (Shape.Idx.first Facts₀.h_S_) = (0 : EReal) := by
    show (((0#32 : BitVec 32).toInt : ℝ) : EReal) = 0
    rw [show (0#32 : BitVec 32).toInt = 0 from by decide]; simp
  rw [h0]

/-! ## The first region's window arrays at its entry, at the ideal instance -/

section Entry
variable (m : (ℓ : Loc nD τ sig) → Buf (Elt Ideal) ℓ) (c : Dev nD)

/-- The node features, the source endpoints and the destination endpoints as launched, at their literal types. -/
abbrev argU : FVec Ideal S100000x64 .f32 := m ((c : Thread nD τ).loc main_arg0)
abbrev argSrc : IVec S1200000 32 := m ((c : Thread nD τ).loc main_arg1)
abbrev argDst : IVec S1200000 32 := m ((c : Thread nD τ).loc main_arg2)

/-- Window 0 of the gather: the padded node features. -/
theorem v13_apply (a : Fin 100352) (d : Fin 64) :
    (Gen.V15 m c main_v13 : FVec Ideal S100352x64 .f32) (ix2 a d)
      = if h : a.val < 100000 then argU m c (ix2 ⟨a.val, h⟩ d) else 0 :=
  (congrFun (V15_v13 m c) (ix2 a d)).trans (uPad_apply _ a d)

/-- Window 1 of the gather: the out-degree factor's column. -/
theorem v15_apply (a : Fin 100352) (u : Fin 1) :
    (Gen.V15 m c main_v15 : FVec Ideal S100352x1 .f32) (ix2 a u)
      = if h : a.val < 100000 then invDeg (F := Ideal) (argSrc m c) (ix1 ⟨a.val, h⟩) else 1 :=
  (congrFun (V15_v15 m c) (ix2 a u)).trans (colPad_apply _ a u)

/-- Window 2 of the scatter: the in-degree factor's column. -/
theorem v17_apply (a : Fin 100352) (u : Fin 1) :
    (Gen.V15 m c main_v17 : FVec Ideal S100352x1 .f32) (ix2 a u)
      = if h : a.val < 100000 then invDeg (F := Ideal) (argDst m c) (ix1 ⟨a.val, h⟩) else 1 :=
  (congrFun (V15_v17 m c) (ix2 a u)).trans (colPad_apply _ a u)

/-- Window 2 of the gather: the source endpoints' row. -/
theorem v19_apply (u : Fin 1) (j : Fin 1200128) :
    (Gen.V15 m c main_v19 : IVec S1x1200128 32) (ix2 u j)
      = if h : j.val < 1200000 then argSrc m c (ix1 ⟨j.val, h⟩) else 100352#32 :=
  (congrFun (V15_v19 m c) (ix2 u j)).trans (rowPad_apply _ u j)

/-- Window 1 of the scatter: the destination endpoints' row. -/
theorem v21_apply (u : Fin 1) (j : Fin 1200128) :
    (Gen.V15 m c main_v21 : IVec S1x1200128 32) (ix2 u j)
      = if h : j.val < 1200000 then argDst m c (ix1 ⟨j.val, h⟩) else 100352#32 :=
  (congrFun (V15_v21 m c) (ix2 u j)).trans (rowPad_apply _ u j)

end Entry

end Cert.KernelIdeal.HostValue

end
-- ==== Proof.SumLaw.lean ====
/-
  The law that joins the two programs' results, over the extended reals.

  Node features u (100000 rows of 64), degree factors oi and ii (one per node), edge endpoints src and dst (1200000
  words each). One side works on PADDED data: the features and the factors padded to 100352 rows (by 0, and by 1),
  the endpoints padded to 1200128 edges by the word 100352, which names no row. Its message for a padded edge j is the
  padded, scaled row that the padded source names — 0 when it names no row —, and its row i is the sum over ALL
  padded edges of [i = padded destination of j] · message j, times the padded factor of i. The other side's row i is
  the sum over the real edges whose destination, read as a signed number, is i, of the scaled row the source names,
  times the factor of i.

  Where every source is a row number (0 ≤ src < 100000) the two agree. A padding edge's destination is 100352, which
  is no i < 100000, so its term is 0 · message = 0. A real edge's source is in range, so its message is the scaled
  row itself. And for i < 100000 < 2^31 the word i equals a word x exactly when x, read signed, is i. Only
  0 · x = 0, 1 · x = x, x + 0 = x and the re-indexing of a finite sum are used: no finiteness of the entries.
-/
import Mathlib.Data.EReal.Basic
import Mathlib.Algebra.BigOperators.Fin

namespace Cert.SumLaw

open Finset

/-! ## Words -/

/-- A word that, read signed, is a row number has that number as its unsigned value. -/
theorem toNat_lt_of_toInt (x : BitVec 32) (h : 0 ≤ x.toInt ∧ x.toInt < 100000) : x.toNat < 100000 := by
  have hx := x.isLt
  rw [BitVec.toInt_eq_toNat_cond] at h
  split_ifs at h <;> omega

/-- For a row number n, the word n equals a word x exactly when x, read signed, is n. -/
theorem ofNat_eq_iff_toInt (n : ℕ) (hn : n < 100000) (x : BitVec 32) :
    BitVec.ofNat 32 n = x ↔ x.toInt = (n : ℤ) := by
  have hx := x.isLt
  constructor
  · rintro rfl
    rw [BitVec.toInt_eq_toNat_cond, BitVec.toNat_ofNat]
    split_ifs <;> omega
  · intro h
    apply BitVec.eq_of_toNat_eq
    rw [BitVec.toNat_ofNat]
    rw [BitVec.toInt_eq_toNat_cond] at h
    split_ifs at h <;> omega

/-- The padding word 100352 is no row number's word. -/
theorem ofNat_ne_pad (n : ℕ) (hn : n < 100000) : BitVec.ofNat 32 n ≠ 100352#32 := by
  intro h
  have h2 := congrArg BitVec.toNat h
  rw [BitVec.toNat_ofNat, BitVec.toNat_ofNat] at h2
  omega

/-! ## A sum whose tail vanishes -/

/-- A sum over n positions whose terms vanish from position m on is the sum over the first m. -/
theorem sum_trunc_le {M : Type*} [AddCommMonoid M] {m n : ℕ} (hmn : m ≤ n) (f : Fin n → M)
    (hf : ∀ j : Fin n, m ≤ j.val → f j = 0) :
    ∑ j : Fin n, f j = ∑ e : Fin m, f (Fin.castLE hmn e) := by
  obtain ⟨k, rfl⟩ := Nat.exists_eq_add_of_le hmn
  rw [Fin.sum_trunc f (fun j => hf _ (by simp))]
  rfl

/-! ## The law -/

theorem sum_law
    (u : Fin 100000 → Fin 64 → EReal) (oi ii : Fin 100000 → EReal) (src dst : Fin 1200000 → BitVec 32)
    (hsrc : ∀ e, 0 ≤ (src e).toInt ∧ (src e).toInt < 100000)
    (up : Fin 100352 → Fin 64 → EReal) (hup : ∀ a d, up a d = if h : a.val < 100000 then u ⟨a.val, h⟩ d else 0)
    (op ip : Fin 100352 → EReal) (hop : ∀ a, op a = if h : a.val < 100000 then oi ⟨a.val, h⟩ else 1)
    (hip : ∀ a, ip a = if h : a.val < 100000 then ii ⟨a.val, h⟩ else 1)
    (sp dp : Fin 1200128 → BitVec 32)
    (hsp : ∀ j, sp j = if h : j.val < 1200000 then src ⟨j.val, h⟩ else 100352#32)
    (hdp : ∀ j, dp j = if h : j.val < 1200000 then dst ⟨j.val, h⟩ else 100352#32)
    (msg : Fin 1200128 → Fin 64 → EReal)
    (hmsg : ∀ j d, msg j d = if h : (sp j).toNat < 100352 then up ⟨(sp j).toNat, h⟩ d * op ⟨(sp j).toNat, h⟩ else 0)
    (i : Fin 100000) (d : Fin 64) :
    (∑ j : Fin 1200128, (if BitVec.ofNat 32 i.val = dp j then (1 : EReal) else 0) * msg j d) * ip ⟨i.val, by omega⟩
      = (∑ e : Fin 1200000, if (dst e).toInt = (i.val : ℤ)
            then u ⟨(src e).toNat, toNat_lt_of_toInt (src e) (hsrc e)⟩ d * oi ⟨(src e).toNat, toNat_lt_of_toInt (src e) (hsrc e)⟩
            else 0) * ii i := by
  have hmn : 1200000 ≤ 1200128 := by omega
  have hipi : ip ⟨i.val, by omega⟩ = ii i := (hip _).trans (dif_pos i.isLt)
  rw [hipi]
  refine congrArg (fun s => s * ii i) ?_
  refine (sum_trunc_le hmn (fun j => (if BitVec.ofNat 32 i.val = dp j then (1 : EReal) else 0) * msg j d) ?_).trans ?_
  · intro j hj
    have hd : dp j = 100352#32 := (hdp j).trans (dif_neg (by omega))
    show (if BitVec.ofNat 32 i.val = dp j then (1 : EReal) else 0) * msg j d = 0
    rw [hd, if_neg (ofNat_ne_pad i.val i.isLt), zero_mul]
  · refine Finset.sum_congr rfl fun e _ => ?_
    have hj : (Fin.castLE hmn e).val < 1200000 := e.isLt
    have hd : dp (Fin.castLE hmn e) = dst e := (hdp _).trans (dif_pos hj)
    have hs : sp (Fin.castLE hmn e) = src e := (hsp _).trans (dif_pos hj)
    have hlt : (src e).toNat < 100000 := toNat_lt_of_toInt (src e) (hsrc e)
    have hm : msg (Fin.castLE hmn e) d = u ⟨(src e).toNat, hlt⟩ d * oi ⟨(src e).toNat, hlt⟩ := by
      rw [hmsg, hs, dif_pos (show (src e).toNat < 100352 by omega), hup, hop, dif_pos hlt, dif_pos hlt]
    show (if BitVec.ofNat 32 i.val = dp (Fin.castLE hmn e) then (1 : EReal) else 0) * msg (Fin.castLE hmn e) d = _
    rw [hd, hm]
    by_cases hc : (dst e).toInt = (i.val : ℤ)
    · rw [if_pos hc, if_pos ((ofNat_eq_iff_toInt i.val i.isLt (dst e)).mpr hc), one_mul]
    · rw [if_neg hc, if_neg (fun h => hc ((ofNat_eq_iff_toInt i.val i.isLt (dst e)).mp h)), zero_mul]

end Cert.SumLaw
-- ==== Proof.RefValue.lean ====
/-
  The reference's value at an index. The reference normalises the node features by the inverse
  square root of the clipped out-degree, gathers them along the source indices, adds the gathered
  rows into the destination rows, and scales by the inverse square root of the clipped in-degree.
  Read at (i, d) under the range fact on the source indices, the result is the sum over the edges
  whose destination is i of the source row's normalised feature, times the destination's factor.
  The two degree factors are kept as they are computed, never opened. A gather of whole rows reads
  the operand's row at the start index clamped into the operand; an accumulating scatter of whole
  rows adds, at (i, d), entry d of every update row whose index read signed is i.
-/
import proofs.«429303_j7997229105212_1_alg».proof.Proof.Gen.ReferenceIdeal.Read
import Idealize.ShloMosaic.Lib.ValueIdx
import Idealize.ShloMosaic.Lib.Affine
import Idealize.ShloMosaic.PureOps.Ideal.Laws

noncomputable section

namespace Cert.ReferenceIdeal.RefValue

open Cert.ReferenceIdeal
open Idealize.ShloMosaic Idealize.ShloMosaic.ValueIdx

/-! ## A gather of whole rows -/

section RowGather
variable {α : Type}

abbrev rowGatherDims (N K E : Nat)
    (wf : GatherDims.WF ⟨2, ![N, K]⟩ ⟨2, ![E, 1]⟩ ⟨2, ![E, K]⟩ [1] [0] [] [0] [] 1 ![1, K]) :
    GatherDims ⟨2, ![N, K]⟩ ⟨2, ![E, 1]⟩ ⟨2, ![E, K]⟩ where
  offsetDims := [1]
  collapsedSliceDims := [0]
  operandBatchingDims := []
  startIndicesBatchingDims := []
  startIndexMap := [0]
  indexVectorDim := 1
  sliceSizes := ![1, K]
  wf := wf

theorem rowGather_apply {N K E w : Nat} (hN : 0 < N)
    (wf : GatherDims.WF ⟨2, ![N, K]⟩ ⟨2, ![E, 1]⟩ ⟨2, ![E, K]⟩ [1] [0] [] [0] [] 1 ![1, K])
    (x : (⟨2, ![N, K]⟩ : Shape).Idx → α) (idx : IVec ⟨2, ![E, 1]⟩ w) (e : Fin E) (k : Fin K) :
    Host.gather (rowGatherDims N K E wf) x idx (ix2 e k)
      = x (ix2 ⟨min (idx (ix2 e (0 : Fin 1))).toInt.toNat (N - 1), by omega⟩ k) := by
  unfold Host.gather
  congr 1
  funext a
  refine Fin.ext ?_
  match a with
  | ⟨0, _⟩ =>
    show (rowGatherDims N K E wf).start (ix2 e k) idx 0 + (rowGatherDims N K E wf).batchCoord (ix2 e k) 0
        + (rowGatherDims N K E wf).offCoord (ix2 e k) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N K E wf).startIndexMap from List.mem_singleton.mpr rfl)]
    have hsi : (rowGatherDims N K E wf).siIdx (ix2 e k) ⟨List.idxOf (0 : Fin 2) (rowGatherDims N K E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N K E wf).start (ix2 e k) idx 1 + (rowGatherDims N K E wf).batchCoord (ix2 e k) 1
        + (rowGatherDims N K E wf).offCoord (ix2 e k) 1 = k.val
    rw [GatherDims.batchCoord_eq_zero _ _ _ List.not_mem_nil]
    have hst : (rowGatherDims N K E wf).start (ix2 e k) idx 1 = 0 := by
      unfold GatherDims.start
      rw [dif_neg (fun h => Nat.one_ne_zero (congrArg Fin.val (List.mem_singleton.mp h)))]
    have hoff : (rowGatherDims N K E wf).offCoord (ix2 e k) 1 = k.val := by
      unfold GatherDims.offCoord
      rw [dif_pos ((GatherDims.mem_sKept _ _).mpr ⟨fun h => Nat.one_ne_zero (congrArg Fin.val (List.mem_singleton.mp h)), List.not_mem_nil⟩)]
      rfl
    rw [hst, hoff]; omega

end RowGather

/-! ## A scatter of whole rows: where an update lands -/

section RowScatter

abbrev rowScatterDims (N K E : Nat)
    (wf : ScatterDims.WF ⟨2, ![N, K]⟩ ⟨2, ![E, 1]⟩ ⟨2, ![E, K]⟩ [1] [0] [0] 1) :
    ScatterDims ⟨2, ![N, K]⟩ ⟨2, ![E, 1]⟩ ⟨2, ![E, K]⟩ where
  updateWindowDims := [1]
  insertedWindowDims := [0]
  scatterDimsToOperandDims := [0]
  indexVectorDim := 1
  wf := wf

variable {N K E w : Nat} (wf : ScatterDims.WF ⟨2, ![N, K]⟩ ⟨2, ![E, 1]⟩ ⟨2, ![E, K]⟩ [1] [0] [0] 1)
  (e : Fin E) (k : Fin K) (idx : IVec ⟨2, ![E, 1]⟩ w)

theorem rowScatter_start0 :
    (rowScatterDims N K E wf).start (ix2 e k) idx 0 = (idx (ix2 e (0 : Fin 1))).toInt := by
  unfold ScatterDims.start
  rw [dif_pos (show (0 : Fin 2) ∈ (rowScatterDims N K E wf).scatterDimsToOperandDims from List.mem_singleton.mpr rfl)]
  have hsi : (rowScatterDims N K E wf).siIdx (ix2 e k) ⟨List.idxOf (0 : Fin 2) (rowScatterDims N K E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem rowScatter_start1 : (rowScatterDims N K E wf).start (ix2 e k) idx 1 = 0 := by
  unfold ScatterDims.start
  rw [dif_neg (fun h => Nat.one_ne_zero (congrArg Fin.val (List.mem_singleton.mp h)))]

theorem rowScatter_window0 : (rowScatterDims N K E wf).window (ix2 e k) 0 = 0 := by
  unfold ScatterDims.window
  rw [dif_neg (by simp [ScatterDims.sKept, Shape.kept, List.mem_filter])]

theorem rowScatter_window1 : (rowScatterDims N K E wf).window (ix2 e k) 1 = k.val := by
  unfold ScatterDims.window
  rw [dif_pos (by simp [ScatterDims.sKept, Shape.kept, List.mem_filter, List.mem_finRange])]
  rfl

/-- Update (e, k) lands on (i, d) exactly when edge e's index, read signed, is i and k = d. -/
theorem rowScatter_resultIdx (i : Fin N) (d : Fin K) :
    (rowScatterDims N K E wf).resultIdx? (ix2 e k) idx = some (ix2 i d)
      ↔ (idx (ix2 e (0 : Fin 1))).toInt = (i.val : ℤ) ∧ k = d := by
  have hs0 := rowScatter_start0 wf e k idx
  have hs1 := rowScatter_start1 wf e k idx
  have hw0 := rowScatter_window0 wf e k
  have hw1 := rowScatter_window1 wf e k
  have hi : i.val < N := i.isLt
  have hk : k.val < K := k.isLt
  unfold ScatterDims.resultIdx?
  split
  · next h =>
    have h0 := (h 0).1
    rw [hs0, hw0] at h0
    constructor
    · intro he
      have he' := Option.some.inj he
      have e0 := congrArg (fun f : (⟨2, ![N, K]⟩ : Shape).Idx => (f 0).val) he'
      have e1 := congrArg (fun f : (⟨2, ![N, K]⟩ : Shape).Idx => (f 1).val) he'
      change ((rowScatterDims N K E wf).start (ix2 e k) idx 0 + ((rowScatterDims N K E wf).window (ix2 e k) 0 : ℤ)).toNat = i.val at e0
      change ((rowScatterDims N K E wf).start (ix2 e k) idx 1 + ((rowScatterDims N K E wf).window (ix2 e k) 1 : ℤ)).toNat = d.val at e1
      rw [hs0, hw0] at e0
      rw [hs1, hw1] at e1
      exact ⟨by omega, Fin.ext (by omega)⟩
    · rintro ⟨e0, e1⟩
      subst e1
      congr 1
      funext a; refine Fin.ext ?_
      match a with
      | ⟨0, _⟩ =>
        show ((rowScatterDims N K E wf).start (ix2 e k) idx 0 + ((rowScatterDims N K E wf).window (ix2 e k) 0 : ℤ)).toNat = i.val
        rw [hs0, hw0]; omega
      | ⟨1, _⟩ =>
        show ((rowScatterDims N K E wf).start (ix2 e k) idx 1 + ((rowScatterDims N K E wf).window (ix2 e k) 1 : ℤ)).toNat = k.val
        rw [hs1, hw1]; omega
  · next h =>
    constructor
    · intro he; exact absurd he (by simp)
    · rintro ⟨e0, e1⟩
      exfalso; apply h
      intro a
      match a with
      | ⟨0, _⟩ =>
        show 0 ≤ (rowScatterDims N K E wf).start (ix2 e k) idx 0 + ((rowScatterDims N K E wf).window (ix2 e k) 0 : ℤ)
          ∧ (rowScatterDims N K E wf).start (ix2 e k) idx 0 + ((rowScatterDims N K E wf).window (ix2 e k) 0 : ℤ) < (N : ℤ)
        rw [hs0, hw0]; omega
      | ⟨1, _⟩ =>
        show 0 ≤ (rowScatterDims N K E wf).start (ix2 e k) idx 1 + ((rowScatterDims N K E wf).window (ix2 e k) 1 : ℤ)
          ∧ (rowScatterDims N K E wf).start (ix2 e k) idx 1 + ((rowScatterDims N K E wf).window (ix2 e k) 1 : ℤ) < (K : ℤ)
        rw [hs1, hw1]; omega

/-- The accumulating row scatter at the ideal instance, read at (i, d): the operand there plus the sum, over the edges
    whose index read signed is i, of the update row's entry d. -/
theorem rowScatterAdd_apply (x : (⟨2, ![N, K]⟩ : Shape).Idx → EReal) (upd : (⟨2, ![E, K]⟩ : Shape).Idx → EReal)
    (i : Fin N) (d : Fin K) :
    Ideal.hostScatterAdd (rowScatterDims N K E wf) x idx upd (ix2 i d)
      = x (ix2 i d) + ∑ e : Fin E, if (idx (ix2 e (0 : Fin 1))).toInt = (i.val : ℤ) then upd (ix2 e d) else 0 := by
  unfold Ideal.hostScatterAdd
  congr 1
  rw [Finset.sum_filter, sum_idx2]
  refine Finset.sum_congr rfl fun e _ => ?_
  simp only [rowScatter_resultIdx wf e _ idx i d]
  by_cases hA : (idx (ix2 e (0 : Fin 1))).toInt = (i.val : ℤ)
  · simp [hA]
  · simp [hA]

end RowScatter

/-! ## The degree factor -/

section Factor
variable {F : FTy → Type} [FloatOps F]

/-- How many edges name each node at the endpoint vector idx, clipped below at 1, to the power -1/2: the operations'
    composition, kept whole. -/
def invDeg (idx : IVec S1200000 32) : FVec F S100000 .f32 :=
  Host.powf
    (maximumf (broadcastInDim S100000 ![] Facts₀.bcast_S_S100000 (constant (F := F) S_ .f32 0x3F800000#32))
      (Host.scatterAdd scatter_S100000_S1200000x1_S1200000_n_0_0_1
        (broadcastInDim S100000 ![] Facts₀.bcast_S_S100000 (constant (F := F) S_ .f32 0x00000000#32))
        (broadcastInDim S1200000x1 ![0] Facts₀.bcast_S1200000_S1200000x1_0 idx)
        (broadcastInDim S1200000 ![] Facts₀.bcast_S_S1200000 (constant (F := F) S_ .f32 0x3F800000#32))))
    (broadcastInDim S100000 ![] Facts₀.bcast_S_S100000 (constant (F := F) S_ .f32 0xBF000000#32))

/-- The out-degree factor's stage is that composition over the source indices. -/
theorem v6_eq (idx : IVec S1200000 32) : Read.val_main_v6 (F := F) idx = invDeg (F := F) idx := rfl
/-- The in-degree factor's stage is that composition over the destination indices. -/
theorem v25_eq (idx : IVec S1200000 32) : Read.val_main_v25 (F := F) idx = invDeg (F := F) idx := rfl

end Factor

/-! ## Source indices in range -/

/-- A word in [0, 100000) read signed is its unsigned reading. -/
theorem src_nat {x : BitVec 32} (h : 0 ≤ x.toInt ∧ x.toInt < 100000) : x.toNat < 100000 ∧ x.toInt = (x.toNat : ℤ) := by
  have h2 : 2 * x.toNat < 2 ^ 32 := BitVec.toInt_pos_iff.mp h.1
  have h3 : x.toInt = (x.toNat : ℤ) := BitVec.toInt_eq_toNat_of_lt h2
  exact ⟨by omega, h3⟩

/-- Wrapping a negative index by 100000 leaves a nonnegative one alone. -/
theorem wrap_id (x : BitVec 32) (h : 0 ≤ x.toInt) :
    Scalar.select (IntOp.cmpi .slt x 0#32) (IntOp.addi x 100000#32) x = x := by
  have hc : IntOp.cmpi .slt x 0#32 = 0#1 := eq_zero_of_ne_one (fun h1 => by
    have h2 := IntOp.cmpi_slt.1 h1
    rw [show (0#32 : BitVec 32).toInt = 0 from by decide] at h2
    omega)
  rw [hc, select_zero]

/-! ## The stages at an index, at the ideal instance -/

section Stages
variable (u : FVec Ideal S100000x64 .f32) (src dst : IVec S1200000 32)

/-- The gather's start index of edge e is the source index itself. -/
theorem v15_at (hsrc : ∀ e, 0 ≤ (src e).toInt ∧ (src e).toInt < 100000) (e : Fin 1200000) :
    Read.val_main_v15 (F := Ideal) src (ix2 e (0 : Fin 1)) = src (ix1 e) := by
  rw [Read.val_main_v15_apply, Read.val_main_v14_apply, Read.val_main_v11_apply, Read.val_main_v13_apply,
    Read.val_main_v10_apply, Read.val_main_v12_apply, Read.val_main_c_apply, Read.val_main_c_3_apply]
  have hi : Read.idx_main_v15 (ix2 e (0 : Fin 1)) = ix1 e := by
    funext a; match a with | ⟨0, _⟩ => rfl
  rw [hi]
  exact wrap_id _ (hsrc _).1

/-- The scatter's index of edge e is the destination index. -/
theorem v18_at (e : Fin 1200000) : Read.val_main_v18 (F := Ideal) dst (ix2 e (0 : Fin 1)) = dst (ix1 e) := by
  rw [Read.val_main_v18_apply]
  have hi : Read.idx_main_v18 (ix2 e (0 : Fin 1)) = ix1 e := by
    funext a; match a with | ⟨0, _⟩ => rfl
  rw [hi]

/-- The normalised features: the feature times the source's factor. -/
theorem v9_at (n : Fin 100000) (d : Fin 64) :
    Read.val_main_v9 (F := Ideal) u src (ix2 n d) = u (ix2 n d) * invDeg (F := Ideal) src (ix1 n) := by
  rw [Read.val_main_v9_apply, Read.val_main_v8_apply, Read.val_main_v7_apply]
  have hi : Read.idx_main_v7 (Read.idx_main_v8 (ix2 n d)) = ix1 n := by
    funext a; match a with | ⟨0, _⟩ => rfl
  rw [hi, v6_eq]
  rfl

/-- The result's last factor: the destination's factor. -/
theorem v27_at (i : Fin 100000) (d : Fin 64) :
    Read.val_main_v27 (F := Ideal) dst (ix2 i d) = invDeg (F := Ideal) dst (ix1 i) := by
  rw [Read.val_main_v27_apply, Read.val_main_v26_apply]
  have hi : Read.idx_main_v26 (Read.idx_main_v27 (ix2 i d)) = ix1 i := by
    funext a; match a with | ⟨0, _⟩ => rfl
  rw [hi, v25_eq]

/-- The scatter's operand is zero. -/
theorem v17_at (i : Fin 100000) (d : Fin 64) : Read.val_main_v17 (F := Ideal) (ix2 i d) = 0 := by
  rw [Read.val_main_v17_apply, Read.val_main_cst_4_apply]
  exact Ideal.ofBits_zero_f32

/-- The message of edge e: the source row's normalised feature. -/
theorem v16_at (hsrc : ∀ e, 0 ≤ (src e).toInt ∧ (src e).toInt < 100000) (e : Fin 1200000) (d : Fin 64) :
    Read.val_main_v16 (F := Ideal) u src (ix2 e d)
      = u (ix2 ⟨(src (ix1 e)).toNat, (src_nat (hsrc (ix1 e))).1⟩ d)
          * invDeg (F := Ideal) src (ix1 ⟨(src (ix1 e)).toNat, (src_nat (hsrc (ix1 e))).1⟩) := by
  have hval : min (Read.val_main_v15 (F := Ideal) src (ix2 e (0 : Fin 1))).toInt.toNat (100000 - 1)
      = (src (ix1 e)).toNat := by
    rw [v15_at src hsrc e]
    have h := src_nat (hsrc (ix1 e))
    omega
  unfold Read.val_main_v16
  refine (rowGather_apply (N := 100000) (K := 64) (E := 1200000) (by decide)
    Facts₀.gather_S100000x64_S1200000x1_S1200000x64_1_0_n_n_0_1_164_wf _ _ e d).trans ?_
  refine Eq.trans ?_ (v9_at u src ⟨(src (ix1 e)).toNat, (src_nat (hsrc (ix1 e))).1⟩ d)
  exact congrArg (fun n => Read.val_main_v9 (F := Ideal) u src (ix2 n d)) (Fin.ext hval)

/-- The accumulating scatter's stage, as the row scatter of the messages along the destination indices into zeros. -/
theorem v19_eq : Read.val_main_v19 (F := Ideal) u src dst
    = Ideal.hostScatterAdd
        (rowScatterDims 100000 64 1200000 Facts₀.scatter_S100000x64_S1200000x1_S1200000x64_1_0_0_1_wf)
        (Read.val_main_v17 (F := Ideal)) (Read.val_main_v18 (F := Ideal) dst) (Read.val_main_v16 (F := Ideal) u src) := rfl

/-- The accumulated rows: at (i, d), the sum over the edges whose destination is i of the message's entry d. -/
theorem v19_at (hsrc : ∀ e, 0 ≤ (src e).toInt ∧ (src e).toInt < 100000) (i : Fin 100000) (d : Fin 64) :
    Read.val_main_v19 (F := Ideal) u src dst (ix2 i d)
      = ∑ e : Fin 1200000, if (dst (ix1 e)).toInt = (i.val : ℤ)
          then u (ix2 ⟨(src (ix1 e)).toNat, (src_nat (hsrc (ix1 e))).1⟩ d)
                * invDeg (F := Ideal) src (ix1 ⟨(src (ix1 e)).toNat, (src_nat (hsrc (ix1 e))).1⟩)
          else 0 :=
  (congrFun (v19_eq u src dst) (ix2 i d)).trans <|
    (rowScatterAdd_apply (N := 100000) (K := 64) (E := 1200000)
      Facts₀.scatter_S100000x64_S1200000x1_S1200000x64_1_0_0_1_wf (Read.val_main_v18 (F := Ideal) dst)
      (Read.val_main_v17 (F := Ideal)) (Read.val_main_v16 (F := Ideal) u src) i d).trans <|
    (congrArg (· + _) (v17_at i d)).trans <| (zero_add _).trans <|
    Finset.sum_congr rfl fun e _ => by rw [v18_at dst e, v16_at u src hsrc e d]

/-- THE REFERENCE AT (i, d): the sum over the edges into i of the source's normalised feature, times i's factor. -/
theorem ref_apply (hsrc : ∀ e, 0 ≤ (src e).toInt ∧ (src e).toInt < 100000) (i : Fin 100000) (d : Fin 64) :
    Read.val_main_v28 (F := Ideal) u src dst (ix2 i d)
      = (∑ e : Fin 1200000, if (dst (ix1 e)).toInt = (i.val : ℤ)
          then u (ix2 ⟨(src (ix1 e)).toNat, (src_nat (hsrc (ix1 e))).1⟩ d)
                * invDeg (F := Ideal) src (ix1 ⟨(src (ix1 e)).toNat, (src_nat (hsrc (ix1 e))).1⟩)
          else 0) * invDeg (F := Ideal) dst (ix1 i) :=
  (Read.val_main_v28_apply (F := Ideal) u src dst (ix2 i d)).trans <|
    (congrArg₂ (fun a b : Ideal .f32 => FloatOps.mulf a b) (v19_at u src dst hsrc i d) (v27_at dst i d)).trans
      (Ideal.mulf_def _ _)

end Stages

end Cert.ReferenceIdeal.RefValue

end
-- ==== Proof.SrcRange.lean ====
/-
  The precondition's range fact. The printed predicate is the conjunction of three universally
  quantified comparisons; the second and third say that every source index, read signed, is at
  least 0 and below 100000. Each `all` is a reduction by `and` from 1 into a single word, so the
  result being 1 gives the comparison at every position, and a signed comparison word being 1 is
  the order of the signed readings. The finiteness conjunct is not decoded.
-/
import proofs.«429303_j7997229105212_1_alg».proof.Proof.Gen.Pre_finite_inputs
import Idealize.ShloMosaic.Lib.ReduceAll
import Idealize.ShloMosaic.Lib.StableHlo.Predicate

namespace Cert.SrcRange

open Idealize.ShloMosaic Cert.Pre_finite_inputs

/-- The rank-0 shape has one index. -/
instance : Subsingleton S_.Idx := ⟨fun a b => funext fun d => d.elim0⟩

/-- Under the precondition every source index is in `[0, 100000)`, read signed. -/
theorem src_range {F : FTy → Type} [FloatOps F] (u : FVec F S100000x64 .f32) (src dst : IVec S1200000 32)
    (h : Cert.Pre_finite_inputs.fn (F := F) u src dst = fun _ => 1#1) :
    ∀ e, 0 ≤ (src e).toInt ∧ (src e).toInt < 100000 := by
  intro e
  have h0 := congrFun h (fun a => a.elim0)
  dsimp only [Cert.Pre_finite_inputs.fn] at h0
  obtain ⟨h12, h3⟩ := IntOp.andi_eq_one.1 h0
  obtain ⟨_, h2⟩ := IntOp.andi_eq_one.1 h12
  have hge := Host.reduce_andi_all _ _ _ _ _ h2 e
  have hlt := Host.reduce_andi_all _ _ _ _ _ h3 e
  have hge' : (0#32 : BitVec 32).toInt ≤ (src e).toInt := IntOp.cmpi_sge.1 hge
  have hlt' : (src e).toInt < (100000#32 : BitVec 32).toInt := IntOp.cmpi_slt.1 hlt
  have z0 : (0#32 : BitVec 32).toInt = 0 := by decide
  have z1 : (100000#32 : BitVec 32).toInt = 100000 := by decide
  rw [z0] at hge'
  rw [z1] at hlt'
  exact ⟨hge', hlt'⟩

end Cert.SrcRange
-- ==== Proof.Bridge.lean ====
/-
  The two programs' results, joined, over the extended reals.

  The kernel program pads its data (352 more node rows: features 0, degree factors 1; 128 more edges whose two
  endpoints are the word 100352, which names no row), lets its first region form one message per padded edge — the
  padded, scaled feature row its padded source names, or 0 where it names none —, lets its second region add into
  row i the messages of the padded edges whose padded destination is the word i and scale the row by its padded degree
  factor, and keeps the first 100000 rows. The reference program adds into row i, over the 1200000 true edges whose
  destination read signed is i, the scaled feature row the source names, and scales by i's degree factor. Where
  every source is a row number the two are equal row by row and column by column: a padding edge contributes 0 · x = 0,
  a true edge's message is the scaled row itself, and the word i equals a word exactly when that word read signed is i.
  The degree factors are one and the same composition of operations in both programs and are never opened.
-/
import proofs.«429303_j7997229105212_1_alg».proof.Defs
import proofs.«429303_j7997229105212_1_alg».proof.Proof.LaunchI
import proofs.«429303_j7997229105212_1_alg».proof.Proof.GatherValue
import proofs.«429303_j7997229105212_1_alg».proof.Proof.ScatterValue
import proofs.«429303_j7997229105212_1_alg».proof.Proof.HostValue
import proofs.«429303_j7997229105212_1_alg».proof.Proof.SumLaw
import proofs.«429303_j7997229105212_1_alg».proof.Proof.RefValue
import proofs.«429303_j7997229105212_1_alg».proof.Proof.SrcRange
import Idealize.ShloMosaic.Lib.ValueIdx
import Idealize.ShloMosaic.Lib.ValueLayout

set_option maxRecDepth 16384

noncomputable section

namespace Cert.KernelIdeal.Bridge

open Cert.KernelIdeal
open Idealize.ShloMosaic Idealize.ShloMosaic.TcCoe Idealize.SL.Sem
open Idealize.ShloMosaic.ValueIdx
open scoped BigOperators

variable (m : (ℓ : Loc nD τ sig) → Buf (Elt Ideal) ℓ)

/-- The arrays the host stretches leave for the two regions, at their literal types: the padded features, the two padded
    degree columns, the two padded endpoint rows. -/
abbrev uP (c : Dev nD) : FVec Ideal S100352x64 .f32 := Gen.V15 m c main_v13
abbrev oP (c : Dev nD) : FVec Ideal S100352x1 .f32 := Gen.V15 m c main_v15
abbrev iP (c : Dev nD) : FVec Ideal S100352x1 .f32 := Gen.V15 m c main_v17
abbrev sP (c : Dev nD) : IVec S1x1200128 32 := Gen.V15 m c main_v19
abbrev dP (c : Dev nD) : IVec S1x1200128 32 := Gen.V15 m c main_v21

/-- The degree factor — how many edges name a node, clipped below at 1, to the power -1/2 — is the same composition of
    the same operations in the two programs. -/
theorem invDeg_eq (idx : IVec S1200000 32) :
    HostValue.invDeg (F := Ideal) idx = Cert.ReferenceIdeal.RefValue.invDeg (F := Ideal) idx := rfl

/-- THE TWO RESULTS AT (i, d), for any contents the two regions may find as long as they are the program's: the gather
    region enters at the host stretches' results (`h0`); the scatter region finds the endpoints' row and the degree column
    as the host left them (`h21`, `h17`) and the messages as the gather region left them (`h22`). Then row `i`,
    column `d` of what the scatter region leaves is the reference's value there. -/
theorem core (c : Dev nD)
    (hpre : Cert.Pre_finite_inputs.fn (F := Ideal) (HostValue.argU m c) (HostValue.argSrc m c) (HostValue.argDst m c)
      = fun _ => 1#1)
    (V0 V1 : (c : Dev nD) → (b : Ref sig .tc) → Buf (Elt Ideal) ((c : Thread nD τ).loc b))
    (h0 : ∀ b, V0 c b = Gen.V15 m c b)
    (h21 : V1 c main_v21 = Gen.V15 m c main_v21) (h17 : V1 c main_v17 = Gen.V15 m c main_v17)
    (h22 : V1 c main_v22 = (Gather.dat0 (F := Ideal) V0 c).arrAt 3 cfg0.N)
    (i : Fin 100000) (d : Fin 64) (hi : i.val < 100352) :
    (Scatter.dat1 (F := Ideal) V1 c).arrAt 3 cfg1.N (ix2 (⟨i.val, hi⟩ : Fin 100352) d)
      = Cert.ReferenceIdeal.Read.val_main_v28 (F := Ideal) (HostValue.argU m c) (HostValue.argSrc m c)
          (HostValue.argDst m c) (ix2 i d) := by
  -- every source is a row number
  have hsrc : ∀ e : Fin 1200000, 0 ≤ (HostValue.argSrc m c (ix1 e)).toInt ∧ (HostValue.argSrc m c (ix1 e)).toInt < 100000 :=
    fun e => Cert.SrcRange.src_range _ _ _ hpre (ix1 e)
  -- what the scatter region leaves, over the host's arrays and the gather region's messages
  have hk := ScatterValue.rst_value V1 c ⟨i.val, hi⟩ d
  rw [h21, h17, h22] at hk
  -- a message is the padded, scaled row its padded source names
  have hmsg : ∀ (j : Fin 1200128) (d : Fin 64),
      ((Gather.dat0 (F := Ideal) V0 c).arrAt 3 cfg0.N : FVec Ideal S1200128x64 .bf16) (ix2 j d)
        = if h : (sP m c (ix2 (0 : Fin 1) j)).toNat < 100352
          then uP m c (ix2 ⟨_, h⟩ d) * oP m c (ix2 ⟨_, h⟩ (0 : Fin 1))
          else 0 := by
    intro j d
    have hm := GatherValue.msg_value V0 c j d
    unfold GatherValue.marr GatherValue.sarr GatherValue.uarr GatherValue.darr at hm
    rw [h0 main_v19, h0 main_v13, h0 main_v15] at hm
    exact hm
  refine hk.trans ?_
  refine (Cert.SumLaw.sum_law
    (fun a d => HostValue.argU m c (ix2 a d))
    (fun a => HostValue.invDeg (F := Ideal) (HostValue.argSrc m c) (ix1 a))
    (fun a => HostValue.invDeg (F := Ideal) (HostValue.argDst m c) (ix1 a))
    (fun e => HostValue.argSrc m c (ix1 e)) (fun e => HostValue.argDst m c (ix1 e)) hsrc
    (fun a d => uP m c (ix2 a d))
    (fun a d => HostValue.v13_apply m c a d)
    (fun a => oP m c (ix2 a (0 : Fin 1)))
    (fun a => iP m c (ix2 a (0 : Fin 1)))
    (fun a => HostValue.v15_apply m c a 0) (fun a => HostValue.v17_apply m c a 0)
    (fun j => sP m c (ix2 (0 : Fin 1) j))
    (fun j => dP m c (ix2 (0 : Fin 1) j))
    (fun j => HostValue.v19_apply m c 0 j) (fun j => HostValue.v21_apply m c 0 j)
    (fun j d => ((Gather.dat0 (F := Ideal) V0 c).arrAt 3 cfg0.N : FVec Ideal S1200128x64 .bf16) (ix2 j d))
    hmsg i d).trans ?_
  rw [invDeg_eq (HostValue.argSrc m c), invDeg_eq (HostValue.argDst m c)]
  exact (Cert.ReferenceIdeal.RefValue.ref_apply (HostValue.argU m c) (HostValue.argSrc m c) (HostValue.argDst m c)
    (fun e => Cert.SrcRange.src_range _ _ _ hpre e) i d).symm

/-- THE PROGRAM'S RESULT: the first 100000 rows of what the scatter region leaves are the reference's result, under the
    precondition (every source a row number; its other conjuncts are not used). -/
theorem result_eq (c : Dev nD)
    (hpre : Cert.Pre_finite_inputs.fn (F := Ideal) (m ((c : Thread nD τ).loc main_arg0)) (m ((c : Thread nD τ).loc main_arg1))
      (m ((c : Thread nD τ).loc main_arg2)) = fun _ => 1#1) :
    extractStridedSlice (s := S100352x64) S100000x64 ![0, 0] (Launch.rstArr m c) Gen.slices_S100352x64_S100000x64_0_0
      = Cert.ReferenceIdeal.Read.val_main_v28 (F := Ideal) (m ((c : Thread nD τ).loc main_arg0))
          (m ((c : Thread nD τ).loc main_arg1)) (m ((c : Thread nD τ).loc main_arg2)) := by
  funext j
  obtain ⟨i, d, rfl⟩ : ∃ (i : Fin 100000) (d : Fin 64), j = ix2 i d := ⟨j 0, j 1, eq_ix2 j⟩
  have hi : i.val < 100352 := by have := i.isLt; omega
  refine (slice2_axis0_apply (n0 := 100352) (n1 := 64) (m := 100000) 0
    (Launch.rstArr m c : FVec Ideal S100352x64 .f32) Gen.slices_S100352x64_S100000x64_0_0 i d ⟨i.val, hi⟩
    (Nat.zero_add _).symm).trans ?_
  exact core m c hpre (Launch.Vin0 m) (Launch.Vin1 m) (fun b => rfl)
    (Launch.Vin1_of_ne m c main_v21 (by decide)) (Launch.Vin1_of_ne m c main_v17 (by decide)) (Launch.Vin1_msg m c) i d hi

/-- The certificate's precondition, at one device, is the predicate's value there. -/
theorem pre_of (h : Cert.Pre_KernelIdeal m) (c : Dev nD) :
    Cert.Pre_finite_inputs.fn (F := Ideal) (m ((c : Thread nD τ).loc main_arg0)) (m ((c : Thread nD τ).loc main_arg1))
      (m ((c : Thread nD τ).loc main_arg2)) = fun _ => 1#1 := h c

end Cert.KernelIdeal.Bridge

end
-- ==== Proof.lean ====
/-
  A graph layer's message passing: every node's features are scaled by its out-degree to the power -1/2, each edge
  carries its source node's scaled features to its destination, a node's result is the sum of what arrives there, scaled
  by its in-degree to the power -1/2. The reference gathers and scatter-adds. The kernel does both by blocked one-hot
  contractions: a first launch builds each edge's message by comparing the edge's source index with every node index of
  a block and contracting the 0/1 mask with the block's scaled features, accumulated over the node blocks; a second
  launch builds each node's result by comparing every node index of a block with the edge destinations of a tile and
  contracting the mask with the tile's messages, accumulated over the edge tiles and scaled at the last tile. Nodes and
  edges are padded to whole blocks: padded node rows are zero, padded edges carry an index that names no row.

  Over the extended reals the two agree wherever every source index names a node (0 ≤ src < 100000, which the
  precondition states: the reference's gather indexes out of range elsewhere): a mask entry is 0 or 1, 0·x = 0,
  1·x = x, and a sum may be reordered, so an edge's message is its source node's scaled row, a padded edge adds nothing,
  and a node's contraction is the sum over exactly the edges that arrive there. No finiteness of the features is used,
  and nothing is assumed of the destination indices: an edge whose destination names no node is dropped by both.

  The three frames: each kernel program runs its two launches to the end on every grid point (the first carries its
  accumulator from point to point, the second its output block), nothing faults, and no argument is written; the
  reference is a line of host operations. The idealization rewrote nothing, so the two kernel programs have one text.
-/
import proofs.«429303_j7997229105212_1_alg».proof.Defs
import proofs.«429303_j7997229105212_1_alg».proof.Proof.Gen.Kernel
import proofs.«429303_j7997229105212_1_alg».proof.Proof.Gen.KernelIdeal
import proofs.«429303_j7997229105212_1_alg».proof.Proof.Gen.ReferenceIdeal
import proofs.«429303_j7997229105212_1_alg».proof.Proof.Gen.Pre_finite_inputs
import proofs.«429303_j7997229105212_1_alg».proof.Proof.Gen.ReferenceIdeal.Run
import proofs.«429303_j7997229105212_1_alg».proof.Proof.Gen.ReferenceIdeal.Read
import proofs.«429303_j7997229105212_1_alg».proof.Proof.LaunchB
import proofs.«429303_j7997229105212_1_alg».proof.Proof.RunMainI
import proofs.«429303_j7997229105212_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs to the end and leaves its arguments as launched. -/
theorem frame_kernel : Cert.frame_Kernel := fun m ρ _ => Cert.Kernel.Launch.frame m ρ

/-- So does the idealized one: the same text at the extended reals. -/
theorem frame_kernelIdeal : Cert.frame_KernelIdeal := fun m ρ _ => Cert.KernelIdeal.Launch.frame m ρ

/-- The reference is a line of host operations: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments the kernel program ends with the first 100000 rows of what its second
    launch leaves, the reference with its composed term of the arguments; where every source index names a node these
    are one array. -/
theorem algebraic : Cert.algebraic_KernelIdeal_ReferenceIdeal := by
  intro m ρ m' ρ' hpre hagree
  refine ⟨_, Cert.KernelIdeal.Launch.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.KernelIdeal.Bridge.result_eq m c (Cert.KernelIdeal.Bridge.pre_of m hpre c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
